-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S2x160000 : S_.BroadcastsInDim S2x160000 (![] : Fin 0 → Fin S2x160000.rank)
  reducesTo_S2x160000_S_d0_1 : S2x160000.ReducesTo [0, 1] S_

variable [Facts]

def fn_part1 {F : FTy → Type} [FloatOps F] (main_arg1 : IVec S2x160000 32) (main_arg5 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_c_8 : IVec S_ 32 := constantI S_ 32 0#32
  let main_v24 : IVec S2x160000 32 := broadcastInDim S2x160000 ![] bcast_S_S2x160000 main_c_8
  let main_v25 : IVec S2x160000 1 := cmpi .sge main_arg1 main_v24
  let main_c_9 : IVec S_ 32 := constantI S_ 32 10000#32
  let main_v26 : IVec S2x160000 32 := broadcastInDim S2x160000 ![] bcast_S_S2x160000 main_c_9
  let main_v27 : IVec S2x160000 1 := cmpi .slt main_arg1 main_v26
  let main_v28 : IVec S2x160000 1 := andi main_v25 main_v27
  let main_c_10 : IVec S_ 1 := constantI S_ 1 1#1
  let main_v29 : IVec S_ 1 := (fun x v => Host.reduce IntOp.andi x v reducesTo_S2x160000_S_d0_1 h_S_) main_v28 main_c_10
  let main_v30 : IVec S_ 1 := andi main_v23 main_v29
  main_v30

def fn {F : FTy → Type} [FloatOps F] (main_arg0 : FVec F S10000x512 .f32) (main_arg1 : IVec S2x160000 32) (main_arg2 : FVec F S512x512 .f32) (main_arg3 : FVec F S512 .f32) (main_arg4 : FVec F S512x512 .f32) (main_arg5 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg1 main_arg5 main_v13 main_v16
-- ==== Kernel.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S1x160000 : Shape := ⟨2, ![1, 160000]⟩
abbrev S160000 : Shape := ⟨1, ![160000]⟩
abbrev S_ : Shape := ⟨0, ![]⟩
abbrev S10240x10240 : Shape := ⟨2, ![10240, 10240]⟩
abbrev S160000x1 : Shape := ⟨2, ![160000, 1]⟩
abbrev S160000x2 : Shape := ⟨2, ![160000, 2]⟩
abbrev S10240x512 : Shape := ⟨2, ![10240, 512]⟩
abbrev S1x512 : Shape := ⟨2, ![1, 512]⟩
abbrev S2048x512 : Shape := ⟨2, ![2048, 512]⟩
abbrev S1024x2048 : Shape := ⟨2, ![1024, 2048]⟩
abbrev S1024x512 : Shape := ⟨2, ![1024, 512]⟩

abbrev nBuf : Space → Nat
  | .hbm => 48
  | .vmem => 26
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1x160000, .i32⟩
  | .hbm, ⟨7, _⟩ => ⟨S160000, .i32⟩
  | .hbm, ⟨8, _⟩ => ⟨S1x160000, .i32⟩
  | .hbm, ⟨9, _⟩ => ⟨S160000, .i32⟩
  | .hbm, ⟨10, _⟩ => ⟨S_, .f32⟩
  | .hbm, ⟨11, _⟩ => ⟨S10240x10240, .f32⟩
  | .hbm, ⟨12, _⟩ => ⟨S_, .i32⟩
  | .hbm, ⟨13, _⟩ => ⟨S160000, .i32⟩
  | .hbm, ⟨14, _⟩ => ⟨S160000, .i1⟩
  | .hbm, ⟨15, _⟩ => ⟨S_, .i32⟩
  | .hbm, ⟨16, _⟩ => ⟨S160000, .i32⟩
  | .hbm, ⟨17, _⟩ => ⟨S160000, .i32⟩
  | .hbm, ⟨18, _⟩ => ⟨S160000, .i32⟩
  | .hbm, ⟨19, _⟩ => ⟨S_, .i32⟩
  | .hbm, ⟨20, _⟩ => ⟨S160000, .i32⟩
  | .hbm, ⟨21, _⟩ => ⟨S160000, .i1⟩
  | .hbm, ⟨22, _⟩ => ⟨S_, .i32⟩
  | .hbm, ⟨23, _⟩ => ⟨S160000, .i32⟩
  | .hbm, ⟨24, _⟩ => ⟨S160000, .i32⟩
  | .hbm, ⟨25, _⟩ => ⟨S160000, .i32⟩
  | .hbm, ⟨26, _⟩ => ⟨S160000x1, .i32⟩
  | .hbm, ⟨27, _⟩ => ⟨S160000x1, .i32⟩
  | .hbm, ⟨28, _⟩ => ⟨S160000x2, .i32⟩
  | .hbm, ⟨29, _⟩ => ⟨S_, .f32⟩
  | .hbm, ⟨30, _⟩ => ⟨S160000, .f32⟩
  | .hbm, ⟨31, _⟩ => ⟨S10240x10240, .f32⟩
  | .hbm, ⟨32, _⟩ => ⟨S10240x10240, .bf16⟩
  | .hbm, ⟨33, _⟩ => ⟨S_, .i32⟩
  | .hbm, ⟨34, _⟩ => ⟨S_, .f32⟩
  | .hbm, ⟨35, _⟩ => ⟨S10240x512, .f32⟩
  | .hbm, ⟨36, _⟩ => ⟨S10240x512, .bf16⟩
  | .hbm, ⟨37, _⟩ => ⟨S512x512, .f32⟩
  | .hbm, ⟨38, _⟩ => ⟨S512x512, .bf16⟩
  | .hbm, ⟨39, _⟩ => ⟨S512x512, .f32⟩
  | .hbm, ⟨40, _⟩ => ⟨S512x512, .bf16⟩
  | .hbm, ⟨41, _⟩ => ⟨S1x512, .f32⟩
  | .hbm, ⟨42, _⟩ => ⟨S1x512, .f32⟩
  | .hbm, ⟨43, _⟩ => ⟨S10240x512, .bf16⟩
  | .hbm, ⟨44, _⟩ => ⟨S10240x512, .bf16⟩
  | .hbm, ⟨45, _⟩ => ⟨S10240x512, .bf16⟩
  | .hbm, ⟨46, _⟩ => ⟨S10240x512, .f32⟩
  | .hbm, ⟨47, _⟩ => ⟨S10000x512, .f32⟩
  | .local _ .vmem, ⟨0, _⟩ => ⟨S2048x512, .bf16⟩
  | .local _ .vmem, ⟨1, _⟩ => ⟨S2048x512, .bf16⟩
  | .local _ .vmem, ⟨2, _⟩ => ⟨S512x512, .bf16⟩
  | .local _ .vmem, ⟨3, _⟩ => ⟨S1x512, .f32⟩
  | .local _ .vmem, ⟨4, _⟩ => ⟨S2048x512, .bf16⟩
  | .local _ .vmem, ⟨5, _⟩ => ⟨S2048x512, .bf16⟩
  | .local _ .vmem, ⟨6, _⟩ => ⟨S1024x2048, .bf16⟩
  | .local _ .vmem, ⟨7, _⟩ => ⟨S1024x2048, .bf16⟩
  | .local _ .vmem, ⟨8, _⟩ => ⟨S2048x512, .bf16⟩
  | .local _ .vmem, ⟨9, _⟩ => ⟨S2048x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | .local _ .vmem, ⟨13, _⟩ => ⟨S2048x512, .bf16⟩
  | .local _ .vmem, ⟨14, _⟩ => ⟨S2048x512, .bf16⟩
  | .local _ .vmem, ⟨15, _⟩ => ⟨S512x512, .bf16⟩
  | .local _ .vmem, ⟨16, _⟩ => ⟨S1x512, .f32⟩
  | .local _ .vmem, ⟨17, _⟩ => ⟨S2048x512, .bf16⟩
  | .local _ .vmem, ⟨18, _⟩ => ⟨S2048x512, .bf16⟩
  | .local _ .vmem, ⟨19, _⟩ => ⟨S1024x2048, .bf16⟩
  | .local _ .vmem, ⟨20, _⟩ => ⟨S1024x2048, .bf16⟩
  | .local _ .vmem, ⟨21, _⟩ => ⟨S2048x512, .bf16⟩
  | .local _ .vmem, ⟨22, _⟩ => ⟨S2048x512, .bf16⟩
  | .local _ .vmem, ⟨23, _⟩ => ⟨S1024x512, .f32⟩
  | .local _ .vmem, ⟨24, _⟩ => ⟨S1024x512, .f32⟩
  | .local _ .vmem, ⟨25, _⟩ => ⟨S1024x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_call0_v0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![10, 5], ![false, false]⟩

def k1_cond2 (i : grid1.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![10, 5], ![false, false]⟩

def k3_cond2 (i : grid3.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S10240x10240 : S_.BroadcastsInDim S10240x10240 (![] : Fin 0 → Fin S10240x10240.rank)
  bcast_S_S160000 : S_.BroadcastsInDim S160000 (![] : Fin 0 → Fin S160000.rank)
  bcast_S160000_S160000x1_0 : S160000.BroadcastsInDim S160000x1 (![0] : Fin 1 → Fin S160000x1.rank)
  concatenates_S160000x1_S160000x1_S160000x2_d1 : Shape.Concatenates [S160000x1, S160000x1] S160000x2 1
  bitsLt_bf16_f32 : FTy.bits .bf16 < FTy.bits .f32
  pads_S10000x512_S10240x512_02400_000 : S10000x512.Pads (![0, 0] : Fin 2 → Nat) ![240, 0] ![0, 0] S10240x512
  h_S_ : 0 < S_.numel
  transposes_S512x512_S512x512_1_0 : S512x512.Transposes [1, 0] S512x512
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  packedbf16_S2048x512_S2048x512_0_0 : (Rect.unit (s := S2048x512) ![0, 0] S2048x512.size inb_S2048x512_S2048x512_0_0).PackedRows (EltTy.packing .bf16)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  packedbf16_S1024x512_S1024x512_0_0 : (Rect.unit (s := S1024x512) ![0, 0] S1024x512.size inb_S1024x512_S1024x512_0_0).PackedRows (EltTy.packing .bf16)
  slices_S10240x512_S10000x512_0_0 : S10240x512.Slices ![0, 0] S10000x512
  scatter_S10240x10240_S160000x2_S160000_n_01_01_1_wf : ScatterDims.WF S10240x10240 S160000x2 S160000 [] [0, 1] [0, 1] 1
  dot_S2048x512_S512x512_S2048x512_1_0_0_1_n_n_wf : DotDims.WF S2048x512 S512x512 S2048x512 [1] [0] [0] [1] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S10240x512.size a
  hwx0_0 : ∀ i : grid0.Coords, EltTy.bits .bf16 = 32 ∨ (Rect.block (s := S10240x512) S2048x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S10240x512.size a
  hwx0_3 : ∀ i : grid0.Coords, EltTy.bits .bf16 = 32 ∨ (Rect.block (s := S10240x512) S2048x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S10240x10240.size a
  hwx1_0 : ∀ i : grid1.Coords, EltTy.bits .bf16 = 32 ∨ (Rect.block (s := S10240x10240) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S10240x512.size a
  hwx1_1 : ∀ i : grid1.Coords, EltTy.bits .bf16 = 32 ∨ (Rect.block (s := S10240x512) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S10240x512.size a
  hwx1_2 : ∀ i : grid1.Coords, EltTy.bits .bf16 = 32 ∨ (Rect.block (s := S10240x512) S1024x512.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S10240x512.size a
  hwx2_0 : ∀ i : grid2.Coords, EltTy.bits .bf16 = 32 ∨ (Rect.block (s := S10240x512) S2048x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .bf16 = 32 ∨ (Rect.block (s := S512x512) S512x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x512.size a ≤ S10240x512.size a
  hwx2_3 : ∀ i : grid2.Coords, EltTy.bits .bf16 = 32 ∨ (Rect.block (s := S10240x512) S2048x512.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S10240x10240.size a
  hwx3_0 : ∀ i : grid3.Coords, EltTy.bits .bf16 = 32 ∨ (Rect.block (s := S10240x10240) S1024x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x512.size a ≤ S10240x512.size a
  hwx3_1 : ∀ i : grid3.Coords, EltTy.bits .bf16 = 32 ∨ (Rect.block (s := S10240x512) S2048x512.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x512.size a ≤ S10240x512.size a
  hwx3_2 : ∀ i : grid3.Coords, EltTy.bits .f32 = 32 ∨ (Rect.block (s := S10240x512) S1024x512.size (cc3_transform_2 i) (hinb3_2 i)).WholeWords (EltTy.packing .f32)

variable [Facts₀]

def scatter_S10240x10240_S160000x2_S160000_n_01_01_1 : ScatterDims S10240x10240 S160000x2 S160000 where
  updateWindowDims := []
  insertedWindowDims := [0, 1]
  scatterDimsToOperandDims := [0, 1]
  indexVectorDim := 1
  wf := scatter_S10240x10240_S160000x2_S160000_n_01_01_1_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_v22) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v30) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S2048x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v20) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S2048x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v32) S1024x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S1x160000 : Shape := ⟨2, ![1, 160000]⟩
abbrev S160000 : Shape := ⟨1, ![160000]⟩
abbrev S1x512 : Shape := ⟨2, ![1, 512]⟩
abbrev S_ : Shape := ⟨0, ![]⟩
abbrev S160000x1 : Shape := ⟨2, ![160000, 1]⟩
abbrev S160000x512 : Shape := ⟨2, ![160000, 512]⟩

abbrev nBuf : Space → Nat
  | .hbm => 52
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1x160000, .i32⟩
  | .hbm, ⟨7, _⟩ => ⟨S160000, .i32⟩
  | .hbm, ⟨8, _⟩ => ⟨S1x160000, .i32⟩
  | .hbm, ⟨9, _⟩ => ⟨S160000, .i32⟩
  | .hbm, ⟨10, _⟩ => ⟨S512x512, .f32⟩
  | .hbm, ⟨11, _⟩ => ⟨S10000x512, .f32⟩
  | .hbm, ⟨12, _⟩ => ⟨S1x512, .f32⟩
  | .hbm, ⟨13, _⟩ => ⟨S10000x512, .f32⟩
  | .hbm, ⟨14, _⟩ => ⟨S10000x512, .f32⟩
  | .hbm, ⟨15, _⟩ => ⟨S_, .i32⟩
  | .hbm, ⟨16, _⟩ => ⟨S160000, .i32⟩
  | .hbm, ⟨17, _⟩ => ⟨S160000, .i1⟩
  | .hbm, ⟨18, _⟩ => ⟨S_, .i32⟩
  | .hbm, ⟨19, _⟩ => ⟨S160000, .i32⟩
  | .hbm, ⟨20, _⟩ => ⟨S160000, .i32⟩
  | .hbm, ⟨21, _⟩ => ⟨S160000, .i32⟩
  | .hbm, ⟨22, _⟩ => ⟨S160000x1, .i32⟩
  | .hbm, ⟨23, _⟩ => ⟨S160000x512, .f32⟩
  | .hbm, ⟨24, _⟩ => ⟨S_, .f32⟩
  | .hbm, ⟨25, _⟩ => ⟨S10000x512, .f32⟩
  | .hbm, ⟨26, _⟩ => ⟨S160000x1, .i32⟩
  | .hbm, ⟨27, _⟩ => ⟨S10000x512, .f32⟩
  | .hbm, ⟨28, _⟩ => ⟨S_, .f32⟩
  | .hbm, ⟨29, _⟩ => ⟨S10000x512, .f32⟩
  | .hbm, ⟨30, _⟩ => ⟨S10000x512, .f32⟩
  | .hbm, ⟨31, _⟩ => ⟨S512x512, .f32⟩
  | .hbm, ⟨32, _⟩ => ⟨S10000x512, .f32⟩
  | .hbm, ⟨33, _⟩ => ⟨S1x512, .f32⟩
  | .hbm, ⟨34, _⟩ => ⟨S10000x512, .f32⟩
  | .hbm, ⟨35, _⟩ => ⟨S10000x512, .f32⟩
  | .hbm, ⟨36, _⟩ => ⟨S_, .i32⟩
  | .hbm, ⟨37, _⟩ => ⟨S160000, .i32⟩
  | .hbm, ⟨38, _⟩ => ⟨S160000, .i1⟩
  | .hbm, ⟨39, _⟩ => ⟨S_, .i32⟩
  | .hbm, ⟨40, _⟩ => ⟨S160000, .i32⟩
  | .hbm, ⟨41, _⟩ => ⟨S160000, .i32⟩
  | .hbm, ⟨42, _⟩ => ⟨S160000, .i32⟩
  | .hbm, ⟨43, _⟩ => ⟨S160000x1, .i32⟩
  | .hbm, ⟨44, _⟩ => ⟨S160000x512, .f32⟩
  | .hbm, ⟨45, _⟩ => ⟨S_, .f32⟩
  | .hbm, ⟨46, _⟩ => ⟨S10000x512, .f32⟩
  | .hbm, ⟨47, _⟩ => ⟨S160000x1, .i32⟩
  | .hbm, ⟨48, _⟩ => ⟨S10000x512, .f32⟩
  | .hbm, ⟨49, _⟩ => ⟨S_, .f32⟩
  | .hbm, ⟨50, _⟩ => ⟨S10000x512, .f32⟩
  | .hbm, ⟨51, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_1 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call1_cst : Ref sig .tc := ⟨.hbm, 49, rfl⟩
abbrev main_call1_v0 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  transposes_S512x512_S512x512_1_0 : S512x512.Transposes [1, 0] S512x512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  dot_S10000x512_S512x512_S10000x512_1_0_0_1_n_n_wf : DotDims.WF S10000x512 S512x512 S10000x512 [1] [0] [0] [1] [] []
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf

class Facts : Prop extends Facts₀ where

variable [Facts]
-- ==== Proof.Kernel.Region0.lean ====
import proofs.«402366_j18588618457604_1_alg».proof.Proof.Gen.Kernel.Launch
import proofs.«402366_j18588618457604_1_alg».proof.Proof.Gen.Kernel.Skeleton
import proofs.«402366_j18588618457604_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 0: the first linear layer, one row block per grid point

The region runs the body `cc0__linear_kernel` on a grid of 5 points. At point `t` the body finds
* in window 0's buffer the `t`-th block of 2048 rows of the (padded, rounded) feature matrix,
* in window 1's buffer the whole 512 × 512 weight matrix and in window 2's the 1 × 512 bias row — both
  brought in once, at the first point, and left untouched by the body, so they are still there at every
  later point,
and stores into window 3's buffer the rounded value `x · W + b` of that row block (`k0_pay1`), through the
rectangle that is the whole buffer. Nothing is carried from point to point.

Everything is stated at a PARAMETER `V`, the contents of the core's buffers when the region is entered,
and for every float model `F`. -/

-- membership of an index in a rectangle of these extents is decided by structural recursion on the
-- coordinates of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (a new row block at every point) holds its block when the body starts, for any proof data
    whose array is the entry contents (`hA`) and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight matrix: one block, the same at every point, brought in at the first point only)
    holds that block when the body starts at EVERY point: where it is not brought in again its block index has
    not moved and the body left the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row), likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole, through the rectangle at offset zero of the buffer's own extents -/

/-- The offset of every access: zero along both axes. -/
theorem hz0 : (![0, 0] : Fin 2 → ℕ) = fun _ => 0 := by
  funext a; fin_cases a <;> rfl

abbrev r0_0 : Rect S2048x512 := Rect.unit (s := S2048x512) ![0, 0] S2048x512.size inb_S2048x512_S2048x512_0_0
abbrev r0_1 : Rect S512x512 := Rect.unit (s := S512x512) ![0, 0] S512x512.size inb_S512x512_S512x512_0_0
abbrev r0_2 : Rect S1x512 := Rect.unit (s := S1x512) ![0, 0] S1x512.size inb_S1x512_S1x512_0_0

/-! ## What the body leaves in the output window's buffer -/

/-- Window 3's buffer after the body, from the three input blocks: its one store, whose payload is the rounded
    `x · W + b` of what the three loads read. -/
def out0_3 (x0 : Vec F S2048x512 .bf16) (x1 : Vec F S512x512 .bf16) (x2 : Vec F S1x512 .f32) : Vec F S2048x512 .bf16 :=
  View.canon [⟨r0_0, k0_pay1 (View.ld x0 r0_0) (View.ld x1 r0_1) (View.ld x2 r0_2)⟩]

/-- Every access being of a whole buffer, a load reads the block itself and the one store leaves its payload:
    the buffer ends at the payload of the three blocks. -/
theorem out0_3_eq (x0 : Vec F S2048x512 .bf16) (x1 : Vec F S512x512 .bf16) (x2 : Vec F S1x512 .f32) :
    out0_3 x0 x1 x2 = k0_pay1 x0 x1 x2 := by
  unfold out0_3
  rw [View.canon_unit_zero (S := S2048x512) hz0, View.ld_unit_zero (S := S2048x512) hz0,
    View.ld_unit_zero (S := S512x512) hz0, View.ld_unit_zero (S := S1x512) hz0]

/-- The one store's rectangle is the whole buffer, so it covers it. -/
theorem cover0_3 (p0 : Vec F S2048x512 .bf16) (y : S2048x512.Idx) :
    ∃ pc ∈ ([⟨r0_0, p0⟩] : List (View.Piece (Elt F) S2048x512 .bf16)), y ∈ pc.1.set :=
  ⟨_, List.mem_singleton_self _, View.mem_set_unit_zero (S := S2048x512) hz0 inb_S2048x512_S2048x512_0_0 y⟩

/-! ## The body's triple -/

set_option maxHeartbeats 1000000 in
/-- The body on whole staging memrefs — the three inputs' at read contents `x0 x1 x2`, the output's at anything —
    runs to the continuation holding the inputs' as they were and the output's at `out0_3` of them: three loads,
    a load of the output buffer whose value is not used, and the store. -/
theorem sound_kernel0 (c : Dev nD) (E : Set ℕ) (i : grid0.Coords)
    (arg1 : Memref sig .tc .vmem S2048x512 .bf16) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S2048x512 .bf16) (harg4 : arg4.IsWhole)
    (x0 : Vec F S2048x512 .bf16) (x1 : Vec F S512x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region on core `c`: the arrays as the region finds them; after the body at point `t`
    each input's buffer still at its block and the output's at `out0_3` of the three input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block when the body starts, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, what the core owes, and each window's current
    staging buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Region1.lean ====
import proofs.«402366_j18588618457604_1_alg».proof.Proof.Gen.Kernel.Launch
import proofs.«402366_j18588618457604_1_alg».proof.Proof.Gen.Kernel.Skeleton
import proofs.«402366_j18588618457604_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-! # Region 1: the aggregation with a carried accumulator

The grid is 10 x 5 and point `t` has coordinates `(t / 5, t % 5)`. Along the second axis the body accumulates
`A(i,k) · h(k)` into a whole f32 accumulator that lives in a scratch buffer carried from point to point:

* at `t % 5 = 0` the accumulator is first filled with zeros, then read back, the product of the two input blocks is
  added and the sum stored;
* at the other points the accumulator the point before left is read, the product added and the sum stored;
* at `t % 5 = 4`, after that, the accumulator is read once more and its positive part, rounded to bf16, is stored
  whole into the output block; at every other point the output block is not touched and not written back.

Everything is stated at a PARAMETER `V`, the contents of the core's buffers when the region is entered, and at any
float model `F`. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulator and the output block, point by point -/

/-- The accumulator after the body at point `n`: at a point with `n % 5 = 0` the zero fill plus the product of the
    point's two input blocks, elsewhere what the point before left plus that product. -/
def acc1 (c : Dev nD) : (n : ℕ) → n < cfg1.N → Vec F S1024x512 .f32
  | 0, hn => k1_pay2 (k1_pay1 (F := F)) (iblk1 V c 0 ⟨0, hn⟩) (iblk1 V c 1 ⟨0, hn⟩)
  | n + 1, hn =>
    if (n + 1) % 5 = 0 then k1_pay2 (k1_pay1 (F := F)) (iblk1 V c 0 ⟨n + 1, hn⟩) (iblk1 V c 1 ⟨n + 1, hn⟩)
    else k1_pay2 (acc1 c n (Nat.lt_of_succ_lt hn)) (iblk1 V c 0 ⟨n + 1, hn⟩) (iblk1 V c 1 ⟨n + 1, hn⟩)

/-- After the body at point `n`: the output block's staging buffer (the rounded positive part of the accumulator;
    it is what the buffer holds only where the body stores it, at `n % 5 = 4`, and nothing reads it elsewhere) and
    the accumulator. -/
def outsAt1 (c : Dev nD) (n : ℕ) (hn : n < cfg1.N) : Vec F S1024x512 .bf16 × Vec F S1024x512 .f32 :=
  (k1_pay3 (acc1 V c n hn), acc1 V c n hn)

/-- At the first point of a row of the grid the accumulator restarts from the zero fill. -/
theorem outsAt1_reset (c : Dev nD) (n : ℕ) (hn : n < cfg1.N) (h : n % 5 = 0) :
    (outsAt1 V c n hn).2 = k1_pay2 (k1_pay1 (F := F)) (iblk1 V c 0 ⟨n, hn⟩) (iblk1 V c 1 ⟨n, hn⟩) := by
  cases n with
  | zero => rfl
  | succ n => exact if_pos h

/-- At any other point it continues from what the point before left. -/
theorem outsAt1_step (c : Dev nD) (n : ℕ) (hn : n + 1 < cfg1.N) (h : ¬ (n + 1) % 5 = 0) :
    (outsAt1 V c (n + 1) hn).2 = k1_pay2 ((outsAt1 V c n (Nat.lt_of_succ_lt hn)).2) (iblk1 V c 0 ⟨n + 1, hn⟩) (iblk1 V c 1 ⟨n + 1, hn⟩) :=
  if_neg h

/-- The output block is the rounded positive part of the accumulator. -/
theorem outsAt1_out (c : Dev nD) (n : ℕ) (hn : n < cfg1.N) (h : n % 5 = 4) :
    (outsAt1 V c n hn).1 = k1_pay3 ((outsAt1 V c n hn).2) := rfl

/-- The accumulator at a point that restarts it, -/
theorem acc1_reset (c : Dev nD) (t : Fin cfg1.N) (h : t.val % 5 = 0) :
    acc1 V c t.val t.isLt = k1_pay2 (k1_pay1 (F := F)) (iblk1 V c 0 t) (iblk1 V c 1 t) :=
  outsAt1_reset V c t.val t.isLt h

/-- and at one that continues it. -/
theorem acc1_step (c : Dev nD) (t : Fin cfg1.N) (h : ¬ t.val % 5 = 0) :
    acc1 V c t.val t.isLt = k1_pay2 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => exact if_neg h

/-! ## The body's two conditions, in closed form -/

/-- The body's first condition: the second grid coordinate is 0. -/
abbrev cond1_0 (i : grid1.Coords) : Prop := (Scalar.cmpi .ne (Scalar.extui (Scalar.cmpi .eq (BitVec.ofNat 32 (i 1).val) 0#32)) 0#32) = 1#1
/-- It holds exactly at the points `t` with `t % 5 = 0`: decided over the 50 points. -/
theorem hcond1_0 : ∀ t : Fin cfg1.N, cond1_0 (grid1.coords t) ↔ t.val % 5 = 0 :=
  (by decide +kernel : ∀ t : Fin grid1.N, cond1_0 (grid1.coords t) ↔ t.val % 5 = 0)

/-- The body's second condition: the second grid coordinate is 4. -/
abbrev cond1_1 (i : grid1.Coords) : Prop := k1_cond2 i = 1#1
/-- It holds exactly at the points `t` with `t % 5 = 4`. -/
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are live -/

/-- The input windows are live at every point. -/
theorem liveAt1_0 (t : Fin cfg1.N) : cfg1.idle 0 (grid1.coords t) = false := rfl
theorem liveAt1_1 (t : Fin cfg1.N) : cfg1.idle 1 (grid1.coords t) = false := rfl
/-- The output window is idle exactly where the second condition fails, -/
theorem idleAt1_2 : ∀ t : Fin cfg1.N, ¬cond1_1 (grid1.coords t) → cfg1.idle 2 (grid1.coords t) = true := by decide +kernel
theorem liveAt1_2 : ∀ t : Fin cfg1.N, cond1_1 (grid1.coords t) → cfg1.idle 2 (grid1.coords t) = false := by decide +kernel
/-- and there its block is not written back. -/
theorem noFlush1_2 (t : Fin cfg1.N) (hc : ¬cond1_1 (grid1.coords t)) : (cfg1.win 2).flush t = false :=
  Bool.eq_false_iff.mpr fun h => hc ((hcond1_1 t).mpr ((flush1_2 t).mp h))

/-! ## The staging memrefs and the accumulator's buffer -/

/-- Each window's current staging memref at point `t`, as the pipeline passes it to the body, and its wholeness. -/
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .bf16 := win1_2.stage (cfg1.slots t 2)
abbrev hs1_2 (t : Fin cfg1.N) : (ms1_2 t).IsWhole := hstage1_2 ((cfg1.slots t 2).cast nbuf1_2)
/-- The accumulator's buffer: a whole scoped buffer of the kernel's own, passed beside the windows. -/
abbrev scM1 : Memref sig .tc .vmem S1024x512 .f32 := Memref.whole cc1_scratch0

/-- The core's other scoped buffers that are no staging buffer of this region (the other regions' staging buffers
    and accumulator), each at some contents: carried through the region unopened. -/
abbrev restBut1 (c : Dev nD) : sProp 𝕄 :=
  Pipeline.scopedRestBut (Ix := Unit) (Name := ℕ) (U := UR sig nD τ) (Lvl := ℕ) (Val := Elt F) spec1 c [cc1_scratch0]

/-- The class invariant with the accumulator's buffer taken out of the scoped rest and owned at some contents. -/
theorem PhiA1_eq (c : Dev nD) :
    (Pipeline.ΦA spec1 c : sProp 𝕄)
      = iprop(iprop((∃ d, owns (c : Thread nD τ) scM1 fullShare d) ∗ restBut1 c) ∗ (∃ r, prngReg c r)) := by
  unfold Pipeline.ΦA
  rw [Pipeline.scopedRest_split_of_list spec1 c [cc1_scratch0] (by decide) (by decide)]
  simp only [scM1, owns_whole, bigSepL_singleton]; try rfl

/-! ## The region invariant -/

/-- The invariant before position `n`: before the first point the class's (every scoped buffer at anything);
    afterwards the accumulator's buffer at what the point before left in it, the other scoped buffers at anything and
    the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ restBut1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ restBut1 c) ∗ (∃ r, prngReg c r)) := by
  cases n with
  | zero => exact absurd rfl hz
  | succ n => rfl

/-! ## The pipeline's proof data -/

/-- The proof data of the region on core `c`: the arrays as the region finds them; after the body at point `t`
    each input's buffer at its block and the output's at the rounded positive part of the accumulator; the invariant
    above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! ## The body's triple, case by case -/

/-- The whole-buffer rectangle's offsets are zeros. -/
theorem hz1 : (![0, 0] : Fin S1024x512.rank → Nat) = fun _ => 0 := by
  funext a; match a with | ⟨0, _⟩ => rfl | ⟨1, _⟩ => rfl
theorem hz1a : (![0, 0] : Fin S1024x2048.rank → Nat) = fun _ => 0 := by
  funext a; match a with | ⟨0, _⟩ => rfl | ⟨1, _⟩ => rfl
theorem hz1b : (![0, 0] : Fin S2048x512.rank → Nat) = fun _ => 0 := by
  funext a; match a with | ⟨0, _⟩ => rfl | ⟨1, _⟩ => rfl

set_option maxHeartbeats 1000000 in
/-- CASE A (first condition holds, second fails): on whole memrefs, the inputs' at `x0`, `x1`, the output's at
    `xi` and the accumulator's at anything, the body runs to the continuation holding the inputs' and the output's
    as they were and the accumulator's at the zero fill plus the product. -/
theorem sound_kernel1_A (c : Dev nD) (E : Set ℕ) (i : grid1.Coords)
    (arg2 : Memref sig .tc .vmem S1024x2048 .bf16) (harg2 : arg2.IsWhole) (arg3 : Memref sig .tc .vmem S2048x512 .bf16) (harg3 : arg3.IsWhole)
    (arg4 : Memref sig .tc .vmem S1024x512 .bf16) (harg4 : arg4.IsWhole) (arg5 : Memref sig .tc .vmem S1024x512 .f32) (harg5 : arg5.IsWhole)
    (hc0 : cond1_0 i) (hc1 : ¬cond1_1 i)
    (x0 : Vec F S1024x2048 .bf16) (x1 : Vec F S2048x512 .bf16) (xi : Vec F S1024x512 .bf16) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k1_pay2 (k1_pay1 (F := F)) x0 x1)) -∗ K ⟨⟩))
      ⊢ wp frame (wpE (defs₀ (F := F)) Variants.none c none) E (cc1__agg_relu_kernel i arg2 harg2 arg3 harg3 arg4 harg4 arg5 harg5) K := by
  simp only [cc1__agg_relu_kernel_eq_skeleton]; unfold cc1__agg_relu_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons.mpr (Or.inl rfl), View.mem_set_unit_zero hz1 inb_S1024x512_S1024x512_0_0 y⟩)).trans ?_
  rw [View.canon_cons_unit_zero hz1]
  sl_unfold_words
  simp only [View.readCov_unit_zero (S := S1024x512) _ hz1, View.readAt_eq_ld, View.ld_unit_zero (S := S1024x512) hz1, View.ld_unit_zero (S := S1024x2048) hz1a, View.ld_unit_zero (S := S2048x512) hz1b]

set_option maxHeartbeats 1000000 in
/-- CASE B (both conditions fail): the accumulator's buffer at `xs` ends at `xs` plus the product; nothing else moves. -/
theorem sound_kernel1_B (c : Dev nD) (E : Set ℕ) (i : grid1.Coords)
    (arg2 : Memref sig .tc .vmem S1024x2048 .bf16) (harg2 : arg2.IsWhole) (arg3 : Memref sig .tc .vmem S2048x512 .bf16) (harg3 : arg3.IsWhole)
    (arg4 : Memref sig .tc .vmem S1024x512 .bf16) (harg4 : arg4.IsWhole) (arg5 : Memref sig .tc .vmem S1024x512 .f32) (harg5 : arg5.IsWhole)
    (hc0 : ¬cond1_0 i) (hc1 : ¬cond1_1 i)
    (x0 : Vec F S1024x2048 .bf16) (x1 : Vec F S2048x512 .bf16) (xi : Vec F S1024x512 .bf16) (xs : Vec F S1024x512 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare xs
        ∗ (iprop(owns (c : Thread nD τ) arg2 fullShare x0 ∗ owns (c : Thread nD τ) arg3 fullShare x1 ∗ owns (c : Thread nD τ) arg4 fullShare xi
            ∗ owns (c : Thread nD τ) arg5 fullShare (k1_pay2 xs x0 x1)) -∗ K ⟨⟩))
      ⊢ wp frame (wpE (defs₀ (F := F)) Variants.none c none) E (cc1__agg_relu_kernel i arg2 harg2 arg3 harg3 arg4 harg4 arg5 harg5) K := by
  simp only [cc1__agg_relu_kernel_eq_skeleton]; unfold cc1__agg_relu_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_singleton_self _, View.mem_set_unit_zero hz1 inb_S1024x512_S1024x512_0_0 y⟩)).trans ?_
  rw [View.canon_unit_zero hz1]
  simp only [View.readAt_eq_ld, View.ld_unit_zero (S := S1024x512) hz1, View.ld_unit_zero (S := S1024x2048) hz1a, View.ld_unit_zero (S := S2048x512) hz1b]

set_option maxHeartbeats 1000000 in
/-- CASE C (first condition fails, second holds): as case B, and the output's buffer, at anything, ends at the
    rounded positive part of the new accumulator. -/
theorem sound_kernel1_C (c : Dev nD) (E : Set ℕ) (i : grid1.Coords)
    (arg2 : Memref sig .tc .vmem S1024x2048 .bf16) (harg2 : arg2.IsWhole) (arg3 : Memref sig .tc .vmem S2048x512 .bf16) (harg3 : arg3.IsWhole)
    (arg4 : Memref sig .tc .vmem S1024x512 .bf16) (harg4 : arg4.IsWhole) (arg5 : Memref sig .tc .vmem S1024x512 .f32) (harg5 : arg5.IsWhole)
    (hc0 : ¬cond1_0 i) (hc1 : cond1_1 i)
    (x0 : Vec F S1024x2048 .bf16) (x1 : Vec F S2048x512 .bf16) (xs : Vec F S1024x512 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k1_pay3 (k1_pay2 xs x0 x1))
            ∗ owns (c : Thread nD τ) arg5 fullShare (k1_pay2 xs x0 x1)) -∗ K ⟨⟩))
      ⊢ wp frame (wpE (defs₀ (F := F)) Variants.none c none) E (cc1__agg_relu_kernel i arg2 harg2 arg3 harg3 arg4 harg4 arg5 harg5) K := by
  simp only [cc1__agg_relu_kernel_eq_skeleton]; unfold cc1__agg_relu_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_singleton_self _, View.mem_set_unit_zero hz1 inb_S1024x512_S1024x512_0_0 y⟩)).trans ?_
    rw [View.canon_unit_zero hz1]
    sl_unfold_words
    simp only [View.readCov_unit_zero (S := S1024x512) _ hz1, View.readAt_eq_ld, View.ld_unit_zero (S := S1024x512) hz1, View.ld_unit_zero (S := S1024x2048) hz1a, View.ld_unit_zero (S := S2048x512) hz1b]
  iexists _; isplitr
  swap; · iexact HS
  ipureintro
  sl_unfold_words
  refine (View.read_writes_eq_canon _ _ _ (fun y => ⟨_, List.mem_singleton_self _, View.mem_set_unit_zero hz1 inb_S1024x512_S1024x512_0_0 y⟩)).trans ?_
  rw [View.canon_unit_zero hz1]
  simp only [View.readAt_eq_ld, View.ld_unit_zero (S := S1024x512) hz1, View.ld_unit_zero (S := S1024x2048) hz1a, View.ld_unit_zero (S := S2048x512) hz1b]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2_live (c : Dev nD) (t : Fin cfg1.N) (hc : cond1_1 (grid1.coords t)) :
    (dat1 V c).leavesExact 2 t = owns (c : Thread nD τ) (ms1_2 t) fullShare (k1_pay3 (acc1 V c t.val t.isLt)) := by
  unfold Dat.leavesExact; rw [liveAt1_2 t hc, after1_2]; rfl

set_option maxHeartbeats 4000000 in
/-- The body at any point. The inputs' memrefs hold their blocks; the closed forms of the two conditions say which case
    the point is in; the invariant hands the body the accumulator's buffer at what the point before left (at anything
    before the first point, which restarts it) and takes it back at this point's accumulator; where the body does not
    store the output block its buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ, leaves1_0, leaves1_1]
  have hN : t.val < 50 := lt_of_lt_of_eq t.isLt (show cfg1.N = 50 from N_1)
  by_cases h0 : t.val % 5 = 0
  · -- the accumulator restarts
    have h4 : ¬ t.val % 5 = 4 := by omega
    have hc0 : cond1_0 (grid1.coords t) := (hcond1_0 t).mpr h0
    have hc1 : ¬cond1_1 (grid1.coords t) := fun h => h4 ((hcond1_1 t).mp h)
    rw [Dat.leavesExact_idle (dat1 V c) 2 t (idleAt1_2 t hc1) (noFlush1_2 t hc1), acc1_reset V c t h0]
    have hΦ : (dat1 V c).Φ t.castSucc ⊢ iprop(iprop((∃ d, owns (c : Thread nD τ) scM1 fullShare d) ∗ restBut1 c) ∗ (∃ r, prngReg c r)) := by
      rw [PhiS1_castSucc V c t]
      by_cases hz : t.val = 0
      · rw [PhiS1_zero V c _ _ hz, PhiA1_eq]
      · rw [PhiS1_pos V c _ _ hz]
        iintro ⟨⟨HS, HR⟩, Hg⟩
        isplitr [Hg]
        · isplitl [HS]; · iexists _; iexact HS
          iexact HR
        iexact Hg
    iintro ⟨HP, Ho, ⟨%d0, H0⟩, ⟨%d1, H1⟩, ⟨%d2, H2⟩⟩
    ihave HQ := hΦ $$ HP
    icases HQ with ⟨⟨HS, HR⟩, Hg⟩
    iapply (sound_kernel1_A c Set.univ (grid1.coords t) _ _ _ _ _ _ _ _ hc0 hc1 (iblk1 V c 0 t) (iblk1 V c 1 t) ((dat1 V c).before 2 t d2) _)
    isplitl [H0]; · iexact H0
    isplitl [H1]; · iexact H1
    isplitl [H2]; · iexact H2
    isplitl [HS]; · iexact HS
    iintro ⟨H0, H1, H2, HS⟩
    isplitl [HS HR Hg]
    · isplitr [Hg]
      · isplitl [HS]; · iexact HS
        iexact HR
      iexact Hg
    isplitl [Ho]; · iexact Ho
    isplitl [H0]; · iexact H0
    isplitl [H1]; · iexact H1
    iexists _; iexact H2
  · -- the accumulator continues from the point before
    have hz : t.val ≠ 0 := fun e => h0 (by rw [e])
    have hc0 : ¬cond1_0 (grid1.coords t) := fun h => h0 ((hcond1_0 t).mp h)
    rw [PhiS1_castSucc V c t, PhiS1_pos V c _ _ hz, acc1_step V c t h0]
    by_cases h4 : t.val % 5 = 4
    · have hc1 : cond1_1 (grid1.coords t) := (hcond1_1 t).mpr h4
      rw [leaves1_2_live V c t hc1, acc1_step V c t h0]
      iintro ⟨⟨⟨HS, HR⟩, Hg⟩, Ho, ⟨%d0, H0⟩, ⟨%d1, H1⟩, ⟨%d2, H2⟩⟩
      iapply (sound_kernel1_C c Set.univ (grid1.coords t) _ _ _ _ _ _ _ _ hc0 hc1 (iblk1 V c 0 t) (iblk1 V c 1 t) (acc1 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    · have hc1 : ¬cond1_1 (grid1.coords t) := fun h => h4 ((hcond1_1 t).mp h)
      rw [Dat.leavesExact_idle (dat1 V c) 2 t (idleAt1_2 t hc1) (noFlush1_2 t hc1)]
      iintro ⟨⟨⟨HS, HR⟩, Hg⟩, Ho, ⟨%d0, H0⟩, ⟨%d1, H1⟩, ⟨%d2, H2⟩⟩
      iapply (sound_kernel1_B c Set.univ (grid1.coords t) _ _ _ _ _ _ _ _ hc0 hc1 (iblk1 V c 0 t) (iblk1 V c 1 t) ((dat1 V c).before 2 t d2) (acc1 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: what the accumulator's buffer holds is forgotten. -/
theorem hout1 (c : Dev nD) : (dat1 V c).Φ (Fin.last cfg1.N) ⊢ Pipeline.ΦA spec1 c := by
  have hN : cfg1.N = 50 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨HS, HR⟩, Hg⟩
  isplitr [Hg]
  · isplitl [HS]; · iexists _; iexact HS
    iexact HR
  iexact Hg

end Cert.Kernel.Hand

end
-- ==== Proof.Kernel.Region2.lean ====
import proofs.«402366_j18588618457604_1_alg».proof.Proof.Gen.Kernel.Launch
import proofs.«402366_j18588618457604_1_alg».proof.Proof.Gen.Kernel.Skeleton
import proofs.«402366_j18588618457604_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 2: the second linear layer, one row block per grid point

The region runs the body `cc2__linear_kernel` on a grid of 5 points. At point `t` the body finds
* in window 0's buffer the `t`-th block of 2048 rows of the hidden-layer matrix (the result of the first aggregation),
* in window 1's buffer the whole 512 × 512 weight matrix and in window 2's the 1 × 512 bias row — both
  brought in once, at the first point, and left untouched by the body, so they are still there at every
  later point,
and stores into window 3's buffer the rounded value `x · W + b` of that row block (`k2_pay1`), through the
rectangle that is the whole buffer. Nothing is carried from point to point.

Everything is stated at a PARAMETER `V`, the contents of the core's buffers when the region is entered,
and for every float model `F`. -/

-- membership of an index in a rectangle of these extents is decided by structural recursion on the
-- coordinates of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (a new row block at every point) holds its block when the body starts, for any proof data
    whose array is the entry contents (`hA`) and whose body leaves the block in place (`hafter`). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the weight matrix: one block, the same at every point, brought in at the first point only)
    holds that block when the body starts at EVERY point: where it is not brought in again its block index has
    not moved and the body left the buffer as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the bias row), likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole, through the rectangle at offset zero of the buffer's own extents -/

/-- The offset of every access: zero along both axes. -/
theorem hz2 : (![0, 0] : Fin 2 → ℕ) = fun _ => 0 := by
  funext a; fin_cases a <;> rfl

abbrev r2_0 : Rect S2048x512 := Rect.unit (s := S2048x512) ![0, 0] S2048x512.size inb_S2048x512_S2048x512_0_0
abbrev r2_1 : Rect S512x512 := Rect.unit (s := S512x512) ![0, 0] S512x512.size inb_S512x512_S512x512_0_0
abbrev r2_2 : Rect S1x512 := Rect.unit (s := S1x512) ![0, 0] S1x512.size inb_S1x512_S1x512_0_0

/-! ## What the body leaves in the output window's buffer -/

/-- Window 3's buffer after the body, from the three input blocks: its one store, whose payload is the rounded
    `x · W + b` of what the three loads read. -/
def out2_3 (x0 : Vec F S2048x512 .bf16) (x1 : Vec F S512x512 .bf16) (x2 : Vec F S1x512 .f32) : Vec F S2048x512 .bf16 :=
  View.canon [⟨r2_0, k2_pay1 (View.ld x0 r2_0) (View.ld x1 r2_1) (View.ld x2 r2_2)⟩]

/-- Every access being of a whole buffer, a load reads the block itself and the one store leaves its payload:
    the buffer ends at the payload of the three blocks. -/
theorem out2_3_eq (x0 : Vec F S2048x512 .bf16) (x1 : Vec F S512x512 .bf16) (x2 : Vec F S1x512 .f32) :
    out2_3 x0 x1 x2 = k2_pay1 x0 x1 x2 := by
  unfold out2_3
  rw [View.canon_unit_zero (S := S2048x512) hz2, View.ld_unit_zero (S := S2048x512) hz2,
    View.ld_unit_zero (S := S512x512) hz2, View.ld_unit_zero (S := S1x512) hz2]

/-- The one store's rectangle is the whole buffer, so it covers it. -/
theorem cover2_3 (p0 : Vec F S2048x512 .bf16) (y : S2048x512.Idx) :
    ∃ pc ∈ ([⟨r2_0, p0⟩] : List (View.Piece (Elt F) S2048x512 .bf16)), y ∈ pc.1.set :=
  ⟨_, List.mem_singleton_self _, View.mem_set_unit_zero (S := S2048x512) hz2 inb_S2048x512_S2048x512_0_0 y⟩

/-! ## The body's triple -/

set_option maxHeartbeats 1000000 in
/-- The body on whole staging memrefs — the three inputs' at read contents `x0 x1 x2`, the output's at anything —
    runs to the continuation holding the inputs' as they were and the output's at `out2_3` of them: three loads,
    a load of the output buffer whose value is not used, and the store. -/
theorem sound_kernel2 (c : Dev nD) (E : Set ℕ) (i : grid2.Coords)
    (arg1 : Memref sig .tc .vmem S2048x512 .bf16) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S2048x512 .bf16) (harg4 : arg4.IsWhole)
    (x0 : Vec F S2048x512 .bf16) (x1 : Vec F S512x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the region on core `c`: the arrays as the region finds them; after the body at point `t`
    each input's buffer still at its block and the output's at `out2_3` of the three input blocks; the invariant
    is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block when the body starts, at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`: the invariant, what the core owes, and each window's current
    staging buffer at what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Kernel.Region3Runs.lean ====
import proofs.«402366_j18588618457604_1_alg».proof.Proof.Gen.Kernel.Launch
import proofs.«402366_j18588618457604_1_alg».proof.Proof.Gen.Kernel.Skeleton
import proofs.«402366_j18588618457604_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 3: the body of the second aggregation, case by case

The body `cc3__agg_relu_kernel` runs on a 10 x 5 grid; write `k` for a point's second coordinate. It keeps a
whole f32 accumulator in a buffer of its own, carried from point to point:
* if `k = 0` it first fills the accumulator with zeros;
* then, at every point, it reads the accumulator, adds the product of the two input blocks and stores the sum;
* if `k = 4` it then reads the accumulator once more and stores its positive part, whole, into the output block.
Which of the two conditional parts run is decided by `k` alone, so there are three cases: A (`k = 0`: the first
runs, the second does not), B (`0 < k < 4`: neither) and C (`k = 4`: the second only). For each, the body's triple
on whole memrefs, stated directly over the payloads: every access is of a whole buffer, so a load reads the
buffer's contents, a store leaves its payload, and a load after a store reads what was stored. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two conditions -/

/-- The body's first condition, as it computes it: the second grid coordinate is 0. -/
abbrev cond3_0 (i : grid3.Coords) : Prop := (Scalar.cmpi .ne (Scalar.extui (Scalar.cmpi .eq (BitVec.ofNat 32 (i 1).val) 0#32)) 0#32) = 1#1
/-- The body's second condition: the second grid coordinate is 4. -/
abbrev cond3_1 (i : grid3.Coords) : Prop := k3_cond2 i = 1#1

/-! ## The accesses: each of a whole buffer, through the rectangle at offset zero of the buffer's own extents -/

/-- The offset of every access: zero along both axes. -/
theorem hz3 : (![0, 0] : Fin S1024x512.rank → Nat) = fun _ => 0 := by
  funext a; match a with | ⟨0, _⟩ => rfl | ⟨1, _⟩ => rfl

/-- A load of a whole buffer reads the buffer's contents. -/
private theorem readAt_whole3 {S : Shape} {e : EltTy} {κ : Kind} {sp : Space} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := by
  rw [View.readAt_eq_ld, View.ld_unit_zero h]

/-- A whole store's rectangle holds every index, so a list of stores that begins with one covers the buffer. -/
private theorem cover_whole3 (w : Vec F S1024x512 .f32) (L : List (View.Piece (Elt F) S1024x512 .f32)) (y : S1024x512.Idx) :
    ∃ pc ∈ ((⟨Rect.unit (s := S1024x512) ![0, 0] S1024x512.size inb_S1024x512_S1024x512_0_0, w⟩ : View.Piece (Elt F) S1024x512 .f32) :: L),
      y ∈ pc.1.set :=
  ⟨_, List.mem_cons_self, View.mem_set_unit_zero (S := S1024x512) hz3 inb_S1024x512_S1024x512_0_0 y⟩

/-- A buffer whose last store was whole reads that store's payload, whatever was stored before. -/
private theorem read_writes_whole3 {κ : Kind} {sp : Space} (v : View sig κ sp S1024x512 .f32) (f : v.ty.Contents (Elt F))
    (w : Vec F S1024x512 .f32) (L : List (View.Piece (Elt F) S1024x512 .f32)) :
    v.read (Elt F) (v.writes (Elt F) f
      ((⟨Rect.unit (s := S1024x512) ![0, 0] S1024x512.size inb_S1024x512_S1024x512_0_0, w⟩ : View.Piece (Elt F) S1024x512 .f32) :: L)) = w := by
  rw [View.read_writes_eq_canon v f _ (cover_whole3 w L), View.canon_cons_unit_zero (S := S1024x512) hz3]

/-- A whole load after one whole store reads what was stored. -/
private theorem readCov_whole3 {κ : Kind} {sp : Space} (v : View sig κ sp S1024x512 .f32) (w : Vec F S1024x512 .f32) :
    v.readCov [(⟨Rect.unit (s := S1024x512) ![0, 0] S1024x512.size inb_S1024x512_S1024x512_0_0, w⟩ : View.Piece (Elt F) S1024x512 .f32)]
      (Rect.unit (s := S1024x512) ![0, 0] S1024x512.size inb_S1024x512_S1024x512_0_0).toLoadRect = w :=
  View.readCov_unit_zero (S := S1024x512) v hz3 inb_S1024x512_S1024x512_0_0 w

/-! ## The body's triple, case by case -/

set_option maxHeartbeats 1000000 in
/-- CASE A (first condition holds, second fails): on whole memrefs, the inputs' at `x0`, `x1`, the output's at
    `xi` and the accumulator's at anything, the body runs to the continuation holding the inputs' and the output's
    as they were and the accumulator's at the zero fill plus the product: the fill is stored, read back, the
    product added to it and the sum stored over it. -/
theorem sound_kernel3_A (c : Dev nD) (E : Set ℕ) (i : grid3.Coords)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (hc0 : cond3_0 i) (hc1 : ¬cond3_1 i)
    (x0 : Vec F S1024x2048 .bf16) (x1 : Vec F S2048x512 .bf16) (xi : Vec F S1024x512 .f32) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k3_pay2 (k3_pay1 (F := F)) x0 x1)) -∗ K ⟨⟩))
      ⊢ wp frame (wpE (defs₀ (F := F)) Variants.none c none) E (cc3__agg_relu_kernel i arg2 harg2 arg3 harg3 arg4 harg4 arg5 harg5) K := by
  simp only [cc3__agg_relu_kernel_eq_skeleton]; unfold cc3__agg_relu_kernel_skel
  unfold owns
  iintro ⟨⟨%f0, %hf0, H0⟩, ⟨%f1, %hf1, H1⟩, ⟨%fi, %hfi, HI⟩, ⟨%ds, %fs, -, HS⟩, Hk⟩
  subst hf0 hf1 hfi
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HI]
  · iexists fi; isplitr; · ipureintro; rfl
    iexact HI
  iexists _; isplitr
  swap; · iexact HS
  ipureintro
  sl_unfold_run_names
  rw [read_writes_whole3, readCov_whole3, readAt_whole3 _ _ hz3, readAt_whole3 _ _ hz3]

set_option maxHeartbeats 1000000 in
/-- CASE B (both conditions fail): the accumulator's buffer at `xs` ends at `xs` plus the product; nothing else moves. -/
theorem sound_kernel3_B (c : Dev nD) (E : Set ℕ) (i : grid3.Coords)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (hc0 : ¬cond3_0 i) (hc1 : ¬cond3_1 i)
    (x0 : Vec F S1024x2048 .bf16) (x1 : Vec F S2048x512 .bf16) (xi : Vec F S1024x512 .f32) (xs : Vec F S1024x512 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare xs
        ∗ (iprop(owns (c : Thread nD τ) arg2 fullShare x0 ∗ owns (c : Thread nD τ) arg3 fullShare x1 ∗ owns (c : Thread nD τ) arg4 fullShare xi
            ∗ owns (c : Thread nD τ) arg5 fullShare (k3_pay2 xs x0 x1)) -∗ K ⟨⟩))
      ⊢ wp frame (wpE (defs₀ (F := F)) Variants.none c none) E (cc3__agg_relu_kernel i arg2 harg2 arg3 harg3 arg4 harg4 arg5 harg5) K := by
  simp only [cc3__agg_relu_kernel_eq_skeleton]; unfold cc3__agg_relu_kernel_skel
  unfold owns
  iintro ⟨⟨%f0, %hf0, H0⟩, ⟨%f1, %hf1, H1⟩, ⟨%fi, %hfi, HI⟩, ⟨%fs, %hfs, HS⟩, Hk⟩
  subst hf0 hf1 hfi hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HI]
  · iexists fi; isplitr; · ipureintro; rfl
    iexact HI
  iexists _; isplitr
  swap; · iexact HS
  ipureintro
  sl_unfold_run_names
  rw [read_writes_whole3, readAt_whole3 _ _ hz3, readAt_whole3 _ _ hz3, readAt_whole3 _ _ hz3]

set_option maxHeartbeats 1000000 in
/-- CASE C (first condition fails, second holds): as case B, and the output's buffer, at anything, ends at the
    positive part of the new accumulator, read back from its buffer after the sum was stored there. -/
theorem sound_kernel3_C (c : Dev nD) (E : Set ℕ) (i : grid3.Coords)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (hc0 : ¬cond3_0 i) (hc1 : cond3_1 i)
    (x0 : Vec F S1024x2048 .bf16) (x1 : Vec F S2048x512 .bf16) (xs : Vec F S1024x512 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k3_pay3 (k3_pay2 xs x0 x1))
            ∗ owns (c : Thread nD τ) arg5 fullShare (k3_pay2 xs x0 x1)) -∗ K ⟨⟩))
      ⊢ wp frame (wpE (defs₀ (F := F)) Variants.none c none) E (cc3__agg_relu_kernel i arg2 harg2 arg3 harg3 arg4 harg4 arg5 harg5) K := by
  simp only [cc3__agg_relu_kernel_eq_skeleton]; unfold cc3__agg_relu_kernel_skel
  unfold owns
  iintro ⟨⟨%f0, %hf0, H0⟩, ⟨%f1, %hf1, H1⟩, ⟨%di, %fi, -, HI⟩, ⟨%fs, %hfs, HS⟩, Hk⟩
  subst hf0 hf1 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HI]
  · iexists _; isplitr
    swap; · iexact HI
    ipureintro
    sl_unfold_run_names
    rw [read_writes_whole3, readCov_whole3, readAt_whole3 _ _ hz3, readAt_whole3 _ _ hz3, readAt_whole3 _ _ hz3]
  iexists _; isplitr
  swap; · iexact HS
  ipureintro
  sl_unfold_run_names
  rw [read_writes_whole3, readAt_whole3 _ _ hz3, readAt_whole3 _ _ hz3, readAt_whole3 _ _ hz3]

end Cert.Kernel.Hand

end
-- ==== Proof.Kernel.Region3.lean ====
import proofs.«402366_j18588618457604_1_alg».proof.Proof.Gen.Kernel.Launch
import proofs.«402366_j18588618457604_1_alg».proof.Proof.Gen.Kernel.Skeleton
import proofs.«402366_j18588618457604_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«402366_j18588618457604_1_alg».proof.Proof.Kernel.Region3Runs

/-! # Region 3: the second aggregation with a carried accumulator

The grid is 10 x 5 and point `t` has coordinates `(t / 5, t % 5)`. Along the second axis the body accumulates
`A(i,k) · h(k)` into a whole f32 accumulator that lives in a scratch buffer carried from point to point:

* at `t % 5 = 0` the accumulator is first filled with zeros, then read back, the product of the two input blocks is
  added and the sum stored;
* at the other points the accumulator the point before left is read, the product added and the sum stored;
* at `t % 5 = 4`, after that, the accumulator is read once more and its positive part is stored
  whole into the output block; at every other point the output block is not touched and not written back.

Everything is stated at a PARAMETER `V`, the contents of the core's buffers when the region is entered, and at any
float model `F`. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The accumulator and the output block, point by point -/

/-- The accumulator after the body at point `n`: at a point with `n % 5 = 0` the zero fill plus the product of the
    point's two input blocks, elsewhere what the point before left plus that product. -/
def acc3 (c : Dev nD) : (n : ℕ) → n < cfg3.N → Vec F S1024x512 .f32
  | 0, hn => k3_pay2 (k3_pay1 (F := F)) (iblk3 V c 0 ⟨0, hn⟩) (iblk3 V c 1 ⟨0, hn⟩)
  | n + 1, hn =>
    if (n + 1) % 5 = 0 then k3_pay2 (k3_pay1 (F := F)) (iblk3 V c 0 ⟨n + 1, hn⟩) (iblk3 V c 1 ⟨n + 1, hn⟩)
    else k3_pay2 (acc3 c n (Nat.lt_of_succ_lt hn)) (iblk3 V c 0 ⟨n + 1, hn⟩) (iblk3 V c 1 ⟨n + 1, hn⟩)

/-- After the body at point `n`: the output block's staging buffer (the positive part of the accumulator;
    it is what the buffer holds only where the body stores it, at `n % 5 = 4`, and nothing reads it elsewhere) and
    the accumulator. -/
def outsAt3 (c : Dev nD) (n : ℕ) (hn : n < cfg3.N) : Vec F S1024x512 .f32 × Vec F S1024x512 .f32 :=
  (k3_pay3 (acc3 V c n hn), acc3 V c n hn)

/-- At the first point of a row of the grid the accumulator restarts from the zero fill. -/
theorem outsAt3_reset (c : Dev nD) (n : ℕ) (hn : n < cfg3.N) (h : n % 5 = 0) :
    (outsAt3 V c n hn).2 = k3_pay2 (k3_pay1 (F := F)) (iblk3 V c 0 ⟨n, hn⟩) (iblk3 V c 1 ⟨n, hn⟩) := by
  cases n with
  | zero => rfl
  | succ n => exact if_pos h

/-- At any other point it continues from what the point before left. -/
theorem outsAt3_step (c : Dev nD) (n : ℕ) (hn : n + 1 < cfg3.N) (h : ¬ (n + 1) % 5 = 0) :
    (outsAt3 V c (n + 1) hn).2 = k3_pay2 ((outsAt3 V c n (Nat.lt_of_succ_lt hn)).2) (iblk3 V c 0 ⟨n + 1, hn⟩) (iblk3 V c 1 ⟨n + 1, hn⟩) :=
  if_neg h

/-- The output block is the positive part of the accumulator. -/
theorem outsAt3_out (c : Dev nD) (n : ℕ) (hn : n < cfg3.N) (h : n % 5 = 4) :
    (outsAt3 V c n hn).1 = k3_pay3 ((outsAt3 V c n hn).2) := rfl

/-- The accumulator at a point that restarts it, -/
theorem acc3_reset (c : Dev nD) (t : Fin cfg3.N) (h : t.val % 5 = 0) :
    acc3 V c t.val t.isLt = k3_pay2 (k3_pay1 (F := F)) (iblk3 V c 0 t) (iblk3 V c 1 t) :=
  outsAt3_reset V c t.val t.isLt h

/-- and at one that continues it. -/
theorem acc3_step (c : Dev nD) (t : Fin cfg3.N) (h : ¬ t.val % 5 = 0) :
    acc3 V c t.val t.isLt = k3_pay2 (acc3 V c (t.val - 1) (Nat.lt_of_le_of_lt (Nat.sub_le _ _) t.isLt)) (iblk3 V c 0 t) (iblk3 V c 1 t) := by
  obtain ⟨n, hn⟩ := t
  cases n with
  | zero => exact absurd (Nat.zero_mod _) h
  | succ n => exact if_neg h

/-! ## The body's two conditions, in closed form -/

/-- The body's first condition (the second grid coordinate is 0) holds exactly at the points `t` with `t % 5 = 0`: decided over the 50 points. -/
theorem hcond3_0 : ∀ t : Fin cfg3.N, cond3_0 (grid3.coords t) ↔ t.val % 5 = 0 :=
  (by decide +kernel : ∀ t : Fin grid3.N, cond3_0 (grid3.coords t) ↔ t.val % 5 = 0)

/-- The body's second condition (the second grid coordinate is 4) holds exactly at the points `t` with `t % 5 = 4`. -/
theorem hcond3_1 : ∀ t : Fin cfg3.N, cond3_1 (grid3.coords t) ↔ t.val % 5 = 4 :=
  (by decide +kernel : ∀ t : Fin grid3.N, cond3_1 (grid3.coords t) ↔ t.val % 5 = 4)

/-! ## Where the windows are live -/

/-- The input windows are live at every point. -/
theorem liveAt3_0 (t : Fin cfg3.N) : cfg3.idle 0 (grid3.coords t) = false := rfl
theorem liveAt3_1 (t : Fin cfg3.N) : cfg3.idle 1 (grid3.coords t) = false := rfl
/-- The output window is idle exactly where the second condition fails, -/
theorem idleAt3_2 : ∀ t : Fin cfg3.N, ¬cond3_1 (grid3.coords t) → cfg3.idle 2 (grid3.coords t) = true := by decide +kernel
theorem liveAt3_2 : ∀ t : Fin cfg3.N, cond3_1 (grid3.coords t) → cfg3.idle 2 (grid3.coords t) = false := by decide +kernel
/-- and there its block is not written back. -/
theorem noFlush3_2 (t : Fin cfg3.N) (hc : ¬cond3_1 (grid3.coords t)) : (cfg3.win 2).flush t = false :=
  Bool.eq_false_iff.mpr fun h => hc ((hcond3_1 t).mpr ((flush3_2 t).mp h))

/-! ## The staging memrefs and the accumulator's buffer -/

/-- Each window's current staging memref at point `t`, as the pipeline passes it to the body, and its wholeness. -/
abbrev ms3_0 (t : Fin cfg3.N) : Memref sig .tc .vmem S1024x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x512 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x512 .f32 := win3_2.stage (cfg3.slots t 2)
abbrev hs3_2 (t : Fin cfg3.N) : (ms3_2 t).IsWhole := hstage3_2 ((cfg3.slots t 2).cast nbuf3_2)
/-- The accumulator's buffer: a whole scoped buffer of the kernel's own, passed beside the windows. -/
abbrev scM3 : Memref sig .tc .vmem S1024x512 .f32 := Memref.whole cc3_scratch0

/-- The core's other scoped buffers that are no staging buffer of this region (the other regions' staging buffers
    and accumulator), each at some contents: carried through the region unopened. -/
abbrev restBut3 (c : Dev nD) : sProp 𝕄 :=
  Pipeline.scopedRestBut (Ix := Unit) (Name := ℕ) (U := UR sig nD τ) (Lvl := ℕ) (Val := Elt F) spec3 c [cc3_scratch0]

/-- The class invariant with the accumulator's buffer taken out of the scoped rest and owned at some contents. -/
theorem PhiA3_eq (c : Dev nD) :
    (Pipeline.ΦA spec3 c : sProp 𝕄)
      = iprop(iprop((∃ d, owns (c : Thread nD τ) scM3 fullShare d) ∗ restBut3 c) ∗ (∃ r, prngReg c r)) := by
  unfold Pipeline.ΦA
  rw [Pipeline.scopedRest_split_of_list spec3 c [cc3_scratch0] (by decide) (by decide)]
  simp only [scM3, owns_whole, bigSepL_singleton]; try rfl

/-! ## The region invariant -/

/-- The invariant before position `n`: before the first point the class's (every scoped buffer at anything);
    afterwards the accumulator's buffer at what the point before left in it, the other scoped buffers at anything and
    the generator register at some state. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ restBut3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (acc3 V c n hn) ∗ restBut3 c) ∗ (∃ r, prngReg c r)) := rfl

theorem PhiS3_pos (c : Dev nD) (n : ℕ) (h : n ≤ cfg3.N) (hz : n ≠ 0) :
    PhiS3 V c n h = iprop(iprop(owns (c : Thread nD τ) scM3 fullShare (acc3 V c (n - 1) (by omega)) ∗ restBut3 c) ∗ (∃ r, prngReg c r)) := by
  cases n with
  | zero => exact absurd rfl hz
  | succ n => rfl

/-! ## The pipeline's proof data -/

/-- The proof data of the region on core `c`: the arrays as the region finds them; after the body at point `t`
    each input's buffer at its block and the output's at the positive part of the accumulator; the invariant
    above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

/-! ## The body's triple, case by case: `sound_kernel3_A`, `sound_kernel3_B`, `sound_kernel3_C` of the module imported above -/

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

theorem leaves3_0 (c : Dev nD) (t : Fin cfg3.N) :
    (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) :
    (dat3 V c).leavesExact 1 t = owns (c : Thread nD τ) (ms3_1 t) fullShare (iblk3 V c 1 t) := by
  unfold Dat.leavesExact; rw [liveAt3_1 t, after3_1]
theorem leaves3_2_live (c : Dev nD) (t : Fin cfg3.N) (hc : cond3_1 (grid3.coords t)) :
    (dat3 V c).leavesExact 2 t = owns (c : Thread nD τ) (ms3_2 t) fullShare (k3_pay3 (acc3 V c t.val t.isLt)) := by
  unfold Dat.leavesExact; rw [liveAt3_2 t hc, after3_2]; rfl

set_option maxHeartbeats 4000000 in
/-- The body at any point. The inputs' memrefs hold their blocks; the closed forms of the two conditions say which case
    the point is in; the invariant hands the body the accumulator's buffer at what the point before left (at anything
    before the first point, which restarts it) and takes it back at this point's accumulator; where the body does not
    store the output block its buffer goes back as it came. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ, leaves3_0, leaves3_1]
  have hN : t.val < 50 := lt_of_lt_of_eq t.isLt (show cfg3.N = 50 from N_3)
  by_cases h0 : t.val % 5 = 0
  · -- the accumulator restarts
    have h4 : ¬ t.val % 5 = 4 := by omega
    have hc0 : cond3_0 (grid3.coords t) := (hcond3_0 t).mpr h0
    have hc1 : ¬cond3_1 (grid3.coords t) := fun h => h4 ((hcond3_1 t).mp h)
    rw [Dat.leavesExact_idle (dat3 V c) 2 t (idleAt3_2 t hc1) (noFlush3_2 t hc1), acc3_reset V c t h0]
    have hΦ : (dat3 V c).Φ t.castSucc ⊢ iprop(iprop((∃ d, owns (c : Thread nD τ) scM3 fullShare d) ∗ restBut3 c) ∗ (∃ r, prngReg c r)) := by
      rw [PhiS3_castSucc V c t]
      by_cases hz : t.val = 0
      · rw [PhiS3_zero V c _ _ hz, PhiA3_eq]
      · rw [PhiS3_pos V c _ _ hz]
        iintro ⟨⟨HS, HR⟩, Hg⟩
        isplitr [Hg]
        · isplitl [HS]; · iexists _; iexact HS
          iexact HR
        iexact Hg
    iintro ⟨HP, Ho, ⟨%d0, H0⟩, ⟨%d1, H1⟩, ⟨%d2, H2⟩⟩
    ihave HQ := hΦ $$ HP
    icases HQ with ⟨⟨HS, HR⟩, Hg⟩
    iapply (sound_kernel3_A c Set.univ (grid3.coords t) _ _ _ _ _ _ _ _ hc0 hc1 (iblk3 V c 0 t) (iblk3 V c 1 t) ((dat3 V c).before 2 t d2) _)
    isplitl [H0]; · iexact H0
    isplitl [H1]; · iexact H1
    isplitl [H2]; · iexact H2
    isplitl [HS]; · iexact HS
    iintro ⟨H0, H1, H2, HS⟩
    isplitl [HS HR Hg]
    · isplitr [Hg]
      · isplitl [HS]; · iexact HS
        iexact HR
      iexact Hg
    isplitl [Ho]; · iexact Ho
    isplitl [H0]; · iexact H0
    isplitl [H1]; · iexact H1
    iexists _; iexact H2
  · -- the accumulator continues from the point before
    have hz : t.val ≠ 0 := fun e => h0 (by rw [e])
    have hc0 : ¬cond3_0 (grid3.coords t) := fun h => h0 ((hcond3_0 t).mp h)
    rw [PhiS3_castSucc V c t, PhiS3_pos V c _ _ hz, acc3_step V c t h0]
    by_cases h4 : t.val % 5 = 4
    · have hc1 : cond3_1 (grid3.coords t) := (hcond3_1 t).mpr h4
      rw [leaves3_2_live V c t hc1, acc3_step V c t h0]
      iintro ⟨⟨⟨HS, HR⟩, Hg⟩, Ho, ⟨%d0, H0⟩, ⟨%d1, H1⟩, ⟨%d2, H2⟩⟩
      iapply (sound_kernel3_C c Set.univ (grid3.coords t) _ _ _ _ _ _ _ _ hc0 hc1 (iblk3 V c 0 t) (iblk3 V c 1 t) (acc3 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    · have hc1 : ¬cond3_1 (grid3.coords t) := fun h => h4 ((hcond3_1 t).mp h)
      rw [Dat.leavesExact_idle (dat3 V c) 2 t (idleAt3_2 t hc1) (noFlush3_2 t hc1)]
      iintro ⟨⟨⟨HS, HR⟩, Hg⟩, Ho, ⟨%d0, H0⟩, ⟨%d1, H1⟩, ⟨%d2, H2⟩⟩
      iapply (sound_kernel3_B c Set.univ (grid3.coords t) _ _ _ _ _ _ _ _ hc0 hc1 (iblk3 V c 0 t) (iblk3 V c 1 t) ((dat3 V c).before 2 t d2) (acc3 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]

/-- After the last point the invariant gives the class's back: what the accumulator's buffer holds is forgotten. -/
theorem hout3 (c : Dev nD) : (dat3 V c).Φ (Fin.last cfg3.N) ⊢ Pipeline.ΦA spec3 c := by
  have hN : cfg3.N = 50 := N_3
  rw [show (dat3 V c).Φ (Fin.last cfg3.N) = PhiS3 V c (Fin.last cfg3.N).val (Nat.le_of_lt_succ (Fin.last cfg3.N).isLt) from rfl,
    PhiS3_pos V c _ _ (by rw [Fin.val_last]; omega), PhiA3_eq]
  iintro ⟨⟨HS, HR⟩, Hg⟩
  isplitr [Hg]
  · isplitl [HS]; · iexists _; iexact HS
    iexact HR
  iexact Hg

end Cert.Kernel.Hand

end
-- ==== Proof.Kernel.Run.lean ====
import proofs.«402366_j18588618457604_1_alg».proof.Proof.Gen.Kernel.Launch
import proofs.«402366_j18588618457604_1_alg».proof.Proof.Gen.Kernel.Skeleton
import proofs.«402366_j18588618457604_1_alg».proof.Proof.Gen.Kernel.Points
import proofs.«402366_j18588618457604_1_alg».proof.Proof.Gen.Kernel.Regions
import proofs.«402366_j18588618457604_1_alg».proof.Proof.Kernel.Region0
import proofs.«402366_j18588618457604_1_alg».proof.Proof.Kernel.Region1
import proofs.«402366_j18588618457604_1_alg».proof.Proof.Kernel.Region2
import proofs.«402366_j18588618457604_1_alg».proof.Proof.Kernel.Region3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main: eight segments from the launch to the return

@main is three stretches of host operations (the adjacency matrix scattered from the edge list and rounded,
the padded features, the transposed and rounded weights and the bias rows), four kernel regions (linear,
aggregate, linear, aggregate) and one last host operation (the slice that drops the padding rows).

The core's unscoped buffers are followed through the eight segments as a fold `W0 … W8` from the launch
memory: a host stretch rewrites the buffers its operations write, a region leaves each of its windows' arrays
at what its write-backs make of it and every other buffer as it found it. Each region's proof data is taken
at the contents the region is entered with. The thread state between two segments is "every unscoped buffer
whole at the boundary's contents, the generator register at some state, nothing owed"; the regions whose
body carries an accumulator enter and leave their own invariant through the class invariant.

The result `run` reads every unscoped buffer of the final memory at `W8`; `frame` reads the six argument
arrays back through the fold to the launch memory. Everything holds for every float model `F`. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the nine segment boundaries -/

/-- Core `c`'s buffers at launch. -/
abbrev W0 : Dev nD → Valuation τ sig (Elt F) := fun c b => (s₀ m ρ).mem ((c : Dev nD), b)
/-- After the first host stretch: the source and destination rows of the edge list, the adjacency counts
    scattered into a zero matrix and rounded. -/
abbrev W1 : Dev nD → Valuation τ sig (Elt F) := fun c => StableHlo.after hostOps0 (W0 m ρ c)
/-- After the second: the features padded with zero rows. -/
abbrev W2 : Dev nD → Valuation τ sig (Elt F) := fun c => StableHlo.after hostOps0_1 (W1 m ρ c)
/-- After the third (region 0's entry): the padded features rounded, both weight matrices transposed and
    rounded, both biases as rows. -/
abbrev W3 : Dev nD → Valuation τ sig (Elt F) := fun c => StableHlo.after hostOps0_2 (W2 m ρ c)
/-- The same read at the TensorCore's references (what region 0's proof data take). -/
abbrev V3 : (c : Dev nD) → (b : Ref sig .tc) → Buf (Elt F) ((c : Thread nD τ).loc b) := fun c b => W3 m ρ c b

/-- At region 0's exit: each of its windows' arrays at what the pipeline leaves there (an input as entered, an
    output with its write-backs folded in), every other buffer as entered. Region 1's entry. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m ρ c b

/-- At region 1's exit: each of its windows' arrays at what the pipeline leaves there (an input as entered, an
    output with its write-backs folded in), every other buffer as entered. Region 2's entry. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- The same read at the TensorCore's references. -/
abbrev V5 : (c : Dev nD) → (b : Ref sig .tc) → Buf (Elt F) ((c : Thread nD τ).loc b) := fun c b => W5 m ρ c b

/-- At region 2's exit: each of its windows' arrays at what the pipeline leaves there (an input as entered, an
    output with its write-backs folded in), every other buffer as entered. Region 3's entry. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b

/-- At region 3's exit: each of its windows' arrays at what the pipeline leaves there (an input as entered, an
    output with its write-backs folded in), every other buffer as entered. What the last host operation reads. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references. -/
abbrev V7 : (c : Dev nD) → (b : Ref sig .tc) → Buf (Elt F) ((c : Thread nD τ).loc b) := fun c b => W7 m ρ c b

/-- After the last host operation (the slice that drops the padding rows): what @main returns from. -/
abbrev W8 : Dev nD → Valuation τ sig (Elt F) := fun c => StableHlo.after hostOps4 (W7 m ρ c)

/-! ## The arguments end as launched

No host operation writes an argument and no region has one among its windows' arrays, so the fold at an
argument's buffer walks back to the launch memory. -/

/-- A buffer that no host stretch writes and that is no window's array of any region holds at the end what it
    held at launch. -/
theorem W8_of_untouched (c : Dev nD) (r : Ref sig .tc)
    (h0 : r ∉ hostOps0_W) (h1 : r ∉ hostOps0_1_W) (h2 : r ∉ hostOps0_2_W) (h4 : r ∉ hostOps4_W)
    (hr0 : ∀ w, Pipeline.arrRef spec0 w ≠ r) (hr1 : ∀ w, Pipeline.arrRef spec1 w ≠ r)
    (hr2 : ∀ w, Pipeline.arrRef spec2 w ≠ r) (hr3 : ∀ w, Pipeline.arrRef spec3 w ≠ r) :
    W8 m ρ c (Proc.devRef .tc r) = m ((c : Thread nD τ).loc r) :=
  calc W8 m ρ c (Proc.devRef .tc r)
    _ = W7 m ρ c (Proc.devRef .tc r) := StableHlo.after_of_writes_sub hostOps4 _ hostOps4_writes h4
    _ = W6 m ρ c (Proc.devRef .tc r) := W7_of_ne m ρ c r hr3
    _ = W5 m ρ c (Proc.devRef .tc r) := W6_of_ne m ρ c r hr2
    _ = W4 m ρ c (Proc.devRef .tc r) := W5_of_ne m ρ c r hr1
    _ = W3 m ρ c (Proc.devRef .tc r) := W4_of_ne m ρ c r hr0
    _ = W2 m ρ c (Proc.devRef .tc r) := StableHlo.after_of_writes_sub hostOps0_2 _ hostOps0_2_writes h2
    _ = W1 m ρ c (Proc.devRef .tc r) := StableHlo.after_of_writes_sub hostOps0_1 _ hostOps0_1_writes h1
    _ = W0 m ρ c (Proc.devRef .tc r) := StableHlo.after_of_writes_sub hostOps0 _ hostOps0_writes h0
    _ = m ((c : Thread nD τ).loc r) := rfl

theorem W8_main_arg0 (c : Dev nD) : W8 m ρ c (Proc.devRef .tc main_arg0) = m ((c : Thread nD τ).loc main_arg0) :=
  W8_of_untouched m ρ c main_arg0 (by decide) (by decide) (by decide) (by decide) (by decide) (by decide) (by decide) (by decide)
theorem W8_main_arg1 (c : Dev nD) : W8 m ρ c (Proc.devRef .tc main_arg1) = m ((c : Thread nD τ).loc main_arg1) :=
  W8_of_untouched m ρ c main_arg1 (by decide) (by decide) (by decide) (by decide) (by decide) (by decide) (by decide) (by decide)
theorem W8_main_arg2 (c : Dev nD) : W8 m ρ c (Proc.devRef .tc main_arg2) = m ((c : Thread nD τ).loc main_arg2) :=
  W8_of_untouched m ρ c main_arg2 (by decide) (by decide) (by decide) (by decide) (by decide) (by decide) (by decide) (by decide)
theorem W8_main_arg3 (c : Dev nD) : W8 m ρ c (Proc.devRef .tc main_arg3) = m ((c : Thread nD τ).loc main_arg3) :=
  W8_of_untouched m ρ c main_arg3 (by decide) (by decide) (by decide) (by decide) (by decide) (by decide) (by decide) (by decide)
theorem W8_main_arg4 (c : Dev nD) : W8 m ρ c (Proc.devRef .tc main_arg4) = m ((c : Thread nD τ).loc main_arg4) :=
  W8_of_untouched m ρ c main_arg4 (by decide) (by decide) (by decide) (by decide) (by decide) (by decide) (by decide) (by decide)
theorem W8_main_arg5 (c : Dev nD) : W8 m ρ c (Proc.devRef .tc main_arg5) = m ((c : Thread nD τ).loc main_arg5) :=
  W8_of_untouched m ρ c main_arg5 (by decide) (by decide) (by decide) (by decide) (by decide) (by decide) (by decide) (by decide)

/-! ## The proof data family and the thread state -/

/-- Every pipeline's proof data, each at its region's entry contents: a literal `match`, so that the pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
  | ⟨2, _⟩ => fun c => dat2 (V5 m ρ) c
  | ⟨3, _⟩ => fun c => dat3 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- The core owing nothing, whatever pairs its waits have recorded. -/
abbrev owesNone (c : Dev nD) : sProp 𝕄 := iprop(∃ W, owes (c : Thread nD τ) (0 : CellTallies nD τ sig Unit) W)
/-- What rides beside the buffers through every segment: the core's generator register at some state and the core
    owing nothing. -/
abbrev R (c : Dev nD) : sProp 𝕄 := iprop((∃ r, prngReg c r) ∗ owesNone c)
/-- The thread state at a boundary: every unscoped buffer whole at the boundary's contents, beside `R`. -/
abbrev T (W : Dev nD → Valuation τ sig (Elt F)) (c : Dev nD) : sProp 𝕄 :=
  iprop(StableHlo.held (c : Thread nD τ) (Pipeline.ucRefs τ sig) (W c) ∗ R c)
/-- A host stretch as a segment over the unscoped references from the contents `W`, `R` riding along: it is
    entered from `T W` and left at `T` of the contents after its operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's `owes`: every unscoped buffer at `W8`, the generator register at
    some state. -/
abbrev Tₙ (c : Dev nD) : sProp 𝕄 := iprop(StableHlo.held (c : Thread nD τ) (Pipeline.ucRefs τ sig) (W8 m ρ c) ∗ ∃ r, prngReg c r)

/-! ## The four entailments of a region, once for all four

Each region's record asks for four entailments around its thread states. Their separation-logic content is
the same for every region of this program, so it is stated once over abstract propositions; a region supplies
only how its arrays split out of the unscoped buffers and join them again. -/

/-- ENTRY. The buffers `H` split into the arrays `A` and the rest `Z`; there is no prefetched table (`Pf` holds
    of nothing); the core's `owes` is the proof data's (`Ow`); the register `P` is handed on; the own semaphores
    and the level facts (`S`, `Lv`) are not needed. -/
theorem enter {H A Z P O Ow Pf S Lv : sProp 𝕄} (hsplit : H ⊢ iprop(A ∗ Z)) (hpf : (BI.emp : sProp 𝕄) ⊢ Pf) (how : O ⊢ Ow) :
    iprop((H ∗ P ∗ O) ∗ S ∗ Lv) ⊢ |={Set.univ}=> iprop(A ∗ Pf ∗ Ow ∗ P ∗ Z) := by
  iintro ⟨⟨Hh, Hp, HO⟩, -, -⟩
  ihave Hs := hsplit $$ Hh
  icases Hs with ⟨Ha, Hz⟩
  imodintro
  isplitl [Ha]; · iexact Ha
  isplitr; · iapply hpf; iempintro
  isplitl [HO]; · iapply how; iexact HO
  isplitl [Hp]; · iexact Hp
  iexact Hz

/-- EXIT. The arrays at their final contents and the rest join into the buffers at the exit contents `H'`; the
    proof data's `owes` at the last point is the core owing nothing. -/
theorem leave {H' A Z P O Ow : sProp 𝕄} (hjoin : iprop(A ∗ Z) ⊢ H') (how : Ow ⊢ O) :
    iprop(A ∗ Ow ∗ P ∗ Z) ⊢ |={Set.univ}=> iprop(H' ∗ P ∗ O) := by
  iintro ⟨Ha, HO, Hp, Hz⟩
  imodintro
  isplitl [Ha Hz]
  · iapply hjoin; isplitl [Ha]; · iexact Ha
    iexact Hz
  isplitl [Hp]; · iexact Hp
  iapply how; iexact HO

/-- The class invariant from what a region's `hin` is handed: the generator register, the (absent) tables, the
    scoped buffers no window stages. -/
theorem ΦA_in {gr W : Nat} (win : Fin W → Pipeline.WinSpec sig gr) (c : Dev nD) (Pf : sProp 𝕄) :
    iprop((∃ r, prngReg c r) ∗ Pf ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hp, -, Hr⟩
  isplitl [Hr]; · iexact Hr
  iexact Hp

/-- The class invariant gives back what a region's `hout` owes: the generator register, the own semaphores (there
    are none) and those scoped buffers. -/
theorem ΦA_out {gr W : Nat} (win : Fin W → Pipeline.WinSpec sig gr) (c : Dev nD) :
    (Pipeline.ΦA win c : sProp 𝕄)
      ⊢ iprop((∃ r, prngReg c r) ∗ Pipeline.ownSems0 (fun k : PEmpty => k.elim) c
          ∗ Pipeline.scopedRest (Ix := Unit) (Name := ℕ) (U := UR sig nD τ) (Lvl := ℕ) (Val := Elt F) win c) := by
  rw [Pipeline.ownSems0_none]; unfold Pipeline.ΦA
  iintro ⟨Hr, Hp⟩
  isplitl [Hp]; · iexact Hp
  isplitr; · iempintro
  iexact Hr

/-- The core owing nothing is the proof data's `owes` at a point where the data owes nothing and bounds no pair. -/
theorem owesAt_in {cfg : Cfg sig Λ₀} {c : Dev nD} (dat : Dat τ (Elt F) Unit ℕ (UR sig nD τ) ℕ cfg c) (t : Fin (cfg.N + 1))
    (h0 : dat.owed t = 0) (hrec : dat.recorded t = Set.univ) : owesNone c ⊢ (dat.owesAt () t : sProp 𝕄) := by
  unfold Dat.owesAt Pipeline.owesWithin Dat.bound
  rw [h0, hrec]
  iintro ⟨%W, HO⟩
  iexists W
  isplitr; · ipureintro; exact fun _ _ => Or.inl trivial
  iexact HO

/-- and back. -/
theorem owesAt_out {cfg : Cfg sig Λ₀} {c : Dev nD} (dat : Dat τ (Elt F) Unit ℕ (UR sig nD τ) ℕ cfg c) (t : Fin (cfg.N + 1))
    (h0 : dat.owed t = 0) : (dat.owesAt () t : sProp 𝕄) ⊢ owesNone c := by
  unfold Dat.owesAt Pipeline.owesWithin
  rw [h0]
  iintro ⟨%W, -, HO⟩
  iexists W
  iexact HO

/-- The last host operation leaves the last thread state beside the core owing nothing. -/
theorem T_last (c : Dev nD) : T (W8 m ρ) c ⊢ iprop(Tₙ m ρ c ∗ owesNone c) := by
  iintro ⟨Hh, Hp, HO⟩
  isplitl [Hh Hp]
  · isplitl [Hh]; · iexact Hh
    iexact Hp
  iexact HO

/-! ## The regions as segments

A region is entered from every unscoped buffer at its entry contents and left at its exit contents. At the
entry its windows' arrays are split out of the unscoped buffers at the contents its proof data name, the rest
bypasses it; at the exit the arrays, at what the write-backs left, join the rest again at the next boundary's
contents. The generator register goes into the invariant and comes back; nothing is owed; the kernels have no
semaphore of their own. -/

-- a library lemma stated over the pinned configuration unifies with the printed one only when unification may unfold
-- plain definitions in a metavariable's type
set_option backward.isDefEq.respectTransparency.types false in
/-- REGION 0 (the first linear layer): its invariant is the class's at every point. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre := T (W3 m ρ)
  post := T (W4 m ρ)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    exact enter hsplit
      (by unfold Pipeline.prefHeld; rw [show (Finset.univ : Finset (Fin 0)) = ∅ from rfl, BI.bigSep_empty])
      (owesAt_in (pdats m ρ 0 c) 0 rfl rfl)
  hin c := ΦA_in spec0 c _
  hout c := ΦA_out spec0 c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (fun w => (W4_arr m ρ c w).symm)
      (fun b hb => W4_of_ne m ρ c b fun w e => hb (Finset.mem_image.mpr ⟨w, Finset.mem_univ _, e⟩))
    rw [Pipeline.unscopedBufs_held] at hjoin
    exact leave hjoin (owesAt_out (pdats m ρ 0 c) (Fin.last _) rfl)

-- a library lemma stated over the pinned configuration unifies with the printed one only when unification may unfold
-- plain definitions in a metavariable's type
set_option backward.isDefEq.respectTransparency.types false in
/-- REGION 1 (the first aggregation): its invariant carries the accumulator from point to point; it is entered
    from the class invariant (the accumulator at anything) and yields it back after the last point (the accumulator
    forgotten). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre := T (W4 m ρ)
  post := T (W5 m ρ)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    have hsplit := Pipeline.arrays_of_unscopedBufs (p := 1) (pcfgs (F := F)) adm (pdats m ρ) launch1.win launch1.arr_whole c
      ((pdats m ρ 1 c).share_full fun _ => rfl) (V4 m ρ c) (A_eq1 (V4 m ρ) c)
    rw [Pipeline.unscopedBufs_held] at hsplit
    exact enter hsplit
      (by unfold Pipeline.prefHeld; rw [show (Finset.univ : Finset (Fin 0)) = ∅ from rfl, BI.bigSep_empty])
      (owesAt_in (pdats m ρ 1 c) 0 rfl rfl)
  hin c := (ΦA_in spec1 c _).trans (hin1 (V4 m ρ) c)
  hout c := (hout1 (V4 m ρ) c).trans (ΦA_out spec1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (fun w => (W5_arr m ρ c w).symm)
      (fun b hb => W5_of_ne m ρ c b fun w e => hb (Finset.mem_image.mpr ⟨w, Finset.mem_univ _, e⟩))
    rw [Pipeline.unscopedBufs_held] at hjoin
    exact leave hjoin (owesAt_out (pdats m ρ 1 c) (Fin.last _) rfl)

-- a library lemma stated over the pinned configuration unifies with the printed one only when unification may unfold
-- plain definitions in a metavariable's type
set_option backward.isDefEq.respectTransparency.types false in
/-- REGION 2 (the second linear layer): as region 0. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre := T (W5 m ρ)
  post := T (W6 m ρ)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    exact enter hsplit
      (by unfold Pipeline.prefHeld; rw [show (Finset.univ : Finset (Fin 0)) = ∅ from rfl, BI.bigSep_empty])
      (owesAt_in (pdats m ρ 2 c) 0 rfl rfl)
  hin c := ΦA_in spec2 c _
  hout c := ΦA_out spec2 c
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (fun w => (W6_arr m ρ c w).symm)
      (fun b hb => W6_of_ne m ρ c b fun w e => hb (Finset.mem_image.mpr ⟨w, Finset.mem_univ _, e⟩))
    rw [Pipeline.unscopedBufs_held] at hjoin
    exact leave hjoin (owesAt_out (pdats m ρ 2 c) (Fin.last _) rfl)

-- a library lemma stated over the pinned configuration unifies with the printed one only when unification may unfold
-- plain definitions in a metavariable's type
set_option backward.isDefEq.respectTransparency.types false in
/-- REGION 3 (the second aggregation): as region 1. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre := T (W6 m ρ)
  post := T (W7 m ρ)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    have hsplit := Pipeline.arrays_of_unscopedBufs (p := 3) (pcfgs (F := F)) adm (pdats m ρ) launch3.win launch3.arr_whole c
      ((pdats m ρ 3 c).share_full fun _ => rfl) (V6 m ρ c) (A_eq3 (V6 m ρ) c)
    rw [Pipeline.unscopedBufs_held] at hsplit
    exact enter hsplit
      (by unfold Pipeline.prefHeld; rw [show (Finset.univ : Finset (Fin 0)) = ∅ from rfl, BI.bigSep_empty])
      (owesAt_in (pdats m ρ 3 c) 0 rfl rfl)
  hin c := (ΦA_in spec3 c _).trans (hin3 (V6 m ρ) c)
  hout c := (hout3 (V6 m ρ) c).trans (ΦA_out spec3 c)
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (fun w => (W7_arr m ρ c w).symm)
      (fun b hb => W7_of_ne m ρ c b fun w e => hb (Finset.mem_image.mpr ⟨w, Finset.mem_univ _, e⟩))
    rw [Pipeline.unscopedBufs_held] at hjoin
    exact leave hjoin (owesAt_out (pdats m ρ 3 c) (Fin.last _) rfl)

/-! ## @main as segments, and the launch -/

/-- @main's 8 segments in order: the three host stretches, the four regions, the last host operation. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .region (reg2 m ρ),
    .region (reg3 m ρ),
    .host (hseg hostOps4 hostOps4_sub hostOps4_fresh (W7 m ρ)) ]

/-- @main IS the run of the segments: it is the chain of its items, and the segments' run is the chain of their
    programs, which are those items. -/
theorem main_run (c : Dev nD) : main (F := F) c = Pipeline.Seg.run (segs m ρ) := by
  rw [main_chain c, Pipeline.Seg.run_eq_chain]; rfl

-- the launch theorem's implicit arguments are found by unifying its conclusion with this one, which takes unfolding
-- plain definitions in a metavariable's type
set_option backward.isDefEq.respectTransparency.types false in
/-- THE RUN. At the compiled mesh, from any memory with zero counters, every weakly fair execution of @main on the
    TensorCores terminates, nothing faulting, and in every final memory every unscoped buffer of every core holds the
    last boundary's contents `W8`: the launch over the eight segments, the last thread state read against the final
    state. -/
theorem run : θ_run defs (onTc (τ := τ) (main (F := F))) ⟨m, fun _ => 0, ρ⟩ (fun r => ∀ c : Dev nD,
      ∀ b ∈ Pipeline.ucRefs τ sig, r.2.mem ((c : Thread nD τ).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m ρ)) (Tₙ := Tₙ m ρ)
    (hch := ⟨fun _ => .rfl, fun _ => .rfl, fun _ => .rfl, fun _ => .rfl, fun _ => .rfl, fun _ => .rfl, fun _ => .rfl, fun _ => .rfl,
      fun c => T_last m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- THE FRAME: from any memory with zero counters, every weakly fair execution of @main terminates, nothing
    faulting, and every final memory has the six argument arrays as launched — `run`'s post at the arguments'
    buffers, each read back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c)⟩) (run m ρ)

end Cert.Kernel.Hand

end
-- ==== Proof.KernelIdeal.Region0.lean ====
import proofs.«402366_j18588618457604_1_alg».proof.Proof.Gen.KernelIdeal.Launch
import proofs.«402366_j18588618457604_1_alg».proof.Proof.Gen.KernelIdeal.Skeleton
import proofs.«402366_j18588618457604_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 0: the first linear layer, one row block per grid point

The region runs the body `cc0__linear_kernel` on a grid of 5 points. At point `t` the body finds
* in window 0's buffer the `t`-th block of 2048 rows of the (padded, rounded) feature matrix,
* in window 1's buffer the whole 512 × 512 weight matrix and in window 2's the 1 × 512 bias row — both
  brought in once, at the first point, and left untouched by the body, so they are still there at every
  later point,
and stores into window 3's buffer the rounded value `x · W + b` of that row block (`k0_pay1`), through the
rectangle that is the whole buffer. Nothing is carried from point to point.

Everything is stated at a PARAMETER `V`, the contents of the core's buffers when the region is entered,
and for every float model `F`. -/

-- membership of an index in a rectangle of these extents is decided by structural recursion on the
-- coordinates of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (a new row block at every point) holds its block when the body starts, for any proof data
    whose array is the entry contents (`hA`) and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight matrix: one block, the same at every point, brought in at the first point only)
    holds that block when the body starts at EVERY point: where it is not brought in again its block index has
    not moved and the body left the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row), likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole, through the rectangle at offset zero of the buffer's own extents -/

/-- The offset of every access: zero along both axes. -/
theorem hz0 : (![0, 0] : Fin 2 → ℕ) = fun _ => 0 := by
  funext a; fin_cases a <;> rfl

abbrev r0_0 : Rect S2048x512 := Rect.unit (s := S2048x512) ![0, 0] S2048x512.size inb_S2048x512_S2048x512_0_0
abbrev r0_1 : Rect S512x512 := Rect.unit (s := S512x512) ![0, 0] S512x512.size inb_S512x512_S512x512_0_0
abbrev r0_2 : Rect S1x512 := Rect.unit (s := S1x512) ![0, 0] S1x512.size inb_S1x512_S1x512_0_0

/-! ## What the body leaves in the output window's buffer -/

/-- Window 3's buffer after the body, from the three input blocks: its one store, whose payload is the rounded
    `x · W + b` of what the three loads read. -/
def out0_3 (x0 : Vec F S2048x512 .bf16) (x1 : Vec F S512x512 .bf16) (x2 : Vec F S1x512 .f32) : Vec F S2048x512 .bf16 :=
  View.canon [⟨r0_0, k0_pay1 (View.ld x0 r0_0) (View.ld x1 r0_1) (View.ld x2 r0_2)⟩]

/-- Every access being of a whole buffer, a load reads the block itself and the one store leaves its payload:
    the buffer ends at the payload of the three blocks. -/
theorem out0_3_eq (x0 : Vec F S2048x512 .bf16) (x1 : Vec F S512x512 .bf16) (x2 : Vec F S1x512 .f32) :
    out0_3 x0 x1 x2 = k0_pay1 x0 x1 x2 := by
  unfold out0_3
  rw [View.canon_unit_zero (S := S2048x512) hz0, View.ld_unit_zero (S := S2048x512) hz0,
    View.ld_unit_zero (S := S512x512) hz0, View.ld_unit_zero (S := S1x512) hz0]

/-- The one store's rectangle is the whole buffer, so it covers it. -/
theorem cover0_3 (p0 : Vec F S2048x512 .bf16) (y : S2048x512.Idx) :
    ∃ pc ∈ ([⟨r0_0, p0⟩] : List (View.Piece (Elt F) S2048x512 .bf16)), y ∈ pc.1.set :=
  ⟨_, List.mem_singleton_self _, View.mem_set_unit_zero (S := S2048x512) hz0 inb_S2048x512_S2048x512_0_0 y⟩

/-! ## The body's triple -/

set_option maxHeartbeats 1000000 in
/-- The body on whole staging memrefs — the three inputs' at read contents `x0 x1 x2`, the output's at anything —
    runs to the continuation holding the inputs' as they were and the output's at `out0_3` of them: three loads,
    a load of the output buffer whose value is not used, and the store. -/
theorem sound_kernel0 (c : Dev nD) (E : Set ℕ) (i : grid0.Coords)
    (arg1 : Memref sig .tc .vmem S2048x512 .bf16) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S2048x512 .bf16) (harg4 : arg4.IsWhole)
    (x0 : Vec F S2048x512 .bf16) (x1 : Vec F S512x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region on core `c`: the arrays as the region finds them; after the body at point `t`
    each input's buffer still at its block and the output's at `out0_3` of the three input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block when the body starts, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, what the core owes, and each window's current
    staging buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Region1.lean ====
import proofs.«402366_j18588618457604_1_alg».proof.Proof.Gen.KernelIdeal.Launch
import proofs.«402366_j18588618457604_1_alg».proof.Proof.Gen.KernelIdeal.Skeleton
import proofs.«402366_j18588618457604_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-! # Region 1: the aggregation with a carried accumulator

The grid is 10 x 5 and point `t` has coordinates `(t / 5, t % 5)`. Along the second axis the body accumulates
`A(i,k) · h(k)` into a whole f32 accumulator that lives in a scratch buffer carried from point to point:

* at `t % 5 = 0` the accumulator is first filled with zeros, then read back, the product of the two input blocks is
  added and the sum stored;
* at the other points the accumulator the point before left is read, the product added and the sum stored;
* at `t % 5 = 4`, after that, the accumulator is read once more and its positive part, rounded to bf16, is stored
  whole into the output block; at every other point the output block is not touched and not written back.

Everything is stated at a PARAMETER `V`, the contents of the core's buffers when the region is entered, and at any
float model `F`. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulator and the output block, point by point -/

/-- The accumulator after the body at point `n`: at a point with `n % 5 = 0` the zero fill plus the product of the
    point's two input blocks, elsewhere what the point before left plus that product. -/
def acc1 (c : Dev nD) : (n : ℕ) → n < cfg1.N → Vec F S1024x512 .f32
  | 0, hn => k1_pay2 (k1_pay1 (F := F)) (iblk1 V c 0 ⟨0, hn⟩) (iblk1 V c 1 ⟨0, hn⟩)
  | n + 1, hn =>
    if (n + 1) % 5 = 0 then k1_pay2 (k1_pay1 (F := F)) (iblk1 V c 0 ⟨n + 1, hn⟩) (iblk1 V c 1 ⟨n + 1, hn⟩)
    else k1_pay2 (acc1 c n (Nat.lt_of_succ_lt hn)) (iblk1 V c 0 ⟨n + 1, hn⟩) (iblk1 V c 1 ⟨n + 1, hn⟩)

/-- After the body at point `n`: the output block's staging buffer (the rounded positive part of the accumulator;
    it is what the buffer holds only where the body stores it, at `n % 5 = 4`, and nothing reads it elsewhere) and
    the accumulator. -/
def outsAt1 (c : Dev nD) (n : ℕ) (hn : n < cfg1.N) : Vec F S1024x512 .bf16 × Vec F S1024x512 .f32 :=
  (k1_pay3 (acc1 V c n hn), acc1 V c n hn)

/-- At the first point of a row of the grid the accumulator restarts from the zero fill. -/
theorem outsAt1_reset (c : Dev nD) (n : ℕ) (hn : n < cfg1.N) (h : n % 5 = 0) :
    (outsAt1 V c n hn).2 = k1_pay2 (k1_pay1 (F := F)) (iblk1 V c 0 ⟨n, hn⟩) (iblk1 V c 1 ⟨n, hn⟩) := by
  cases n with
  | zero => rfl
  | succ n => exact if_pos h

/-- At any other point it continues from what the point before left. -/
theorem outsAt1_step (c : Dev nD) (n : ℕ) (hn : n + 1 < cfg1.N) (h : ¬ (n + 1) % 5 = 0) :
    (outsAt1 V c (n + 1) hn).2 = k1_pay2 ((outsAt1 V c n (Nat.lt_of_succ_lt hn)).2) (iblk1 V c 0 ⟨n + 1, hn⟩) (iblk1 V c 1 ⟨n + 1, hn⟩) :=
  if_neg h

/-- The output block is the rounded positive part of the accumulator. -/
theorem outsAt1_out (c : Dev nD) (n : ℕ) (hn : n < cfg1.N) (h : n % 5 = 4) :
    (outsAt1 V c n hn).1 = k1_pay3 ((outsAt1 V c n hn).2) := rfl

/-- The accumulator at a point that restarts it, -/
theorem acc1_reset (c : Dev nD) (t : Fin cfg1.N) (h : t.val % 5 = 0) :
    acc1 V c t.val t.isLt = k1_pay2 (k1_pay1 (F := F)) (iblk1 V c 0 t) (iblk1 V c 1 t) :=
  outsAt1_reset V c t.val t.isLt h

/-- and at one that continues it. -/
theorem acc1_step (c : Dev nD) (t : Fin cfg1.N) (h : ¬ t.val % 5 = 0) :
    acc1 V c t.val t.isLt = k1_pay2 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => exact if_neg h

/-! ## The body's two conditions, in closed form -/

/-- The body's first condition: the second grid coordinate is 0. -/
abbrev cond1_0 (i : grid1.Coords) : Prop := (Scalar.cmpi .ne (Scalar.extui (Scalar.cmpi .eq (BitVec.ofNat 32 (i 1).val) 0#32)) 0#32) = 1#1
/-- It holds exactly at the points `t` with `t % 5 = 0`: decided over the 50 points. -/
theorem hcond1_0 : ∀ t : Fin cfg1.N, cond1_0 (grid1.coords t) ↔ t.val % 5 = 0 :=
  (by decide +kernel : ∀ t : Fin grid1.N, cond1_0 (grid1.coords t) ↔ t.val % 5 = 0)

/-- The body's second condition: the second grid coordinate is 4. -/
abbrev cond1_1 (i : grid1.Coords) : Prop := k1_cond2 i = 1#1
/-- It holds exactly at the points `t` with `t % 5 = 4`. -/
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are live -/

/-- The input windows are live at every point. -/
theorem liveAt1_0 (t : Fin cfg1.N) : cfg1.idle 0 (grid1.coords t) = false := rfl
theorem liveAt1_1 (t : Fin cfg1.N) : cfg1.idle 1 (grid1.coords t) = false := rfl
/-- The output window is idle exactly where the second condition fails, -/
theorem idleAt1_2 : ∀ t : Fin cfg1.N, ¬cond1_1 (grid1.coords t) → cfg1.idle 2 (grid1.coords t) = true := by decide +kernel
theorem liveAt1_2 : ∀ t : Fin cfg1.N, cond1_1 (grid1.coords t) → cfg1.idle 2 (grid1.coords t) = false := by decide +kernel
/-- and there its block is not written back. -/
theorem noFlush1_2 (t : Fin cfg1.N) (hc : ¬cond1_1 (grid1.coords t)) : (cfg1.win 2).flush t = false :=
  Bool.eq_false_iff.mpr fun h => hc ((hcond1_1 t).mpr ((flush1_2 t).mp h))

/-! ## The staging memrefs and the accumulator's buffer -/

/-- Each window's current staging memref at point `t`, as the pipeline passes it to the body, and its wholeness. -/
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .bf16 := win1_2.stage (cfg1.slots t 2)
abbrev hs1_2 (t : Fin cfg1.N) : (ms1_2 t).IsWhole := hstage1_2 ((cfg1.slots t 2).cast nbuf1_2)
/-- The accumulator's buffer: a whole scoped buffer of the kernel's own, passed beside the windows. -/
abbrev scM1 : Memref sig .tc .vmem S1024x512 .f32 := Memref.whole cc1_scratch0

/-- The core's other scoped buffers that are no staging buffer of this region (the other regions' staging buffers
    and accumulator), each at some contents: carried through the region unopened. -/
abbrev restBut1 (c : Dev nD) : sProp 𝕄 :=
  Pipeline.scopedRestBut (Ix := Unit) (Name := ℕ) (U := UR sig nD τ) (Lvl := ℕ) (Val := Elt F) spec1 c [cc1_scratch0]

/-- The class invariant with the accumulator's buffer taken out of the scoped rest and owned at some contents. -/
theorem PhiA1_eq (c : Dev nD) :
    (Pipeline.ΦA spec1 c : sProp 𝕄)
      = iprop(iprop((∃ d, owns (c : Thread nD τ) scM1 fullShare d) ∗ restBut1 c) ∗ (∃ r, prngReg c r)) := by
  unfold Pipeline.ΦA
  rw [Pipeline.scopedRest_split_of_list spec1 c [cc1_scratch0] (by decide) (by decide)]
  simp only [scM1, owns_whole, bigSepL_singleton]; try rfl

/-! ## The region invariant -/

/-- The invariant before position `n`: before the first point the class's (every scoped buffer at anything);
    afterwards the accumulator's buffer at what the point before left in it, the other scoped buffers at anything and
    the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ restBut1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ restBut1 c) ∗ (∃ r, prngReg c r)) := by
  cases n with
  | zero => exact absurd rfl hz
  | succ n => rfl

/-! ## The pipeline's proof data -/

/-- The proof data of the region on core `c`: the arrays as the region finds them; after the body at point `t`
    each input's buffer at its block and the output's at the rounded positive part of the accumulator; the invariant
    above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! ## The body's triple, case by case -/

/-- The whole-buffer rectangle's offsets are zeros. -/
theorem hz1 : (![0, 0] : Fin S1024x512.rank → Nat) = fun _ => 0 := by
  funext a; match a with | ⟨0, _⟩ => rfl | ⟨1, _⟩ => rfl
theorem hz1a : (![0, 0] : Fin S1024x2048.rank → Nat) = fun _ => 0 := by
  funext a; match a with | ⟨0, _⟩ => rfl | ⟨1, _⟩ => rfl
theorem hz1b : (![0, 0] : Fin S2048x512.rank → Nat) = fun _ => 0 := by
  funext a; match a with | ⟨0, _⟩ => rfl | ⟨1, _⟩ => rfl

set_option maxHeartbeats 1000000 in
/-- CASE A (first condition holds, second fails): on whole memrefs, the inputs' at `x0`, `x1`, the output's at
    `xi` and the accumulator's at anything, the body runs to the continuation holding the inputs' and the output's
    as they were and the accumulator's at the zero fill plus the product. -/
theorem sound_kernel1_A (c : Dev nD) (E : Set ℕ) (i : grid1.Coords)
    (arg2 : Memref sig .tc .vmem S1024x2048 .bf16) (harg2 : arg2.IsWhole) (arg3 : Memref sig .tc .vmem S2048x512 .bf16) (harg3 : arg3.IsWhole)
    (arg4 : Memref sig .tc .vmem S1024x512 .bf16) (harg4 : arg4.IsWhole) (arg5 : Memref sig .tc .vmem S1024x512 .f32) (harg5 : arg5.IsWhole)
    (hc0 : cond1_0 i) (hc1 : ¬cond1_1 i)
    (x0 : Vec F S1024x2048 .bf16) (x1 : Vec F S2048x512 .bf16) (xi : Vec F S1024x512 .bf16) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k1_pay2 (k1_pay1 (F := F)) x0 x1)) -∗ K ⟨⟩))
      ⊢ wp frame (wpE (defs₀ (F := F)) Variants.none c none) E (cc1__agg_relu_kernel i arg2 harg2 arg3 harg3 arg4 harg4 arg5 harg5) K := by
  simp only [cc1__agg_relu_kernel_eq_skeleton]; unfold cc1__agg_relu_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_cons.mpr (Or.inl rfl), View.mem_set_unit_zero hz1 inb_S1024x512_S1024x512_0_0 y⟩)).trans ?_
  rw [View.canon_cons_unit_zero hz1]
  sl_unfold_words
  simp only [View.readCov_unit_zero (S := S1024x512) _ hz1, View.readAt_eq_ld, View.ld_unit_zero (S := S1024x512) hz1, View.ld_unit_zero (S := S1024x2048) hz1a, View.ld_unit_zero (S := S2048x512) hz1b]

set_option maxHeartbeats 1000000 in
/-- CASE B (both conditions fail): the accumulator's buffer at `xs` ends at `xs` plus the product; nothing else moves. -/
theorem sound_kernel1_B (c : Dev nD) (E : Set ℕ) (i : grid1.Coords)
    (arg2 : Memref sig .tc .vmem S1024x2048 .bf16) (harg2 : arg2.IsWhole) (arg3 : Memref sig .tc .vmem S2048x512 .bf16) (harg3 : arg3.IsWhole)
    (arg4 : Memref sig .tc .vmem S1024x512 .bf16) (harg4 : arg4.IsWhole) (arg5 : Memref sig .tc .vmem S1024x512 .f32) (harg5 : arg5.IsWhole)
    (hc0 : ¬cond1_0 i) (hc1 : ¬cond1_1 i)
    (x0 : Vec F S1024x2048 .bf16) (x1 : Vec F S2048x512 .bf16) (xi : Vec F S1024x512 .bf16) (xs : Vec F S1024x512 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare xs
        ∗ (iprop(owns (c : Thread nD τ) arg2 fullShare x0 ∗ owns (c : Thread nD τ) arg3 fullShare x1 ∗ owns (c : Thread nD τ) arg4 fullShare xi
            ∗ owns (c : Thread nD τ) arg5 fullShare (k1_pay2 xs x0 x1)) -∗ K ⟨⟩))
      ⊢ wp frame (wpE (defs₀ (F := F)) Variants.none c none) E (cc1__agg_relu_kernel i arg2 harg2 arg3 harg3 arg4 harg4 arg5 harg5) K := by
  simp only [cc1__agg_relu_kernel_eq_skeleton]; unfold cc1__agg_relu_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (View.read_writes_eq_canon _ _ _ (fun y => ⟨_, List.mem_singleton_self _, View.mem_set_unit_zero hz1 inb_S1024x512_S1024x512_0_0 y⟩)).trans ?_
  rw [View.canon_unit_zero hz1]
  simp only [View.readAt_eq_ld, View.ld_unit_zero (S := S1024x512) hz1, View.ld_unit_zero (S := S1024x2048) hz1a, View.ld_unit_zero (S := S2048x512) hz1b]

set_option maxHeartbeats 1000000 in
/-- CASE C (first condition fails, second holds): as case B, and the output's buffer, at anything, ends at the
    rounded positive part of the new accumulator. -/
theorem sound_kernel1_C (c : Dev nD) (E : Set ℕ) (i : grid1.Coords)
    (arg2 : Memref sig .tc .vmem S1024x2048 .bf16) (harg2 : arg2.IsWhole) (arg3 : Memref sig .tc .vmem S2048x512 .bf16) (harg3 : arg3.IsWhole)
    (arg4 : Memref sig .tc .vmem S1024x512 .bf16) (harg4 : arg4.IsWhole) (arg5 : Memref sig .tc .vmem S1024x512 .f32) (harg5 : arg5.IsWhole)
    (hc0 : ¬cond1_0 i) (hc1 : cond1_1 i)
    (x0 : Vec F S1024x2048 .bf16) (x1 : Vec F S2048x512 .bf16) (xs : Vec F S1024x512 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k1_pay3 (k1_pay2 xs x0 x1))
            ∗ owns (c : Thread nD τ) arg5 fullShare (k1_pay2 xs x0 x1)) -∗ K ⟨⟩))
      ⊢ wp frame (wpE (defs₀ (F := F)) Variants.none c none) E (cc1__agg_relu_kernel i arg2 harg2 arg3 harg3 arg4 harg4 arg5 harg5) K := by
  simp only [cc1__agg_relu_kernel_eq_skeleton]; unfold cc1__agg_relu_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_singleton_self _, View.mem_set_unit_zero hz1 inb_S1024x512_S1024x512_0_0 y⟩)).trans ?_
    rw [View.canon_unit_zero hz1]
    sl_unfold_words
    simp only [View.readCov_unit_zero (S := S1024x512) _ hz1, View.readAt_eq_ld, View.ld_unit_zero (S := S1024x512) hz1, View.ld_unit_zero (S := S1024x2048) hz1a, View.ld_unit_zero (S := S2048x512) hz1b]
  iexists _; isplitr
  swap; · iexact HS
  ipureintro
  sl_unfold_words
  refine (View.read_writes_eq_canon _ _ _ (fun y => ⟨_, List.mem_singleton_self _, View.mem_set_unit_zero hz1 inb_S1024x512_S1024x512_0_0 y⟩)).trans ?_
  rw [View.canon_unit_zero hz1]
  simp only [View.readAt_eq_ld, View.ld_unit_zero (S := S1024x512) hz1, View.ld_unit_zero (S := S1024x2048) hz1a, View.ld_unit_zero (S := S2048x512) hz1b]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2_live (c : Dev nD) (t : Fin cfg1.N) (hc : cond1_1 (grid1.coords t)) :
    (dat1 V c).leavesExact 2 t = owns (c : Thread nD τ) (ms1_2 t) fullShare (k1_pay3 (acc1 V c t.val t.isLt)) := by
  unfold Dat.leavesExact; rw [liveAt1_2 t hc, after1_2]; rfl

set_option maxHeartbeats 4000000 in
/-- The body at any point. The inputs' memrefs hold their blocks; the closed forms of the two conditions say which case
    the point is in; the invariant hands the body the accumulator's buffer at what the point before left (at anything
    before the first point, which restarts it) and takes it back at this point's accumulator; where the body does not
    store the output block its buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ, leaves1_0, leaves1_1]
  have hN : t.val < 50 := lt_of_lt_of_eq t.isLt (show cfg1.N = 50 from N_1)
  by_cases h0 : t.val % 5 = 0
  · -- the accumulator restarts
    have h4 : ¬ t.val % 5 = 4 := by omega
    have hc0 : cond1_0 (grid1.coords t) := (hcond1_0 t).mpr h0
    have hc1 : ¬cond1_1 (grid1.coords t) := fun h => h4 ((hcond1_1 t).mp h)
    rw [Dat.leavesExact_idle (dat1 V c) 2 t (idleAt1_2 t hc1) (noFlush1_2 t hc1), acc1_reset V c t h0]
    have hΦ : (dat1 V c).Φ t.castSucc ⊢ iprop(iprop((∃ d, owns (c : Thread nD τ) scM1 fullShare d) ∗ restBut1 c) ∗ (∃ r, prngReg c r)) := by
      rw [PhiS1_castSucc V c t]
      by_cases hz : t.val = 0
      · rw [PhiS1_zero V c _ _ hz, PhiA1_eq]
      · rw [PhiS1_pos V c _ _ hz]
        iintro ⟨⟨HS, HR⟩, Hg⟩
        isplitr [Hg]
        · isplitl [HS]; · iexists _; iexact HS
          iexact HR
        iexact Hg
    iintro ⟨HP, Ho, ⟨%d0, H0⟩, ⟨%d1, H1⟩, ⟨%d2, H2⟩⟩
    ihave HQ := hΦ $$ HP
    icases HQ with ⟨⟨HS, HR⟩, Hg⟩
    iapply (sound_kernel1_A c Set.univ (grid1.coords t) _ _ _ _ _ _ _ _ hc0 hc1 (iblk1 V c 0 t) (iblk1 V c 1 t) ((dat1 V c).before 2 t d2) _)
    isplitl [H0]; · iexact H0
    isplitl [H1]; · iexact H1
    isplitl [H2]; · iexact H2
    isplitl [HS]; · iexact HS
    iintro ⟨H0, H1, H2, HS⟩
    isplitl [HS HR Hg]
    · isplitr [Hg]
      · isplitl [HS]; · iexact HS
        iexact HR
      iexact Hg
    isplitl [Ho]; · iexact Ho
    isplitl [H0]; · iexact H0
    isplitl [H1]; · iexact H1
    iexists _; iexact H2
  · -- the accumulator continues from the point before
    have hz : t.val ≠ 0 := fun e => h0 (by rw [e])
    have hc0 : ¬cond1_0 (grid1.coords t) := fun h => h0 ((hcond1_0 t).mp h)
    rw [PhiS1_castSucc V c t, PhiS1_pos V c _ _ hz, acc1_step V c t h0]
    by_cases h4 : t.val % 5 = 4
    · have hc1 : cond1_1 (grid1.coords t) := (hcond1_1 t).mpr h4
      rw [leaves1_2_live V c t hc1, acc1_step V c t h0]
      iintro ⟨⟨⟨HS, HR⟩, Hg⟩, Ho, ⟨%d0, H0⟩, ⟨%d1, H1⟩, ⟨%d2, H2⟩⟩
      iapply (sound_kernel1_C c Set.univ (grid1.coords t) _ _ _ _ _ _ _ _ hc0 hc1 (iblk1 V c 0 t) (iblk1 V c 1 t) (acc1 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    · have hc1 : ¬cond1_1 (grid1.coords t) := fun h => h4 ((hcond1_1 t).mp h)
      rw [Dat.leavesExact_idle (dat1 V c) 2 t (idleAt1_2 t hc1) (noFlush1_2 t hc1)]
      iintro ⟨⟨⟨HS, HR⟩, Hg⟩, Ho, ⟨%d0, H0⟩, ⟨%d1, H1⟩, ⟨%d2, H2⟩⟩
      iapply (sound_kernel1_B c Set.univ (grid1.coords t) _ _ _ _ _ _ _ _ hc0 hc1 (iblk1 V c 0 t) (iblk1 V c 1 t) ((dat1 V c).before 2 t d2) (acc1 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: what the accumulator's buffer holds is forgotten. -/
theorem hout1 (c : Dev nD) : (dat1 V c).Φ (Fin.last cfg1.N) ⊢ Pipeline.ΦA spec1 c := by
  have hN : cfg1.N = 50 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨HS, HR⟩, Hg⟩
  isplitr [Hg]
  · isplitl [HS]; · iexists _; iexact HS
    iexact HR
  iexact Hg

end Cert.KernelIdeal.Hand

end
-- ==== Proof.KernelIdeal.Region2.lean ====
import proofs.«402366_j18588618457604_1_alg».proof.Proof.Gen.KernelIdeal.Launch
import proofs.«402366_j18588618457604_1_alg».proof.Proof.Gen.KernelIdeal.Skeleton
import proofs.«402366_j18588618457604_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 2: the second linear layer, one row block per grid point

The region runs the body `cc2__linear_kernel` on a grid of 5 points. At point `t` the body finds
* in window 0's buffer the `t`-th block of 2048 rows of the hidden-layer matrix (the result of the first aggregation),
* in window 1's buffer the whole 512 × 512 weight matrix and in window 2's the 1 × 512 bias row — both
  brought in once, at the first point, and left untouched by the body, so they are still there at every
  later point,
and stores into window 3's buffer the rounded value `x · W + b` of that row block (`k2_pay1`), through the
rectangle that is the whole buffer. Nothing is carried from point to point.

Everything is stated at a PARAMETER `V`, the contents of the core's buffers when the region is entered,
and for every float model `F`. -/

-- membership of an index in a rectangle of these extents is decided by structural recursion on the
-- coordinates of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (a new row block at every point) holds its block when the body starts, for any proof data
    whose array is the entry contents (`hA`) and whose body leaves the block in place (`hafter`). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the weight matrix: one block, the same at every point, brought in at the first point only)
    holds that block when the body starts at EVERY point: where it is not brought in again its block index has
    not moved and the body left the buffer as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the bias row), likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole, through the rectangle at offset zero of the buffer's own extents -/

/-- The offset of every access: zero along both axes. -/
theorem hz2 : (![0, 0] : Fin 2 → ℕ) = fun _ => 0 := by
  funext a; fin_cases a <;> rfl

abbrev r2_0 : Rect S2048x512 := Rect.unit (s := S2048x512) ![0, 0] S2048x512.size inb_S2048x512_S2048x512_0_0
abbrev r2_1 : Rect S512x512 := Rect.unit (s := S512x512) ![0, 0] S512x512.size inb_S512x512_S512x512_0_0
abbrev r2_2 : Rect S1x512 := Rect.unit (s := S1x512) ![0, 0] S1x512.size inb_S1x512_S1x512_0_0

/-! ## What the body leaves in the output window's buffer -/

/-- Window 3's buffer after the body, from the three input blocks: its one store, whose payload is the rounded
    `x · W + b` of what the three loads read. -/
def out2_3 (x0 : Vec F S2048x512 .bf16) (x1 : Vec F S512x512 .bf16) (x2 : Vec F S1x512 .f32) : Vec F S2048x512 .bf16 :=
  View.canon [⟨r2_0, k2_pay1 (View.ld x0 r2_0) (View.ld x1 r2_1) (View.ld x2 r2_2)⟩]

/-- Every access being of a whole buffer, a load reads the block itself and the one store leaves its payload:
    the buffer ends at the payload of the three blocks. -/
theorem out2_3_eq (x0 : Vec F S2048x512 .bf16) (x1 : Vec F S512x512 .bf16) (x2 : Vec F S1x512 .f32) :
    out2_3 x0 x1 x2 = k2_pay1 x0 x1 x2 := by
  unfold out2_3
  rw [View.canon_unit_zero (S := S2048x512) hz2, View.ld_unit_zero (S := S2048x512) hz2,
    View.ld_unit_zero (S := S512x512) hz2, View.ld_unit_zero (S := S1x512) hz2]

/-- The one store's rectangle is the whole buffer, so it covers it. -/
theorem cover2_3 (p0 : Vec F S2048x512 .bf16) (y : S2048x512.Idx) :
    ∃ pc ∈ ([⟨r2_0, p0⟩] : List (View.Piece (Elt F) S2048x512 .bf16)), y ∈ pc.1.set :=
  ⟨_, List.mem_singleton_self _, View.mem_set_unit_zero (S := S2048x512) hz2 inb_S2048x512_S2048x512_0_0 y⟩

/-! ## The body's triple -/

set_option maxHeartbeats 1000000 in
/-- The body on whole staging memrefs — the three inputs' at read contents `x0 x1 x2`, the output's at anything —
    runs to the continuation holding the inputs' as they were and the output's at `out2_3` of them: three loads,
    a load of the output buffer whose value is not used, and the store. -/
theorem sound_kernel2 (c : Dev nD) (E : Set ℕ) (i : grid2.Coords)
    (arg1 : Memref sig .tc .vmem S2048x512 .bf16) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S2048x512 .bf16) (harg4 : arg4.IsWhole)
    (x0 : Vec F S2048x512 .bf16) (x1 : Vec F S512x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the region on core `c`: the arrays as the region finds them; after the body at point `t`
    each input's buffer still at its block and the output's at `out2_3` of the three input blocks; the invariant
    is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block when the body starts, at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`: the invariant, what the core owes, and each window's current
    staging buffer at what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdeal.Region3Runs.lean ====
import proofs.«402366_j18588618457604_1_alg».proof.Proof.Gen.KernelIdeal.Launch
import proofs.«402366_j18588618457604_1_alg».proof.Proof.Gen.KernelIdeal.Skeleton
import proofs.«402366_j18588618457604_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 3: the body of the second aggregation, case by case

The body `cc3__agg_relu_kernel` runs on a 10 x 5 grid; write `k` for a point's second coordinate. It keeps a
whole f32 accumulator in a buffer of its own, carried from point to point:
* if `k = 0` it first fills the accumulator with zeros;
* then, at every point, it reads the accumulator, adds the product of the two input blocks and stores the sum;
* if `k = 4` it then reads the accumulator once more and stores its positive part, whole, into the output block.
Which of the two conditional parts run is decided by `k` alone, so there are three cases: A (`k = 0`: the first
runs, the second does not), B (`0 < k < 4`: neither) and C (`k = 4`: the second only). For each, the body's triple
on whole memrefs, stated directly over the payloads: every access is of a whole buffer, so a load reads the
buffer's contents, a store leaves its payload, and a load after a store reads what was stored. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two conditions -/

/-- The body's first condition, as it computes it: the second grid coordinate is 0. -/
abbrev cond3_0 (i : grid3.Coords) : Prop := (Scalar.cmpi .ne (Scalar.extui (Scalar.cmpi .eq (BitVec.ofNat 32 (i 1).val) 0#32)) 0#32) = 1#1
/-- The body's second condition: the second grid coordinate is 4. -/
abbrev cond3_1 (i : grid3.Coords) : Prop := k3_cond2 i = 1#1

/-! ## The accesses: each of a whole buffer, through the rectangle at offset zero of the buffer's own extents -/

/-- The offset of every access: zero along both axes. -/
theorem hz3 : (![0, 0] : Fin S1024x512.rank → Nat) = fun _ => 0 := by
  funext a; match a with | ⟨0, _⟩ => rfl | ⟨1, _⟩ => rfl

/-- A load of a whole buffer reads the buffer's contents. -/
private theorem readAt_whole3 {S : Shape} {e : EltTy} {κ : Kind} {sp : Space} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := by
  rw [View.readAt_eq_ld, View.ld_unit_zero h]

/-- A whole store's rectangle holds every index, so a list of stores that begins with one covers the buffer. -/
private theorem cover_whole3 (w : Vec F S1024x512 .f32) (L : List (View.Piece (Elt F) S1024x512 .f32)) (y : S1024x512.Idx) :
    ∃ pc ∈ ((⟨Rect.unit (s := S1024x512) ![0, 0] S1024x512.size inb_S1024x512_S1024x512_0_0, w⟩ : View.Piece (Elt F) S1024x512 .f32) :: L),
      y ∈ pc.1.set :=
  ⟨_, List.mem_cons_self, View.mem_set_unit_zero (S := S1024x512) hz3 inb_S1024x512_S1024x512_0_0 y⟩

/-- A buffer whose last store was whole reads that store's payload, whatever was stored before. -/
private theorem read_writes_whole3 {κ : Kind} {sp : Space} (v : View sig κ sp S1024x512 .f32) (f : v.ty.Contents (Elt F))
    (w : Vec F S1024x512 .f32) (L : List (View.Piece (Elt F) S1024x512 .f32)) :
    v.read (Elt F) (v.writes (Elt F) f
      ((⟨Rect.unit (s := S1024x512) ![0, 0] S1024x512.size inb_S1024x512_S1024x512_0_0, w⟩ : View.Piece (Elt F) S1024x512 .f32) :: L)) = w := by
  rw [View.read_writes_eq_canon v f _ (cover_whole3 w L), View.canon_cons_unit_zero (S := S1024x512) hz3]

/-- A whole load after one whole store reads what was stored. -/
private theorem readCov_whole3 {κ : Kind} {sp : Space} (v : View sig κ sp S1024x512 .f32) (w : Vec F S1024x512 .f32) :
    v.readCov [(⟨Rect.unit (s := S1024x512) ![0, 0] S1024x512.size inb_S1024x512_S1024x512_0_0, w⟩ : View.Piece (Elt F) S1024x512 .f32)]
      (Rect.unit (s := S1024x512) ![0, 0] S1024x512.size inb_S1024x512_S1024x512_0_0).toLoadRect = w :=
  View.readCov_unit_zero (S := S1024x512) v hz3 inb_S1024x512_S1024x512_0_0 w

/-! ## The body's triple, case by case -/

set_option maxHeartbeats 1000000 in
/-- CASE A (first condition holds, second fails): on whole memrefs, the inputs' at `x0`, `x1`, the output's at
    `xi` and the accumulator's at anything, the body runs to the continuation holding the inputs' and the output's
    as they were and the accumulator's at the zero fill plus the product: the fill is stored, read back, the
    product added to it and the sum stored over it. -/
theorem sound_kernel3_A (c : Dev nD) (E : Set ℕ) (i : grid3.Coords)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (hc0 : cond3_0 i) (hc1 : ¬cond3_1 i)
    (x0 : Vec F S1024x2048 .bf16) (x1 : Vec F S2048x512 .bf16) (xi : Vec F S1024x512 .f32) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k3_pay2 (k3_pay1 (F := F)) x0 x1)) -∗ K ⟨⟩))
      ⊢ wp frame (wpE (defs₀ (F := F)) Variants.none c none) E (cc3__agg_relu_kernel i arg2 harg2 arg3 harg3 arg4 harg4 arg5 harg5) K := by
  simp only [cc3__agg_relu_kernel_eq_skeleton]; unfold cc3__agg_relu_kernel_skel
  unfold owns
  iintro ⟨⟨%f0, %hf0, H0⟩, ⟨%f1, %hf1, H1⟩, ⟨%fi, %hfi, HI⟩, ⟨%ds, %fs, -, HS⟩, Hk⟩
  subst hf0 hf1 hfi
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HI]
  · iexists fi; isplitr; · ipureintro; rfl
    iexact HI
  iexists _; isplitr
  swap; · iexact HS
  ipureintro
  sl_unfold_run_names
  rw [read_writes_whole3, readCov_whole3, readAt_whole3 _ _ hz3, readAt_whole3 _ _ hz3]

set_option maxHeartbeats 1000000 in
/-- CASE B (both conditions fail): the accumulator's buffer at `xs` ends at `xs` plus the product; nothing else moves. -/
theorem sound_kernel3_B (c : Dev nD) (E : Set ℕ) (i : grid3.Coords)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (hc0 : ¬cond3_0 i) (hc1 : ¬cond3_1 i)
    (x0 : Vec F S1024x2048 .bf16) (x1 : Vec F S2048x512 .bf16) (xi : Vec F S1024x512 .f32) (xs : Vec F S1024x512 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare xs
        ∗ (iprop(owns (c : Thread nD τ) arg2 fullShare x0 ∗ owns (c : Thread nD τ) arg3 fullShare x1 ∗ owns (c : Thread nD τ) arg4 fullShare xi
            ∗ owns (c : Thread nD τ) arg5 fullShare (k3_pay2 xs x0 x1)) -∗ K ⟨⟩))
      ⊢ wp frame (wpE (defs₀ (F := F)) Variants.none c none) E (cc3__agg_relu_kernel i arg2 harg2 arg3 harg3 arg4 harg4 arg5 harg5) K := by
  simp only [cc3__agg_relu_kernel_eq_skeleton]; unfold cc3__agg_relu_kernel_skel
  unfold owns
  iintro ⟨⟨%f0, %hf0, H0⟩, ⟨%f1, %hf1, H1⟩, ⟨%fi, %hfi, HI⟩, ⟨%fs, %hfs, HS⟩, Hk⟩
  subst hf0 hf1 hfi hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HI]
  · iexists fi; isplitr; · ipureintro; rfl
    iexact HI
  iexists _; isplitr
  swap; · iexact HS
  ipureintro
  sl_unfold_run_names
  rw [read_writes_whole3, readAt_whole3 _ _ hz3, readAt_whole3 _ _ hz3, readAt_whole3 _ _ hz3]

set_option maxHeartbeats 1000000 in
/-- CASE C (first condition fails, second holds): as case B, and the output's buffer, at anything, ends at the
    positive part of the new accumulator, read back from its buffer after the sum was stored there. -/
theorem sound_kernel3_C (c : Dev nD) (E : Set ℕ) (i : grid3.Coords)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (hc0 : ¬cond3_0 i) (hc1 : cond3_1 i)
    (x0 : Vec F S1024x2048 .bf16) (x1 : Vec F S2048x512 .bf16) (xs : Vec F S1024x512 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k3_pay3 (k3_pay2 xs x0 x1))
            ∗ owns (c : Thread nD τ) arg5 fullShare (k3_pay2 xs x0 x1)) -∗ K ⟨⟩))
      ⊢ wp frame (wpE (defs₀ (F := F)) Variants.none c none) E (cc3__agg_relu_kernel i arg2 harg2 arg3 harg3 arg4 harg4 arg5 harg5) K := by
  simp only [cc3__agg_relu_kernel_eq_skeleton]; unfold cc3__agg_relu_kernel_skel
  unfold owns
  iintro ⟨⟨%f0, %hf0, H0⟩, ⟨%f1, %hf1, H1⟩, ⟨%di, %fi, -, HI⟩, ⟨%fs, %hfs, HS⟩, Hk⟩
  subst hf0 hf1 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HI]
  · iexists _; isplitr
    swap; · iexact HI
    ipureintro
    sl_unfold_run_names
    rw [read_writes_whole3, readCov_whole3, readAt_whole3 _ _ hz3, readAt_whole3 _ _ hz3, readAt_whole3 _ _ hz3]
  iexists _; isplitr
  swap; · iexact HS
  ipureintro
  sl_unfold_run_names
  rw [read_writes_whole3, readAt_whole3 _ _ hz3, readAt_whole3 _ _ hz3, readAt_whole3 _ _ hz3]

end Cert.KernelIdeal.Hand

end
-- ==== Proof.KernelIdeal.Region3.lean ====
import proofs.«402366_j18588618457604_1_alg».proof.Proof.Gen.KernelIdeal.Launch
import proofs.«402366_j18588618457604_1_alg».proof.Proof.Gen.KernelIdeal.Skeleton
import proofs.«402366_j18588618457604_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«402366_j18588618457604_1_alg».proof.Proof.KernelIdeal.Region3Runs

/-! # Region 3: the second aggregation with a carried accumulator

The grid is 10 x 5 and point `t` has coordinates `(t / 5, t % 5)`. Along the second axis the body accumulates
`A(i,k) · h(k)` into a whole f32 accumulator that lives in a scratch buffer carried from point to point:

* at `t % 5 = 0` the accumulator is first filled with zeros, then read back, the product of the two input blocks is
  added and the sum stored;
* at the other points the accumulator the point before left is read, the product added and the sum stored;
* at `t % 5 = 4`, after that, the accumulator is read once more and its positive part is stored
  whole into the output block; at every other point the output block is not touched and not written back.

Everything is stated at a PARAMETER `V`, the contents of the core's buffers when the region is entered, and at any
float model `F`. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The accumulator and the output block, point by point -/

/-- The accumulator after the body at point `n`: at a point with `n % 5 = 0` the zero fill plus the product of the
    point's two input blocks, elsewhere what the point before left plus that product. -/
def acc3 (c : Dev nD) : (n : ℕ) → n < cfg3.N → Vec F S1024x512 .f32
  | 0, hn => k3_pay2 (k3_pay1 (F := F)) (iblk3 V c 0 ⟨0, hn⟩) (iblk3 V c 1 ⟨0, hn⟩)
  | n + 1, hn =>
    if (n + 1) % 5 = 0 then k3_pay2 (k3_pay1 (F := F)) (iblk3 V c 0 ⟨n + 1, hn⟩) (iblk3 V c 1 ⟨n + 1, hn⟩)
    else k3_pay2 (acc3 c n (Nat.lt_of_succ_lt hn)) (iblk3 V c 0 ⟨n + 1, hn⟩) (iblk3 V c 1 ⟨n + 1, hn⟩)

/-- After the body at point `n`: the output block's staging buffer (the positive part of the accumulator;
    it is what the buffer holds only where the body stores it, at `n % 5 = 4`, and nothing reads it elsewhere) and
    the accumulator. -/
def outsAt3 (c : Dev nD) (n : ℕ) (hn : n < cfg3.N) : Vec F S1024x512 .f32 × Vec F S1024x512 .f32 :=
  (k3_pay3 (acc3 V c n hn), acc3 V c n hn)

/-- At the first point of a row of the grid the accumulator restarts from the zero fill. -/
theorem outsAt3_reset (c : Dev nD) (n : ℕ) (hn : n < cfg3.N) (h : n % 5 = 0) :
    (outsAt3 V c n hn).2 = k3_pay2 (k3_pay1 (F := F)) (iblk3 V c 0 ⟨n, hn⟩) (iblk3 V c 1 ⟨n, hn⟩) := by
  cases n with
  | zero => rfl
  | succ n => exact if_pos h

/-- At any other point it continues from what the point before left. -/
theorem outsAt3_step (c : Dev nD) (n : ℕ) (hn : n + 1 < cfg3.N) (h : ¬ (n + 1) % 5 = 0) :
    (outsAt3 V c (n + 1) hn).2 = k3_pay2 ((outsAt3 V c n (Nat.lt_of_succ_lt hn)).2) (iblk3 V c 0 ⟨n + 1, hn⟩) (iblk3 V c 1 ⟨n + 1, hn⟩) :=
  if_neg h

/-- The output block is the positive part of the accumulator. -/
theorem outsAt3_out (c : Dev nD) (n : ℕ) (hn : n < cfg3.N) (h : n % 5 = 4) :
    (outsAt3 V c n hn).1 = k3_pay3 ((outsAt3 V c n hn).2) := rfl

/-- The accumulator at a point that restarts it, -/
theorem acc3_reset (c : Dev nD) (t : Fin cfg3.N) (h : t.val % 5 = 0) :
    acc3 V c t.val t.isLt = k3_pay2 (k3_pay1 (F := F)) (iblk3 V c 0 t) (iblk3 V c 1 t) :=
  outsAt3_reset V c t.val t.isLt h

/-- and at one that continues it. -/
theorem acc3_step (c : Dev nD) (t : Fin cfg3.N) (h : ¬ t.val % 5 = 0) :
    acc3 V c t.val t.isLt = k3_pay2 (acc3 V c (t.val - 1) (Nat.lt_of_le_of_lt (Nat.sub_le _ _) t.isLt)) (iblk3 V c 0 t) (iblk3 V c 1 t) := by
  obtain ⟨n, hn⟩ := t
  cases n with
  | zero => exact absurd (Nat.zero_mod _) h
  | succ n => exact if_neg h

/-! ## The body's two conditions, in closed form -/

/-- The body's first condition (the second grid coordinate is 0) holds exactly at the points `t` with `t % 5 = 0`: decided over the 50 points. -/
theorem hcond3_0 : ∀ t : Fin cfg3.N, cond3_0 (grid3.coords t) ↔ t.val % 5 = 0 :=
  (by decide +kernel : ∀ t : Fin grid3.N, cond3_0 (grid3.coords t) ↔ t.val % 5 = 0)

/-- The body's second condition (the second grid coordinate is 4) holds exactly at the points `t` with `t % 5 = 4`. -/
theorem hcond3_1 : ∀ t : Fin cfg3.N, cond3_1 (grid3.coords t) ↔ t.val % 5 = 4 :=
  (by decide +kernel : ∀ t : Fin grid3.N, cond3_1 (grid3.coords t) ↔ t.val % 5 = 4)

/-! ## Where the windows are live -/

/-- The input windows are live at every point. -/
theorem liveAt3_0 (t : Fin cfg3.N) : cfg3.idle 0 (grid3.coords t) = false := rfl
theorem liveAt3_1 (t : Fin cfg3.N) : cfg3.idle 1 (grid3.coords t) = false := rfl
/-- The output window is idle exactly where the second condition fails, -/
theorem idleAt3_2 : ∀ t : Fin cfg3.N, ¬cond3_1 (grid3.coords t) → cfg3.idle 2 (grid3.coords t) = true := by decide +kernel
theorem liveAt3_2 : ∀ t : Fin cfg3.N, cond3_1 (grid3.coords t) → cfg3.idle 2 (grid3.coords t) = false := by decide +kernel
/-- and there its block is not written back. -/
theorem noFlush3_2 (t : Fin cfg3.N) (hc : ¬cond3_1 (grid3.coords t)) : (cfg3.win 2).flush t = false :=
  Bool.eq_false_iff.mpr fun h => hc ((hcond3_1 t).mpr ((flush3_2 t).mp h))

/-! ## The staging memrefs and the accumulator's buffer -/

/-- Each window's current staging memref at point `t`, as the pipeline passes it to the body, and its wholeness. -/
abbrev ms3_0 (t : Fin cfg3.N) : Memref sig .tc .vmem S1024x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x512 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x512 .f32 := win3_2.stage (cfg3.slots t 2)
abbrev hs3_2 (t : Fin cfg3.N) : (ms3_2 t).IsWhole := hstage3_2 ((cfg3.slots t 2).cast nbuf3_2)
/-- The accumulator's buffer: a whole scoped buffer of the kernel's own, passed beside the windows. -/
abbrev scM3 : Memref sig .tc .vmem S1024x512 .f32 := Memref.whole cc3_scratch0

/-- The core's other scoped buffers that are no staging buffer of this region (the other regions' staging buffers
    and accumulator), each at some contents: carried through the region unopened. -/
abbrev restBut3 (c : Dev nD) : sProp 𝕄 :=
  Pipeline.scopedRestBut (Ix := Unit) (Name := ℕ) (U := UR sig nD τ) (Lvl := ℕ) (Val := Elt F) spec3 c [cc3_scratch0]

/-- The class invariant with the accumulator's buffer taken out of the scoped rest and owned at some contents. -/
theorem PhiA3_eq (c : Dev nD) :
    (Pipeline.ΦA spec3 c : sProp 𝕄)
      = iprop(iprop((∃ d, owns (c : Thread nD τ) scM3 fullShare d) ∗ restBut3 c) ∗ (∃ r, prngReg c r)) := by
  unfold Pipeline.ΦA
  rw [Pipeline.scopedRest_split_of_list spec3 c [cc3_scratch0] (by decide) (by decide)]
  simp only [scM3, owns_whole, bigSepL_singleton]; try rfl

/-! ## The region invariant -/

/-- The invariant before position `n`: before the first point the class's (every scoped buffer at anything);
    afterwards the accumulator's buffer at what the point before left in it, the other scoped buffers at anything and
    the generator register at some state. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ restBut3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (acc3 V c n hn) ∗ restBut3 c) ∗ (∃ r, prngReg c r)) := rfl

theorem PhiS3_pos (c : Dev nD) (n : ℕ) (h : n ≤ cfg3.N) (hz : n ≠ 0) :
    PhiS3 V c n h = iprop(iprop(owns (c : Thread nD τ) scM3 fullShare (acc3 V c (n - 1) (by omega)) ∗ restBut3 c) ∗ (∃ r, prngReg c r)) := by
  cases n with
  | zero => exact absurd rfl hz
  | succ n => rfl

/-! ## The pipeline's proof data -/

/-- The proof data of the region on core `c`: the arrays as the region finds them; after the body at point `t`
    each input's buffer at its block and the output's at the positive part of the accumulator; the invariant
    above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

/-! ## The body's triple, case by case: `sound_kernel3_A`, `sound_kernel3_B`, `sound_kernel3_C` of the module imported above -/

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

theorem leaves3_0 (c : Dev nD) (t : Fin cfg3.N) :
    (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) :
    (dat3 V c).leavesExact 1 t = owns (c : Thread nD τ) (ms3_1 t) fullShare (iblk3 V c 1 t) := by
  unfold Dat.leavesExact; rw [liveAt3_1 t, after3_1]
theorem leaves3_2_live (c : Dev nD) (t : Fin cfg3.N) (hc : cond3_1 (grid3.coords t)) :
    (dat3 V c).leavesExact 2 t = owns (c : Thread nD τ) (ms3_2 t) fullShare (k3_pay3 (acc3 V c t.val t.isLt)) := by
  unfold Dat.leavesExact; rw [liveAt3_2 t hc, after3_2]; rfl

set_option maxHeartbeats 4000000 in
/-- The body at any point. The inputs' memrefs hold their blocks; the closed forms of the two conditions say which case
    the point is in; the invariant hands the body the accumulator's buffer at what the point before left (at anything
    before the first point, which restarts it) and takes it back at this point's accumulator; where the body does not
    store the output block its buffer goes back as it came. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ, leaves3_0, leaves3_1]
  have hN : t.val < 50 := lt_of_lt_of_eq t.isLt (show cfg3.N = 50 from N_3)
  by_cases h0 : t.val % 5 = 0
  · -- the accumulator restarts
    have h4 : ¬ t.val % 5 = 4 := by omega
    have hc0 : cond3_0 (grid3.coords t) := (hcond3_0 t).mpr h0
    have hc1 : ¬cond3_1 (grid3.coords t) := fun h => h4 ((hcond3_1 t).mp h)
    rw [Dat.leavesExact_idle (dat3 V c) 2 t (idleAt3_2 t hc1) (noFlush3_2 t hc1), acc3_reset V c t h0]
    have hΦ : (dat3 V c).Φ t.castSucc ⊢ iprop(iprop((∃ d, owns (c : Thread nD τ) scM3 fullShare d) ∗ restBut3 c) ∗ (∃ r, prngReg c r)) := by
      rw [PhiS3_castSucc V c t]
      by_cases hz : t.val = 0
      · rw [PhiS3_zero V c _ _ hz, PhiA3_eq]
      · rw [PhiS3_pos V c _ _ hz]
        iintro ⟨⟨HS, HR⟩, Hg⟩
        isplitr [Hg]
        · isplitl [HS]; · iexists _; iexact HS
          iexact HR
        iexact Hg
    iintro ⟨HP, Ho, ⟨%d0, H0⟩, ⟨%d1, H1⟩, ⟨%d2, H2⟩⟩
    ihave HQ := hΦ $$ HP
    icases HQ with ⟨⟨HS, HR⟩, Hg⟩
    iapply (sound_kernel3_A c Set.univ (grid3.coords t) _ _ _ _ _ _ _ _ hc0 hc1 (iblk3 V c 0 t) (iblk3 V c 1 t) ((dat3 V c).before 2 t d2) _)
    isplitl [H0]; · iexact H0
    isplitl [H1]; · iexact H1
    isplitl [H2]; · iexact H2
    isplitl [HS]; · iexact HS
    iintro ⟨H0, H1, H2, HS⟩
    isplitl [HS HR Hg]
    · isplitr [Hg]
      · isplitl [HS]; · iexact HS
        iexact HR
      iexact Hg
    isplitl [Ho]; · iexact Ho
    isplitl [H0]; · iexact H0
    isplitl [H1]; · iexact H1
    iexists _; iexact H2
  · -- the accumulator continues from the point before
    have hz : t.val ≠ 0 := fun e => h0 (by rw [e])
    have hc0 : ¬cond3_0 (grid3.coords t) := fun h => h0 ((hcond3_0 t).mp h)
    rw [PhiS3_castSucc V c t, PhiS3_pos V c _ _ hz, acc3_step V c t h0]
    by_cases h4 : t.val % 5 = 4
    · have hc1 : cond3_1 (grid3.coords t) := (hcond3_1 t).mpr h4
      rw [leaves3_2_live V c t hc1, acc3_step V c t h0]
      iintro ⟨⟨⟨HS, HR⟩, Hg⟩, Ho, ⟨%d0, H0⟩, ⟨%d1, H1⟩, ⟨%d2, H2⟩⟩
      iapply (sound_kernel3_C c Set.univ (grid3.coords t) _ _ _ _ _ _ _ _ hc0 hc1 (iblk3 V c 0 t) (iblk3 V c 1 t) (acc3 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    · have hc1 : ¬cond3_1 (grid3.coords t) := fun h => h4 ((hcond3_1 t).mp h)
      rw [Dat.leavesExact_idle (dat3 V c) 2 t (idleAt3_2 t hc1) (noFlush3_2 t hc1)]
      iintro ⟨⟨⟨HS, HR⟩, Hg⟩, Ho, ⟨%d0, H0⟩, ⟨%d1, H1⟩, ⟨%d2, H2⟩⟩
      iapply (sound_kernel3_B c Set.univ (grid3.coords t) _ _ _ _ _ _ _ _ hc0 hc1 (iblk3 V c 0 t) (iblk3 V c 1 t) ((dat3 V c).before 2 t d2) (acc3 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]

/-- After the last point the invariant gives the class's back: what the accumulator's buffer holds is forgotten. -/
theorem hout3 (c : Dev nD) : (dat3 V c).Φ (Fin.last cfg3.N) ⊢ Pipeline.ΦA spec3 c := by
  have hN : cfg3.N = 50 := N_3
  rw [show (dat3 V c).Φ (Fin.last cfg3.N) = PhiS3 V c (Fin.last cfg3.N).val (Nat.le_of_lt_succ (Fin.last cfg3.N).isLt) from rfl,
    PhiS3_pos V c _ _ (by rw [Fin.val_last]; omega), PhiA3_eq]
  iintro ⟨⟨HS, HR⟩, Hg⟩
  isplitr [Hg]
  · isplitl [HS]; · iexists _; iexact HS
    iexact HR
  iexact Hg

end Cert.KernelIdeal.Hand

end
-- ==== Proof.KernelIdeal.Run.lean ====
import proofs.«402366_j18588618457604_1_alg».proof.Proof.Gen.KernelIdeal.Launch
import proofs.«402366_j18588618457604_1_alg».proof.Proof.Gen.KernelIdeal.Skeleton
import proofs.«402366_j18588618457604_1_alg».proof.Proof.Gen.KernelIdeal.Points
import proofs.«402366_j18588618457604_1_alg».proof.Proof.Gen.KernelIdeal.Regions
import proofs.«402366_j18588618457604_1_alg».proof.Proof.KernelIdeal.Region0
import proofs.«402366_j18588618457604_1_alg».proof.Proof.KernelIdeal.Region1
import proofs.«402366_j18588618457604_1_alg».proof.Proof.KernelIdeal.Region2
import proofs.«402366_j18588618457604_1_alg».proof.Proof.KernelIdeal.Region3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main: eight segments from the launch to the return

@main is three stretches of host operations (the adjacency matrix scattered from the edge list and rounded,
the padded features, the transposed and rounded weights and the bias rows), four kernel regions (linear,
aggregate, linear, aggregate) and one last host operation (the slice that drops the padding rows).

The core's unscoped buffers are followed through the eight segments as a fold `W0 … W8` from the launch
memory: a host stretch rewrites the buffers its operations write, a region leaves each of its windows' arrays
at what its write-backs make of it and every other buffer as it found it. Each region's proof data is taken
at the contents the region is entered with. The thread state between two segments is "every unscoped buffer
whole at the boundary's contents, the generator register at some state, nothing owed"; the regions whose
body carries an accumulator enter and leave their own invariant through the class invariant.

The result `run` reads every unscoped buffer of the final memory at `W8`; `frame` reads the six argument
arrays back through the fold to the launch memory. Everything holds for every float model `F`. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the nine segment boundaries -/

/-- Core `c`'s buffers at launch. -/
abbrev W0 : Dev nD → Valuation τ sig (Elt F) := fun c b => (s₀ m ρ).mem ((c : Dev nD), b)
/-- After the first host stretch: the source and destination rows of the edge list, the adjacency counts
    scattered into a zero matrix and rounded. -/
abbrev W1 : Dev nD → Valuation τ sig (Elt F) := fun c => StableHlo.after hostOps0 (W0 m ρ c)
/-- After the second: the features padded with zero rows. -/
abbrev W2 : Dev nD → Valuation τ sig (Elt F) := fun c => StableHlo.after hostOps0_1 (W1 m ρ c)
/-- After the third (region 0's entry): the padded features rounded, both weight matrices transposed and
    rounded, both biases as rows. -/
abbrev W3 : Dev nD → Valuation τ sig (Elt F) := fun c => StableHlo.after hostOps0_2 (W2 m ρ c)
/-- The same read at the TensorCore's references (what region 0's proof data take). -/
abbrev V3 : (c : Dev nD) → (b : Ref sig .tc) → Buf (Elt F) ((c : Thread nD τ).loc b) := fun c b => W3 m ρ c b

/-- At region 0's exit: each of its windows' arrays at what the pipeline leaves there (an input as entered, an
    output with its write-backs folded in), every other buffer as entered. Region 1's entry. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m ρ c b

/-- At region 1's exit: each of its windows' arrays at what the pipeline leaves there (an input as entered, an
    output with its write-backs folded in), every other buffer as entered. Region 2's entry. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- The same read at the TensorCore's references. -/
abbrev V5 : (c : Dev nD) → (b : Ref sig .tc) → Buf (Elt F) ((c : Thread nD τ).loc b) := fun c b => W5 m ρ c b

/-- At region 2's exit: each of its windows' arrays at what the pipeline leaves there (an input as entered, an
    output with its write-backs folded in), every other buffer as entered. Region 3's entry. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b

/-- At region 3's exit: each of its windows' arrays at what the pipeline leaves there (an input as entered, an
    output with its write-backs folded in), every other buffer as entered. What the last host operation reads. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references. -/
abbrev V7 : (c : Dev nD) → (b : Ref sig .tc) → Buf (Elt F) ((c : Thread nD τ).loc b) := fun c b => W7 m ρ c b

/-- After the last host operation (the slice that drops the padding rows): what @main returns from. -/
abbrev W8 : Dev nD → Valuation τ sig (Elt F) := fun c => StableHlo.after hostOps4 (W7 m ρ c)

/-! ## The arguments end as launched

No host operation writes an argument and no region has one among its windows' arrays, so the fold at an
argument's buffer walks back to the launch memory. -/

/-- A buffer that no host stretch writes and that is no window's array of any region holds at the end what it
    held at launch. -/
theorem W8_of_untouched (c : Dev nD) (r : Ref sig .tc)
    (h0 : r ∉ hostOps0_W) (h1 : r ∉ hostOps0_1_W) (h2 : r ∉ hostOps0_2_W) (h4 : r ∉ hostOps4_W)
    (hr0 : ∀ w, Pipeline.arrRef spec0 w ≠ r) (hr1 : ∀ w, Pipeline.arrRef spec1 w ≠ r)
    (hr2 : ∀ w, Pipeline.arrRef spec2 w ≠ r) (hr3 : ∀ w, Pipeline.arrRef spec3 w ≠ r) :
    W8 m ρ c (Proc.devRef .tc r) = m ((c : Thread nD τ).loc r) :=
  calc W8 m ρ c (Proc.devRef .tc r)
    _ = W7 m ρ c (Proc.devRef .tc r) := StableHlo.after_of_writes_sub hostOps4 _ hostOps4_writes h4
    _ = W6 m ρ c (Proc.devRef .tc r) := W7_of_ne m ρ c r hr3
    _ = W5 m ρ c (Proc.devRef .tc r) := W6_of_ne m ρ c r hr2
    _ = W4 m ρ c (Proc.devRef .tc r) := W5_of_ne m ρ c r hr1
    _ = W3 m ρ c (Proc.devRef .tc r) := W4_of_ne m ρ c r hr0
    _ = W2 m ρ c (Proc.devRef .tc r) := StableHlo.after_of_writes_sub hostOps0_2 _ hostOps0_2_writes h2
    _ = W1 m ρ c (Proc.devRef .tc r) := StableHlo.after_of_writes_sub hostOps0_1 _ hostOps0_1_writes h1
    _ = W0 m ρ c (Proc.devRef .tc r) := StableHlo.after_of_writes_sub hostOps0 _ hostOps0_writes h0
    _ = m ((c : Thread nD τ).loc r) := rfl

theorem W8_main_arg0 (c : Dev nD) : W8 m ρ c (Proc.devRef .tc main_arg0) = m ((c : Thread nD τ).loc main_arg0) :=
  W8_of_untouched m ρ c main_arg0 (by decide) (by decide) (by decide) (by decide) (by decide) (by decide) (by decide) (by decide)
theorem W8_main_arg1 (c : Dev nD) : W8 m ρ c (Proc.devRef .tc main_arg1) = m ((c : Thread nD τ).loc main_arg1) :=
  W8_of_untouched m ρ c main_arg1 (by decide) (by decide) (by decide) (by decide) (by decide) (by decide) (by decide) (by decide)
theorem W8_main_arg2 (c : Dev nD) : W8 m ρ c (Proc.devRef .tc main_arg2) = m ((c : Thread nD τ).loc main_arg2) :=
  W8_of_untouched m ρ c main_arg2 (by decide) (by decide) (by decide) (by decide) (by decide) (by decide) (by decide) (by decide)
theorem W8_main_arg3 (c : Dev nD) : W8 m ρ c (Proc.devRef .tc main_arg3) = m ((c : Thread nD τ).loc main_arg3) :=
  W8_of_untouched m ρ c main_arg3 (by decide) (by decide) (by decide) (by decide) (by decide) (by decide) (by decide) (by decide)
theorem W8_main_arg4 (c : Dev nD) : W8 m ρ c (Proc.devRef .tc main_arg4) = m ((c : Thread nD τ).loc main_arg4) :=
  W8_of_untouched m ρ c main_arg4 (by decide) (by decide) (by decide) (by decide) (by decide) (by decide) (by decide) (by decide)
theorem W8_main_arg5 (c : Dev nD) : W8 m ρ c (Proc.devRef .tc main_arg5) = m ((c : Thread nD τ).loc main_arg5) :=
  W8_of_untouched m ρ c main_arg5 (by decide) (by decide) (by decide) (by decide) (by decide) (by decide) (by decide) (by decide)

/-! ## The proof data family and the thread state -/

/-- Every pipeline's proof data, each at its region's entry contents: a literal `match`, so that the pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
  | ⟨2, _⟩ => fun c => dat2 (V5 m ρ) c
  | ⟨3, _⟩ => fun c => dat3 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- The core owing nothing, whatever pairs its waits have recorded. -/
abbrev owesNone (c : Dev nD) : sProp 𝕄 := iprop(∃ W, owes (c : Thread nD τ) (0 : CellTallies nD τ sig Unit) W)
/-- What rides beside the buffers through every segment: the core's generator register at some state and the core
    owing nothing. -/
abbrev R (c : Dev nD) : sProp 𝕄 := iprop((∃ r, prngReg c r) ∗ owesNone c)
/-- The thread state at a boundary: every unscoped buffer whole at the boundary's contents, beside `R`. -/
abbrev T (W : Dev nD → Valuation τ sig (Elt F)) (c : Dev nD) : sProp 𝕄 :=
  iprop(StableHlo.held (c : Thread nD τ) (Pipeline.ucRefs τ sig) (W c) ∗ R c)
/-- A host stretch as a segment over the unscoped references from the contents `W`, `R` riding along: it is
    entered from `T W` and left at `T` of the contents after its operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's `owes`: every unscoped buffer at `W8`, the generator register at
    some state. -/
abbrev Tₙ (c : Dev nD) : sProp 𝕄 := iprop(StableHlo.held (c : Thread nD τ) (Pipeline.ucRefs τ sig) (W8 m ρ c) ∗ ∃ r, prngReg c r)

/-! ## The four entailments of a region, once for all four

Each region's record asks for four entailments around its thread states. Their separation-logic content is
the same for every region of this program, so it is stated once over abstract propositions; a region supplies
only how its arrays split out of the unscoped buffers and join them again. -/

/-- ENTRY. The buffers `H` split into the arrays `A` and the rest `Z`; there is no prefetched table (`Pf` holds
    of nothing); the core's `owes` is the proof data's (`Ow`); the register `P` is handed on; the own semaphores
    and the level facts (`S`, `Lv`) are not needed. -/
theorem enter {H A Z P O Ow Pf S Lv : sProp 𝕄} (hsplit : H ⊢ iprop(A ∗ Z)) (hpf : (BI.emp : sProp 𝕄) ⊢ Pf) (how : O ⊢ Ow) :
    iprop((H ∗ P ∗ O) ∗ S ∗ Lv) ⊢ |={Set.univ}=> iprop(A ∗ Pf ∗ Ow ∗ P ∗ Z) := by
  iintro ⟨⟨Hh, Hp, HO⟩, -, -⟩
  ihave Hs := hsplit $$ Hh
  icases Hs with ⟨Ha, Hz⟩
  imodintro
  isplitl [Ha]; · iexact Ha
  isplitr; · iapply hpf; iempintro
  isplitl [HO]; · iapply how; iexact HO
  isplitl [Hp]; · iexact Hp
  iexact Hz

/-- EXIT. The arrays at their final contents and the rest join into the buffers at the exit contents `H'`; the
    proof data's `owes` at the last point is the core owing nothing. -/
theorem leave {H' A Z P O Ow : sProp 𝕄} (hjoin : iprop(A ∗ Z) ⊢ H') (how : Ow ⊢ O) :
    iprop(A ∗ Ow ∗ P ∗ Z) ⊢ |={Set.univ}=> iprop(H' ∗ P ∗ O) := by
  iintro ⟨Ha, HO, Hp, Hz⟩
  imodintro
  isplitl [Ha Hz]
  · iapply hjoin; isplitl [Ha]; · iexact Ha
    iexact Hz
  isplitl [Hp]; · iexact Hp
  iapply how; iexact HO

/-- The class invariant from what a region's `hin` is handed: the generator register, the (absent) tables, the
    scoped buffers no window stages. -/
theorem ΦA_in {gr W : Nat} (win : Fin W → Pipeline.WinSpec sig gr) (c : Dev nD) (Pf : sProp 𝕄) :
    iprop((∃ r, prngReg c r) ∗ Pf ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hp, -, Hr⟩
  isplitl [Hr]; · iexact Hr
  iexact Hp

/-- The class invariant gives back what a region's `hout` owes: the generator register, the own semaphores (there
    are none) and those scoped buffers. -/
theorem ΦA_out {gr W : Nat} (win : Fin W → Pipeline.WinSpec sig gr) (c : Dev nD) :
    (Pipeline.ΦA win c : sProp 𝕄)
      ⊢ iprop((∃ r, prngReg c r) ∗ Pipeline.ownSems0 (fun k : PEmpty => k.elim) c
          ∗ Pipeline.scopedRest (Ix := Unit) (Name := ℕ) (U := UR sig nD τ) (Lvl := ℕ) (Val := Elt F) win c) := by
  rw [Pipeline.ownSems0_none]; unfold Pipeline.ΦA
  iintro ⟨Hr, Hp⟩
  isplitl [Hp]; · iexact Hp
  isplitr; · iempintro
  iexact Hr

/-- The core owing nothing is the proof data's `owes` at a point where the data owes nothing and bounds no pair. -/
theorem owesAt_in {cfg : Cfg sig Λ₀} {c : Dev nD} (dat : Dat τ (Elt F) Unit ℕ (UR sig nD τ) ℕ cfg c) (t : Fin (cfg.N + 1))
    (h0 : dat.owed t = 0) (hrec : dat.recorded t = Set.univ) : owesNone c ⊢ (dat.owesAt () t : sProp 𝕄) := by
  unfold Dat.owesAt Pipeline.owesWithin Dat.bound
  rw [h0, hrec]
  iintro ⟨%W, HO⟩
  iexists W
  isplitr; · ipureintro; exact fun _ _ => Or.inl trivial
  iexact HO

/-- and back. -/
theorem owesAt_out {cfg : Cfg sig Λ₀} {c : Dev nD} (dat : Dat τ (Elt F) Unit ℕ (UR sig nD τ) ℕ cfg c) (t : Fin (cfg.N + 1))
    (h0 : dat.owed t = 0) : (dat.owesAt () t : sProp 𝕄) ⊢ owesNone c := by
  unfold Dat.owesAt Pipeline.owesWithin
  rw [h0]
  iintro ⟨%W, -, HO⟩
  iexists W
  iexact HO

/-- The last host operation leaves the last thread state beside the core owing nothing. -/
theorem T_last (c : Dev nD) : T (W8 m ρ) c ⊢ iprop(Tₙ m ρ c ∗ owesNone c) := by
  iintro ⟨Hh, Hp, HO⟩
  isplitl [Hh Hp]
  · isplitl [Hh]; · iexact Hh
    iexact Hp
  iexact HO

/-! ## The regions as segments

A region is entered from every unscoped buffer at its entry contents and left at its exit contents. At the
entry its windows' arrays are split out of the unscoped buffers at the contents its proof data name, the rest
bypasses it; at the exit the arrays, at what the write-backs left, join the rest again at the next boundary's
contents. The generator register goes into the invariant and comes back; nothing is owed; the kernels have no
semaphore of their own. -/

-- a library lemma stated over the pinned configuration unifies with the printed one only when unification may unfold
-- plain definitions in a metavariable's type
set_option backward.isDefEq.respectTransparency.types false in
/-- REGION 0 (the first linear layer): its invariant is the class's at every point. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre := T (W3 m ρ)
  post := T (W4 m ρ)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    exact enter hsplit
      (by unfold Pipeline.prefHeld; rw [show (Finset.univ : Finset (Fin 0)) = ∅ from rfl, BI.bigSep_empty])
      (owesAt_in (pdats m ρ 0 c) 0 rfl rfl)
  hin c := ΦA_in spec0 c _
  hout c := ΦA_out spec0 c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (fun w => (W4_arr m ρ c w).symm)
      (fun b hb => W4_of_ne m ρ c b fun w e => hb (Finset.mem_image.mpr ⟨w, Finset.mem_univ _, e⟩))
    rw [Pipeline.unscopedBufs_held] at hjoin
    exact leave hjoin (owesAt_out (pdats m ρ 0 c) (Fin.last _) rfl)

-- a library lemma stated over the pinned configuration unifies with the printed one only when unification may unfold
-- plain definitions in a metavariable's type
set_option backward.isDefEq.respectTransparency.types false in
/-- REGION 1 (the first aggregation): its invariant carries the accumulator from point to point; it is entered
    from the class invariant (the accumulator at anything) and yields it back after the last point (the accumulator
    forgotten). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre := T (W4 m ρ)
  post := T (W5 m ρ)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    have hsplit := Pipeline.arrays_of_unscopedBufs (p := 1) (pcfgs (F := F)) adm (pdats m ρ) launch1.win launch1.arr_whole c
      ((pdats m ρ 1 c).share_full fun _ => rfl) (V4 m ρ c) (A_eq1 (V4 m ρ) c)
    rw [Pipeline.unscopedBufs_held] at hsplit
    exact enter hsplit
      (by unfold Pipeline.prefHeld; rw [show (Finset.univ : Finset (Fin 0)) = ∅ from rfl, BI.bigSep_empty])
      (owesAt_in (pdats m ρ 1 c) 0 rfl rfl)
  hin c := (ΦA_in spec1 c _).trans (hin1 (V4 m ρ) c)
  hout c := (hout1 (V4 m ρ) c).trans (ΦA_out spec1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (fun w => (W5_arr m ρ c w).symm)
      (fun b hb => W5_of_ne m ρ c b fun w e => hb (Finset.mem_image.mpr ⟨w, Finset.mem_univ _, e⟩))
    rw [Pipeline.unscopedBufs_held] at hjoin
    exact leave hjoin (owesAt_out (pdats m ρ 1 c) (Fin.last _) rfl)

-- a library lemma stated over the pinned configuration unifies with the printed one only when unification may unfold
-- plain definitions in a metavariable's type
set_option backward.isDefEq.respectTransparency.types false in
/-- REGION 2 (the second linear layer): as region 0. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre := T (W5 m ρ)
  post := T (W6 m ρ)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    exact enter hsplit
      (by unfold Pipeline.prefHeld; rw [show (Finset.univ : Finset (Fin 0)) = ∅ from rfl, BI.bigSep_empty])
      (owesAt_in (pdats m ρ 2 c) 0 rfl rfl)
  hin c := ΦA_in spec2 c _
  hout c := ΦA_out spec2 c
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (fun w => (W6_arr m ρ c w).symm)
      (fun b hb => W6_of_ne m ρ c b fun w e => hb (Finset.mem_image.mpr ⟨w, Finset.mem_univ _, e⟩))
    rw [Pipeline.unscopedBufs_held] at hjoin
    exact leave hjoin (owesAt_out (pdats m ρ 2 c) (Fin.last _) rfl)

-- a library lemma stated over the pinned configuration unifies with the printed one only when unification may unfold
-- plain definitions in a metavariable's type
set_option backward.isDefEq.respectTransparency.types false in
/-- REGION 3 (the second aggregation): as region 1. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre := T (W6 m ρ)
  post := T (W7 m ρ)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    have hsplit := Pipeline.arrays_of_unscopedBufs (p := 3) (pcfgs (F := F)) adm (pdats m ρ) launch3.win launch3.arr_whole c
      ((pdats m ρ 3 c).share_full fun _ => rfl) (V6 m ρ c) (A_eq3 (V6 m ρ) c)
    rw [Pipeline.unscopedBufs_held] at hsplit
    exact enter hsplit
      (by unfold Pipeline.prefHeld; rw [show (Finset.univ : Finset (Fin 0)) = ∅ from rfl, BI.bigSep_empty])
      (owesAt_in (pdats m ρ 3 c) 0 rfl rfl)
  hin c := (ΦA_in spec3 c _).trans (hin3 (V6 m ρ) c)
  hout c := (hout3 (V6 m ρ) c).trans (ΦA_out spec3 c)
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (fun w => (W7_arr m ρ c w).symm)
      (fun b hb => W7_of_ne m ρ c b fun w e => hb (Finset.mem_image.mpr ⟨w, Finset.mem_univ _, e⟩))
    rw [Pipeline.unscopedBufs_held] at hjoin
    exact leave hjoin (owesAt_out (pdats m ρ 3 c) (Fin.last _) rfl)

/-! ## @main as segments, and the launch -/

/-- @main's 8 segments in order: the three host stretches, the four regions, the last host operation. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .region (reg2 m ρ),
    .region (reg3 m ρ),
    .host (hseg hostOps4 hostOps4_sub hostOps4_fresh (W7 m ρ)) ]

/-- @main IS the run of the segments: it is the chain of its items, and the segments' run is the chain of their
    programs, which are those items. -/
theorem main_run (c : Dev nD) : main (F := F) c = Pipeline.Seg.run (segs m ρ) := by
  rw [main_chain c, Pipeline.Seg.run_eq_chain]; rfl

-- the launch theorem's implicit arguments are found by unifying its conclusion with this one, which takes unfolding
-- plain definitions in a metavariable's type
set_option backward.isDefEq.respectTransparency.types false in
/-- THE RUN. At the compiled mesh, from any memory with zero counters, every weakly fair execution of @main on the
    TensorCores terminates, nothing faulting, and in every final memory every unscoped buffer of every core holds the
    last boundary's contents `W8`: the launch over the eight segments, the last thread state read against the final
    state. -/
theorem run : θ_run defs (onTc (τ := τ) (main (F := F))) ⟨m, fun _ => 0, ρ⟩ (fun r => ∀ c : Dev nD,
      ∀ b ∈ Pipeline.ucRefs τ sig, r.2.mem ((c : Thread nD τ).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m ρ)) (Tₙ := Tₙ m ρ)
    (hch := ⟨fun _ => .rfl, fun _ => .rfl, fun _ => .rfl, fun _ => .rfl, fun _ => .rfl, fun _ => .rfl, fun _ => .rfl, fun _ => .rfl,
      fun c => T_last m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- THE FRAME: from any memory with zero counters, every weakly fair execution of @main terminates, nothing
    faulting, and every final memory has the six argument arrays as launched — `run`'s post at the arguments'
    buffers, each read back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c)⟩) (run m ρ)

end Cert.KernelIdeal.Hand

end
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.Val.Linear.lean ====
/-
  The two linear layers, read at an index (at the ideal arithmetic).

  Each of the two linear kernels computes, on a block of 2048 rows, `x · W + b`: the product of the block `[2048, 512]`
  with the weight matrix `[512, 512]` into a zero accumulator, plus the bias row `[1, 512]` repeated down the rows; the
  casts to the same shape change nothing and the narrowing to 16 bits is the identity on ideal values. So the payload at
  `(p, q)` is `(∑ k, x (p, k) * W (k, q)) + b (0, q)`.

  The grid has five points; point `t` reads rows `2048 t … 2048 t + 2047` of the input array, the whole weight matrix and
  the whole bias row, and writes back rows `2048 t … 2048 t + 2047` of the output array. The five row blocks tile the
  `10240` rows (row `r` belongs to point `r / 2048`), and what point `t` writes is block `t` of ONE function of the
  region-entry arrays, `affine X W B (i, q) = (∑ k, X (i, k) * W (k, q)) + B (0, q)`. Hence the output array after the
  region is `affine` of the three input arrays as the region found them. The same holds, with its own arrays, for the
  second linear layer.
-/
import proofs.«402366_j18588618457604_1_alg».proof.Proof.Gen.KernelIdeal.Skeleton
import proofs.«402366_j18588618457604_1_alg».proof.Proof.Gen.KernelIdeal.Launch
import proofs.«402366_j18588618457604_1_alg».proof.Proof.Gen.KernelIdeal.Points
import proofs.«402366_j18588618457604_1_alg».proof.Proof.KernelIdeal.Region0
import proofs.«402366_j18588618457604_1_alg».proof.Proof.KernelIdeal.Region2
import proofs.«402366_j18588618457604_1_alg».proof.Proof.LibRowOps
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

/-! ## The payloads at an index -/

/-- The dimension record of both layers' product is the plain `[2048, 512] × [512, 512]` one: contract the left
    operand's columns with the right operand's rows. -/
theorem dot_linear_plain : dot_S2048x512_S512x512_S2048x512_1_0_0_1_n_n = DotDims.plain 2048 512 512 := rfl

/-- The first layer's payload at `(p, q)`: row `p` of the block against column `q` of the weights, plus the bias at `q`. -/
theorem k0_pay1_apply (x : Vec Ideal S2048x512 .bf16) (w : Vec Ideal S512x512 .bf16) (b : Vec Ideal S1x512 .f32)
    (p : Fin 2048) (q : Fin 512) :
    Gen.k0_pay1 x w b (ix2 p q) = (∑ k : Fin 512, x (ix2 p k) * w (ix2 k q)) + b (ix2 0 q) := by
  unfold Gen.k0_pay1
  simp only [shapeCast_self, truncf_apply, addf_apply]
  rw [LibRowOps.matmul_plain_apply _ dot_linear_plain, broadcastTo_1b_ab_apply]

/-- The second layer's payload at `(p, q)`: the same sum and bias. -/
theorem k2_pay1_apply (x : Vec Ideal S2048x512 .bf16) (w : Vec Ideal S512x512 .bf16) (b : Vec Ideal S1x512 .f32)
    (p : Fin 2048) (q : Fin 512) :
    Gen.k2_pay1 x w b (ix2 p q) = (∑ k : Fin 512, x (ix2 p k) * w (ix2 k q)) + b (ix2 0 q) := by
  unfold Gen.k2_pay1
  simp only [shapeCast_self, truncf_apply, addf_apply]
  rw [LibRowOps.matmul_plain_apply _ dot_linear_plain, broadcastTo_1b_ab_apply]

/-! ## One affine layer on the whole array -/

/-- `affine X W B (i, q) = (∑ k, X (i, k) * W (k, q)) + B (0, q)`: every row of `X` against the weights, plus the bias row. -/
def affine (X : S10240x512.Idx → EReal) (W : S512x512.Idx → EReal) (B : S1x512.Idx → EReal) : S10240x512.Idx → EReal :=
  fun idx => (∑ k : Fin 512, X (ix2 (idx 0) k) * W (ix2 k (idx 1))) + B (ix2 0 (idx 1))

theorem affine_apply (X : S10240x512.Idx → EReal) (W : S512x512.Idx → EReal) (B : S1x512.Idx → EReal)
    (i : Fin 10240) (q : Fin 512) :
    affine X W B (ix2 i q) = (∑ k : Fin 512, X (ix2 i k) * W (ix2 k q)) + B (ix2 0 q) := rfl

variable (V : (c : Dev nD) → (b : Ref sig .tc) → Buf (Elt Ideal) ((c : Thread nD τ).loc b))

/-! ## The first layer's region: from blocks to the array -/

/-- Window `w`'s block at point `t`, read off its array as the region finds it. -/
abbrev rd0 (c : Dev nD) (w : Fin cfg0.W) (t : Fin cfg0.N) : ((cfg0.win w).xblock (cfg0.grid.coords t)).Idx → Elt Ideal (cfg0.win w).elt :=
  ((cfg0.win w).blk t).view.read (Elt Ideal) (V c (Pipeline.arrRef spec0 w))

/-- The index maps over the five points: the input rows and the output rows are at block `t`, the columns, the
    weights and the bias at block `0`. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `affine` of the three arrays: entry `(p, q)` of the block is row
    `2048 t + p` of the input against column `q` of the weights, plus the bias at `q`. Stated for any proof data whose
    output contents after the body are the payload of the three input blocks. -/
theorem flushed0_eq_of {c : Dev nD} (dat : Dat τ (Elt Ideal) Unit ℕ (UR sig nD τ) ℕ cfg0 c)
    (hafter : ∀ t : Fin cfg0.N, dat.after 3 t = Gen.k0_pay1 (rd0 V c 0 t) (rd0 V c 1 t) (rd0 V c 2 t)) (t : Fin cfg0.N) :
    dat.flushed 3 t = ((cfg0.win 3).blk t).view.read (Elt Ideal) (affine (V c main_v22) (V c main_v24) (V c main_v27)) := by
  show (cfg0.win 3).cut (grid0.coords t) (dat.after 3 t) = _
  rw [hafter]
  obtain ⟨e00, e01, e10, e11, e20, e21, e30, e31⟩ := idx_facts0 t
  have hN : cfg0.N = 5 := N_0
  have ht : t.val < 5 := hN ▸ t.isLt
  funext j
  obtain ⟨p, q, rfl⟩ : ∃ (p : Fin 2048) (q : Fin 512), j = ix2 p q := ⟨j 0, j 1, eq_ix2 j⟩
  show Gen.k0_pay1 (rd0 V c 0 t) (rd0 V c 1 t) (rd0 V c 2 t) (ix2 p q)
      = affine (V c main_v22) (V c main_v24) (V c main_v27) (((cfg0.win 3).blk t).view.emb (ix2 p q))
  have hp : p.val < 2048 := p.isLt
  have he : ((cfg0.win 3).blk t).view.emb (ix2 p q) = ix2 (⟨t.val * 2048 + p.val, by omega⟩ : Fin 10240) q := by
    funext a; apply Fin.ext
    match a with
    | ⟨0, _⟩ => show win0_3.index t (0 : Fin 2) * 2048 + 1 * p.val = t.val * 2048 + p.val; rw [e30]; omega
    | ⟨1, _⟩ => show win0_3.index t (1 : Fin 2) * 512 + 1 * q.val = q.val; rw [e31]; omega
  rw [he, affine_apply]
  have hx : ∀ k : Fin 512, rd0 V c 0 t (ix2 p k) = V c main_v22 (ix2 (⟨t.val * 2048 + p.val, by omega⟩ : Fin 10240) k) := fun k => by
    show V c main_v22 (((cfg0.win 0).blk t).view.emb (ix2 p k)) = _
    refine congrArg _ (funext fun a => Fin.ext ?_)
    match a with
    | ⟨0, _⟩ => show win0_0.index t (0 : Fin 2) * 2048 + 1 * p.val = t.val * 2048 + p.val; rw [e00]; omega
    | ⟨1, _⟩ => show win0_0.index t (1 : Fin 2) * 512 + 1 * k.val = k.val; rw [e01]; omega
  have hw : ∀ k : Fin 512, rd0 V c 1 t (ix2 k q) = V c main_v24 (ix2 k q) := fun k => by
    show V c main_v24 (((cfg0.win 1).blk t).view.emb (ix2 k q)) = _
    refine congrArg _ (funext fun a => Fin.ext ?_)
    match a with
    | ⟨0, _⟩ => show win0_1.index t (0 : Fin 2) * 512 + 1 * k.val = k.val; rw [e10]; omega
    | ⟨1, _⟩ => show win0_1.index t (1 : Fin 2) * 512 + 1 * q.val = q.val; rw [e11]; omega
  have hb : rd0 V c 2 t (ix2 0 q) = V c main_v27 (ix2 0 q) := by
    show V c main_v27 (((cfg0.win 2).blk t).view.emb (ix2 0 q)) = _
    refine congrArg _ (funext fun a => Fin.ext ?_)
    match a with
    | ⟨0, _⟩ => show win0_2.index t (0 : Fin 2) * 1 + 1 * 0 = 0; rw [e20]
    | ⟨1, _⟩ => show win0_2.index t (1 : Fin 2) * 512 + 1 * q.val = q.val; rw [e21]; omega
  refine (k0_pay1_apply (rd0 V c 0 t) (rd0 V c 1 t) (rd0 V c 2 t) p q).trans ?_
  exact congrArg₂ (· + ·) (Finset.sum_congr rfl fun k _ => congrArg₂ (· * ·) (hx k) (hw k)) hb

/-- An index of the output array is in point `t`'s block iff each coordinate is in the block's range on its axis. -/
theorem mem_blk0 (t : Fin cfg0.N) (i : S10240x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v29).slice (win0_3.rect t)).set ↔ _
  rw [View.set_slice_whole, Rect.mem_set_unit]
  exact Iff.rfl

/-- Row `r` is written back by point `r / 2048`: the five row blocks tile the array. -/
theorem cover0 (i : S10240x512.Idx) : ∃ t : Fin cfg0.N, (cfg0.win 3).flush t = true ∧ i ∈ ((cfg0.win 3).blk t).view.set := by
  have hN : cfg0.N = 5 := N_0
  have h0 : (i 0).val < 10240 := (i 0).isLt
  have h1 : (i 1).val < 512 := (i 1).isLt
  obtain ⟨t, ht⟩ : ∃ t : Fin cfg0.N, t.val = (i 0).val / 2048 := ⟨⟨(i 0).val / 2048, by rw [hN]; omega⟩, rfl⟩
  obtain ⟨-, -, -, -, -, -, e30, e31⟩ := idx_facts0 t
  refine ⟨t, flush0_3 t, ?_⟩
  rw [mem_blk0]
  intro a
  match a with
  | ⟨0, _⟩ => show win0_3.index t (0 : Fin 2) * 2048 ≤ (i 0).val ∧ (i 0).val < win0_3.index t (0 : Fin 2) * 2048 + 2048; rw [e30, ht]; omega
  | ⟨1, _⟩ => show win0_3.index t (1 : Fin 2) * 512 ≤ (i 1).val ∧ (i 1).val < win0_3.index t (1 : Fin 2) * 512 + 512; rw [e31]; omega

/-- So the output array ends at `affine` of the three arrays, for any such proof data. -/
theorem arr0_eq_of {c : Dev nD} (dat : Dat τ (Elt Ideal) Unit ℕ (UR sig nD τ) ℕ cfg0 c)
    (hafter : ∀ t : Fin cfg0.N, dat.after 3 t = Gen.k0_pay1 (rd0 V c 0 t) (rd0 V c 1 t) (rd0 V c 2 t)) :
    dat.arrAt 3 cfg0.N = affine (V c main_v22) (V c main_v24) (V c main_v27) :=
  dat.arrAt_eq_of_cover 3 (affine (V c main_v22) (V c main_v24) (V c main_v27)) (fun t _ => flushed0_eq_of V dat hafter t) cover0

/-- THE FIRST LAYER'S OUTPUT ARRAY after its region, as one function of the region-entry arrays:
    `x · W₁ᵀ + b₁`, row by row. -/
theorem arr0_eq (c : Dev nD) :
    (Hand.dat0 V c).arrAt 3 cfg0.N = affine (V c main_v22) (V c main_v24) (V c main_v27) :=
  arr0_eq_of V (Hand.dat0 V c) fun t => by rw [Hand.after0_3, Hand.out0_3_eq]; rfl

/-- The same at an index (`affine_apply` spells the right side out as the sum plus the bias). -/
theorem arr0_apply (c : Dev nD) (i : Fin 10240) (q : Fin 512) :
    (Hand.dat0 V c).arrAt 3 cfg0.N (ix2 i q) = affine (V c main_v22) (V c main_v24) (V c main_v27) (ix2 i q) :=
  congrFun (arr0_eq V c) (ix2 i q)

/-! ## The second layer's region: from blocks to the array -/

/-- Window `w`'s block at point `t`, read off its array as the region finds it. -/
abbrev rd2 (c : Dev nD) (w : Fin cfg2.W) (t : Fin cfg2.N) : ((cfg2.win w).xblock (cfg2.grid.coords t)).Idx → Elt Ideal (cfg2.win w).elt :=
  ((cfg2.win w).blk t).view.read (Elt Ideal) (V c (Pipeline.arrRef spec2 w))

/-- The index maps over the five points: the input rows and the output rows are at block `t`, the columns, the
    weights and the bias at block `0`. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of `affine` of the three arrays, for any proof data whose output contents
    after the body are the payload of the three input blocks. -/
theorem flushed2_eq_of {c : Dev nD} (dat : Dat τ (Elt Ideal) Unit ℕ (UR sig nD τ) ℕ cfg2 c)
    (hafter : ∀ t : Fin cfg2.N, dat.after 3 t = Gen.k2_pay1 (rd2 V c 0 t) (rd2 V c 1 t) (rd2 V c 2 t)) (t : Fin cfg2.N) :
    dat.flushed 3 t = ((cfg2.win 3).blk t).view.read (Elt Ideal) (affine (V c main_v30) (V c main_v26) (V c main_v28)) := by
  show (cfg2.win 3).cut (grid2.coords t) (dat.after 3 t) = _
  rw [hafter]
  obtain ⟨e00, e01, e10, e11, e20, e21, e30, e31⟩ := idx_facts2 t
  have hN : cfg2.N = 5 := N_2
  have ht : t.val < 5 := hN ▸ t.isLt
  funext j
  obtain ⟨p, q, rfl⟩ : ∃ (p : Fin 2048) (q : Fin 512), j = ix2 p q := ⟨j 0, j 1, eq_ix2 j⟩
  show Gen.k2_pay1 (rd2 V c 0 t) (rd2 V c 1 t) (rd2 V c 2 t) (ix2 p q)
      = affine (V c main_v30) (V c main_v26) (V c main_v28) (((cfg2.win 3).blk t).view.emb (ix2 p q))
  have hp : p.val < 2048 := p.isLt
  have he : ((cfg2.win 3).blk t).view.emb (ix2 p q) = ix2 (⟨t.val * 2048 + p.val, by omega⟩ : Fin 10240) q := by
    funext a; apply Fin.ext
    match a with
    | ⟨0, _⟩ => show win2_3.index t (0 : Fin 2) * 2048 + 1 * p.val = t.val * 2048 + p.val; rw [e30]; omega
    | ⟨1, _⟩ => show win2_3.index t (1 : Fin 2) * 512 + 1 * q.val = q.val; rw [e31]; omega
  rw [he, affine_apply]
  have hx : ∀ k : Fin 512, rd2 V c 0 t (ix2 p k) = V c main_v30 (ix2 (⟨t.val * 2048 + p.val, by omega⟩ : Fin 10240) k) := fun k => by
    show V c main_v30 (((cfg2.win 0).blk t).view.emb (ix2 p k)) = _
    refine congrArg _ (funext fun a => Fin.ext ?_)
    match a with
    | ⟨0, _⟩ => show win2_0.index t (0 : Fin 2) * 2048 + 1 * p.val = t.val * 2048 + p.val; rw [e00]; omega
    | ⟨1, _⟩ => show win2_0.index t (1 : Fin 2) * 512 + 1 * k.val = k.val; rw [e01]; omega
  have hw : ∀ k : Fin 512, rd2 V c 1 t (ix2 k q) = V c main_v26 (ix2 k q) := fun k => by
    show V c main_v26 (((cfg2.win 1).blk t).view.emb (ix2 k q)) = _
    refine congrArg _ (funext fun a => Fin.ext ?_)
    match a with
    | ⟨0, _⟩ => show win2_1.index t (0 : Fin 2) * 512 + 1 * k.val = k.val; rw [e10]; omega
    | ⟨1, _⟩ => show win2_1.index t (1 : Fin 2) * 512 + 1 * q.val = q.val; rw [e11]; omega
  have hb : rd2 V c 2 t (ix2 0 q) = V c main_v28 (ix2 0 q) := by
    show V c main_v28 (((cfg2.win 2).blk t).view.emb (ix2 0 q)) = _
    refine congrArg _ (funext fun a => Fin.ext ?_)
    match a with
    | ⟨0, _⟩ => show win2_2.index t (0 : Fin 2) * 1 + 1 * 0 = 0; rw [e20]
    | ⟨1, _⟩ => show win2_2.index t (1 : Fin 2) * 512 + 1 * q.val = q.val; rw [e21]; omega
  refine (k2_pay1_apply (rd2 V c 0 t) (rd2 V c 1 t) (rd2 V c 2 t) p q).trans ?_
  exact congrArg₂ (· + ·) (Finset.sum_congr rfl fun k _ => congrArg₂ (· * ·) (hx k) (hw k)) hb

/-- An index of the output array is in point `t`'s block iff each coordinate is in the block's range on its axis. -/
theorem mem_blk2 (t : Fin cfg2.N) (i : S10240x512.Idx) :
    i ∈ ((cfg2.win 3).blk t).view.set ↔ ∀ a : Fin 2, win2_3.index t a * S2048x512.size a ≤ (i a).val ∧ (i a).val < win2_3.index t a * S2048x512.size a + S2048x512.size a := by
  show i ∈ ((View.whole main_v31).slice (win2_3.rect t)).set ↔ _
  rw [View.set_slice_whole, Rect.mem_set_unit]
  exact Iff.rfl

/-- Row `r` is written back by point `r / 2048`: the five row blocks tile the array. -/
theorem cover2 (i : S10240x512.Idx) : ∃ t : Fin cfg2.N, (cfg2.win 3).flush t = true ∧ i ∈ ((cfg2.win 3).blk t).view.set := by
  have hN : cfg2.N = 5 := N_2
  have h0 : (i 0).val < 10240 := (i 0).isLt
  have h1 : (i 1).val < 512 := (i 1).isLt
  obtain ⟨t, ht⟩ : ∃ t : Fin cfg2.N, t.val = (i 0).val / 2048 := ⟨⟨(i 0).val / 2048, by rw [hN]; omega⟩, rfl⟩
  obtain ⟨-, -, -, -, -, -, e30, e31⟩ := idx_facts2 t
  refine ⟨t, flush2_3 t, ?_⟩
  rw [mem_blk2]
  intro a
  match a with
  | ⟨0, _⟩ => show win2_3.index t (0 : Fin 2) * 2048 ≤ (i 0).val ∧ (i 0).val < win2_3.index t (0 : Fin 2) * 2048 + 2048; rw [e30, ht]; omega
  | ⟨1, _⟩ => show win2_3.index t (1 : Fin 2) * 512 ≤ (i 1).val ∧ (i 1).val < win2_3.index t (1 : Fin 2) * 512 + 512; rw [e31]; omega

/-- So the output array ends at `affine` of the three arrays, for any such proof data. -/
theorem arr2_eq_of {c : Dev nD} (dat : Dat τ (Elt Ideal) Unit ℕ (UR sig nD τ) ℕ cfg2 c)
    (hafter : ∀ t : Fin cfg2.N, dat.after 3 t = Gen.k2_pay1 (rd2 V c 0 t) (rd2 V c 1 t) (rd2 V c 2 t)) :
    dat.arrAt 3 cfg2.N = affine (V c main_v30) (V c main_v26) (V c main_v28) :=
  dat.arrAt_eq_of_cover 3 (affine (V c main_v30) (V c main_v26) (V c main_v28)) (fun t _ => flushed2_eq_of V dat hafter t) cover2

/-- THE SECOND LAYER'S OUTPUT ARRAY after its region, as one function of the region-entry arrays:
    `h · W₂ᵀ + b₂`, row by row. -/
theorem arr2_eq (c : Dev nD) :
    (Hand.dat2 V c).arrAt 3 cfg2.N = affine (V c main_v30) (V c main_v26) (V c main_v28) :=
  arr2_eq_of V (Hand.dat2 V c) fun t => by rw [Hand.after2_3, Hand.out2_3_eq]; rfl

/-- The same at an index (`affine_apply` spells the right side out as the sum plus the bias). -/
theorem arr2_apply (c : Dev nD) (i : Fin 10240) (q : Fin 512) :
    (Hand.dat2 V c).arrAt 3 cfg2.N (ix2 i q) = affine (V c main_v30) (V c main_v26) (V c main_v28) (ix2 i q) :=
  congrFun (arr2_eq V c) (ix2 i q)

end Cert.KernelIdeal.Val

end
-- ==== Proof.Val.Agg.lean ====
/-
  The two aggregation regions, read as values over the extended reals.

  Each aggregation multiplies the [10240, 10240] adjacency by a [10240, 512] feature array and clamps the result
  below at zero. It does so tile by tile: the grid is 10 row tiles by 5 column runs, point `t = 5 i + k`; at that
  point the body reads rows `1024 i …`, columns `2048 k …` of the adjacency and rows `2048 k …` of the features,
  and adds the product of the two blocks into a [1024, 512] scratch tile, which it zeroes first when `k = 0`; when
  `k = 4` it stores the clamped scratch into the output's block, which is then written back to rows `1024 i …`.

  First the body's three stored values at an index: the zero tile; the running tile plus the blocks' product, which
  at (p, q) is  s (p, q) + sum over k < 2048 of a (p, k) * h (k, q);  and the running tile clamped below at zero,
  max (s (p, q)) 0  (the change of format is the identity on extended reals). Then, by induction on the point, the
  scratch after point `5 i + k` at (p, q) is the sum of the blocks' products at the points `5 i … 5 i + k`; at
  `k = 4` the five runs of 2048 make the whole sum over the 10240 columns (only commutativity and associativity of
  the sum are used). Every row `r` is written back by point `5 (r / 1024) + 4`, so each output array ends as ONE
  function of the arrays its region finds:  (r, q) ↦ max (sum over j < 10240 of A (r, j) * H (j, q)) 0.
-/
import proofs.«402366_j18588618457604_1_alg».proof.Proof.KernelIdeal.Region1
import proofs.«402366_j18588618457604_1_alg».proof.Proof.KernelIdeal.Region3
import proofs.«402366_j18588618457604_1_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.ShloMosaic.Pipeline (Dat)
open Cert.KernelIdeal Cert.KernelIdeal.Gen Cert.KernelIdeal.Hand
open scoped BigOperators

/-! ## The aggregation as one function, and the sum over 10240 indices cut into five runs of 2048 -/

/-- Row `r` of `A` against column `q` of `H`, clamped below at zero: what an aggregation leaves at (r, q). -/
def aggRelu (A : Vec Ideal S10240x10240 .bf16) (H : Vec Ideal S10240x512 .bf16) : S10240x512.Idx → EReal :=
  fun idx => max (∑ j : Fin 10240, A (ix2 (idx 0) j) * H (ix2 j (idx 1))) 0

theorem aggRelu_apply (A : Vec Ideal S10240x10240 .bf16) (H : Vec Ideal S10240x512 .bf16) (r : Fin 10240) (q : Fin 512) :
    aggRelu A H (ix2 r q) = max (∑ j : Fin 10240, A (ix2 r j) * H (ix2 j q)) 0 := rfl

/-- A sum over `m * n` consecutive naturals is the sum over `m` runs of `n` (only commutativity and associativity). -/
theorem sum_runs {β : Type*} [AddCommMonoid β] (m n : ℕ) (f : ℕ → β) :
    ∑ j : Fin (m * n), f j.val = ∑ s ∈ Finset.range m, ∑ k : Fin n, f (n * s + k.val) := by
  rw [Finset.sum_range, ← Equiv.sum_comp finProdFinEquiv (fun j : Fin (m * n) => f j.val), Fintype.sum_prod_type]
  refine Finset.sum_congr rfl fun s _ => Finset.sum_congr rfl fun k _ => ?_
  rw [finProdFinEquiv_apply_val, Nat.add_comm]

/-- Five runs of 2048 products make the whole row-by-column sum. -/
theorem tiles_sum (A : Vec Ideal S10240x10240 .bf16) (H : Vec Ideal S10240x512 .bf16) (r : Fin 10240) (q : Fin 512) (T : ℕ → EReal)
    (hT : ∀ s (hs : s < 5), T s = ∑ k : Fin 2048, A (ix2 r ⟨2048 * s + k.val, by have := k.isLt; omega⟩) * H (ix2 ⟨2048 * s + k.val, by have := k.isLt; omega⟩ q)) :
    ∑ s ∈ Finset.range 5, T s = ∑ j : Fin 10240, A (ix2 r j) * H (ix2 j q) := by
  let f : ℕ → EReal := fun j => if h : j < 10240 then A (ix2 r ⟨j, h⟩) * H (ix2 ⟨j, h⟩ q) else 0
  have hf : ∀ j : Fin 10240, A (ix2 r j) * H (ix2 j q) = f j.val := fun j => by
    show _ = if h : j.val < 10240 then A (ix2 r ⟨j.val, h⟩) * H (ix2 ⟨j.val, h⟩ q) else 0
    rw [dif_pos j.isLt]
  refine Eq.trans ?_ (Eq.trans (sum_runs 5 2048 f).symm (Finset.sum_congr rfl fun j _ => (hf j).symm))
  refine Finset.sum_congr rfl fun s hs => ?_
  have hs5 : s < 5 := Finset.mem_range.mp hs
  rw [hT s hs5]
  refine Finset.sum_congr rfl fun k _ => ?_
  have hk : k.val < 2048 := k.isLt
  show _ = if h : 2048 * s + k.val < 10240 then A (ix2 r ⟨2048 * s + k.val, h⟩) * H (ix2 ⟨2048 * s + k.val, h⟩ q) else 0
  rw [dif_pos (by omega)]

/-! ## The stored values at an index -/

/-- The tiles' product record is the plain one: rows by columns, contracted over the 2048 shared indices. -/
theorem dot_tile_plain : dot_S1024x2048_S2048x512_S1024x512_1_0_0_1_n_n = DotDims.plain 1024 2048 512 := rfl

/-- The reset value is the zero tile. -/
theorem k1_pay1_apply (p : Fin 1024) (q : Fin 512) : k1_pay1 (F := Ideal) (ix2 p q) = 0 := by
  unfold k1_pay1
  rw [shapeCast_self]
  exact Ideal.ofBits_zero_f32

/-- One accumulation step at (p, q): the running value plus the tiles' product there. -/
theorem k1_pay2_apply (s : Vec Ideal S1024x512 .f32) (a : Vec Ideal S1024x2048 .bf16) (h : Vec Ideal S2048x512 .bf16)
    (p : Fin 1024) (q : Fin 512) :
    k1_pay2 s a h (ix2 p q) = s (ix2 p q) + ∑ k : Fin 2048, a (ix2 p k) * h (ix2 k q) := by
  unfold k1_pay2
  rw [shapeCast_self, shapeCast_self, shapeCast_self]
  exact congrArg (s (ix2 p q) + ·)
    (Cert.LibRowOps.matmul_plain_apply dot_S1024x2048_S2048x512_S1024x512_1_0_0_1_n_n dot_tile_plain none
      (a : FVec Ideal S1024x2048 .bf16) (h : FVec Ideal S2048x512 .bf16) p q)

/-- The value written back at (p, q): the running value clamped below at zero. -/
theorem k1_pay3_apply (s : Vec Ideal S1024x512 .f32) (p : Fin 1024) (q : Fin 512) :
    k1_pay3 s (ix2 p q) = max (s (ix2 p q)) 0 := by
  unfold k1_pay3
  show max (s (ix2 p q)) (Ideal.ofBits .f32 0x00000000#32) = _
  rw [Ideal.ofBits_zero_f32]

/-- The second aggregation's reset value is the zero tile. -/
theorem k3_pay1_apply (p : Fin 1024) (q : Fin 512) : k3_pay1 (F := Ideal) (ix2 p q) = 0 := by
  unfold k3_pay1
  rw [shapeCast_self]
  exact Ideal.ofBits_zero_f32

/-- Its accumulation step at (p, q). -/
theorem k3_pay2_apply (s : Vec Ideal S1024x512 .f32) (a : Vec Ideal S1024x2048 .bf16) (h : Vec Ideal S2048x512 .bf16)
    (p : Fin 1024) (q : Fin 512) :
    k3_pay2 s a h (ix2 p q) = s (ix2 p q) + ∑ k : Fin 2048, a (ix2 p k) * h (ix2 k q) := by
  unfold k3_pay2
  rw [shapeCast_self, shapeCast_self, shapeCast_self]
  exact congrArg (s (ix2 p q) + ·)
    (Cert.LibRowOps.matmul_plain_apply dot_S1024x2048_S2048x512_S1024x512_1_0_0_1_n_n dot_tile_plain none
      (a : FVec Ideal S1024x2048 .bf16) (h : FVec Ideal S2048x512 .bf16) p q)

/-- The value it writes back at (p, q). -/
theorem k3_pay3_apply (s : Vec Ideal S1024x512 .f32) (p : Fin 1024) (q : Fin 512) :
    k3_pay3 s (ix2 p q) = max (s (ix2 p q)) 0 := by
  unfold k3_pay3
  show max (s (ix2 p q)) (Ideal.ofBits .f32 0x00000000#32) = _
  rw [Ideal.ofBits_zero_f32]

variable (V : (c : Dev nD) → (b : Ref sig .tc) → Buf (Elt Ideal) ((c : Thread nD τ).loc b))

/-! ## Region 1: the blocks its windows read, and the tile its scratch holds after each point -/

/-- The printed index maps of region 1, decided over its 50 points: at point `t = 5 i + k` the left operand's
    block is (i, k), the right operand's (k, 0), the output's (i, 0). -/
theorem idx_facts1 : ∀ t : Fin cfg1.N,
    win1_0.index t (0 : Fin 2) = t.val / 5 ∧ win1_0.index t (1 : Fin 2) = t.val % 5
    ∧ win1_1.index t (0 : Fin 2) = t.val % 5 ∧ win1_1.index t (1 : Fin 2) = 0
    ∧ win1_2.index t (0 : Fin 2) = t.val / 5 ∧ win1_2.index t (1 : Fin 2) = 0 :=
  (by decide +kernel : ∀ t : Fin grid1.N, _)

/-- The left operand's block at point `n`: rows `1024 (n / 5) …`, columns `2048 (n % 5) …` of the adjacency. -/
abbrev ablk1 (c : Dev nD) (n : ℕ) (hn : n < cfg1.N) : Vec Ideal S1024x2048 .bf16 := iblk1 V c 0 ⟨n, hn⟩
/-- The right operand's block at point `n`: rows `2048 (n % 5) …` of the features. -/
abbrev hblk1 (c : Dev nD) (n : ℕ) (hn : n < cfg1.N) : Vec Ideal S2048x512 .bf16 := iblk1 V c 1 ⟨n, hn⟩
/-- The adjacency as region 1 finds it. -/
abbrev adj1 (c : Dev nD) : Vec Ideal S10240x10240 .bf16 := V c main_v20
/-- The features as region 1 finds them. -/
abbrev feat1 (c : Dev nD) : Vec Ideal S10240x512 .bf16 := V c main_v29

theorem ablk1_apply (c : Dev nD) (n : ℕ) (hn : n < cfg1.N) (p : Fin 1024) (k : Fin 2048) (r j : Fin 10240)
    (hr : r.val = 1024 * (n / 5) + p.val) (hj : j.val = 2048 * (n % 5) + k.val) :
    ablk1 V c n hn (ix2 p k) = adj1 V c (ix2 r j) := by
  obtain ⟨e0, e1, -⟩ := idx_facts1 ⟨n, hn⟩
  show iblk1 V c 0 ⟨n, hn⟩ (ix2 p k) = V c main_v20 (ix2 r j)
  unfold iblk1
  rw [View.read_apply]
  show V c main_v20 _ = V c main_v20 _
  congr 1
  funext a
  apply Fin.ext
  match a with
  | ⟨0, _⟩ => show win1_0.index ⟨n, hn⟩ (0 : Fin 2) * 1024 + 1 * p.val = r.val; rw [e0, hr]; show n / 5 * 1024 + 1 * p.val = _; omega
  | ⟨1, _⟩ => show win1_0.index ⟨n, hn⟩ (1 : Fin 2) * 2048 + 1 * k.val = j.val; rw [e1, hj]; show n % 5 * 2048 + 1 * k.val = _; omega

theorem hblk1_apply (c : Dev nD) (n : ℕ) (hn : n < cfg1.N) (k : Fin 2048) (q : Fin 512) (j : Fin 10240)
    (hj : j.val = 2048 * (n % 5) + k.val) :
    hblk1 V c n hn (ix2 k q) = feat1 V c (ix2 j q) := by
  obtain ⟨-, -, e2, e3, -⟩ := idx_facts1 ⟨n, hn⟩
  show iblk1 V c 1 ⟨n, hn⟩ (ix2 k q) = V c main_v29 (ix2 j q)
  unfold iblk1
  rw [View.read_apply]
  show V c main_v29 _ = V c main_v29 _
  congr 1
  funext a
  apply Fin.ext
  match a with
  | ⟨0, _⟩ => show win1_1.index ⟨n, hn⟩ (0 : Fin 2) * 2048 + 1 * k.val = j.val; rw [e2, hj]; show n % 5 * 2048 + 1 * k.val = _; omega
  | ⟨1, _⟩ => show win1_1.index ⟨n, hn⟩ (1 : Fin 2) * 512 + 1 * q.val = q.val; rw [e3]; omega

/-- The product of the two blocks point `n` reads, at (p, q); zero past the grid. -/
def term1 (c : Dev nD) (n : ℕ) (p : Fin 1024) (q : Fin 512) : EReal :=
  if h : n < cfg1.N then ∑ k : Fin 2048, ablk1 V c n h (ix2 p k) * hblk1 V c n h (ix2 k q) else 0

/-- THE SCRATCH AFTER POINT `n`, at (p, q): the products of the blocks read since the last reset, i.e. at the
    points `5 (n / 5) … n`, added up. By induction on the point. -/
theorem scratch1_apply (c : Dev nD) : ∀ (n : ℕ) (hn : n < cfg1.N) (p : Fin 1024) (q : Fin 512),
    (outsAt1 V c n hn).2 (ix2 p q) = ∑ s ∈ Finset.range (n % 5 + 1), term1 V c (5 * (n / 5) + s) p q
  | 0, hn, p, q => by
    rw [outsAt1_reset V c 0 hn rfl]
    refine (k1_pay2_apply (k1_pay1 (F := Ideal)) (ablk1 V c 0 hn) (hblk1 V c 0 hn) p q).trans ?_
    rw [k1_pay1_apply, zero_add]
    show _ = ∑ s ∈ Finset.range 1, term1 V c (5 * (0 / 5) + s) p q
    rw [Finset.sum_range_one]
    show _ = term1 V c 0 p q
    unfold term1
    rw [dif_pos hn]
  | n + 1, hn, p, q => by
    by_cases h0 : (n + 1) % 5 = 0
    · rw [outsAt1_reset V c (n + 1) hn h0]
      refine (k1_pay2_apply (k1_pay1 (F := Ideal)) (ablk1 V c (n + 1) hn) (hblk1 V c (n + 1) hn) p q).trans ?_
      rw [k1_pay1_apply, zero_add, h0, Finset.sum_range_one]
      have e : 5 * ((n + 1) / 5) + 0 = n + 1 := by omega
      rw [e]
      unfold term1
      rw [dif_pos hn]
    · rw [outsAt1_step V c n hn h0]
      refine (k1_pay2_apply ((outsAt1 V c n (Nat.lt_of_succ_lt hn)).2) (ablk1 V c (n + 1) hn) (hblk1 V c (n + 1) hn) p q).trans ?_
      rw [scratch1_apply c n (Nat.lt_of_succ_lt hn) p q]
      have e1 : (n + 1) % 5 = n % 5 + 1 := by omega
      have e2 : (n + 1) / 5 = n / 5 := by omega
      rw [e1, e2, Finset.sum_range_succ _ (n % 5 + 1)]
      congr 1
      have e3 : 5 * (n / 5) + (n % 5 + 1) = n + 1 := by omega
      rw [e3]
      unfold term1
      rw [dif_pos hn]

/-- What a flushing point leaves in the output's staging buffer, at (p, q): row `1024 (n / 5) + p` of the adjacency
    against column `q` of the features, all 10240 terms, clamped below at zero. -/
theorem out1_apply (c : Dev nD) (n : ℕ) (hn : n < cfg1.N) (h4 : n % 5 = 4) (p : Fin 1024) (q : Fin 512) (r : Fin 10240)
    (hr : r.val = 1024 * (n / 5) + p.val) :
    (outsAt1 V c n hn).1 (ix2 p q) = aggRelu (adj1 V c) (feat1 V c) (ix2 r q) := by
  have hN : cfg1.N = 50 := N_1
  rw [outsAt1_out V c n hn h4]
  refine (k1_pay3_apply ((outsAt1 V c n hn).2) p q).trans ?_
  rw [scratch1_apply V c n hn p q, h4]
  show max (∑ s ∈ Finset.range 5, term1 V c (5 * (n / 5) + s) p q) 0 = max (∑ j : Fin 10240, adj1 V c (ix2 r j) * feat1 V c (ix2 j q)) 0
  refine congrArg (max · 0) (tiles_sum (adj1 V c) (feat1 V c) r q _ fun s hs => ?_)
  have hs' : 5 * (n / 5) + s < cfg1.N := by omega
  unfold term1
  rw [dif_pos hs']
  refine Finset.sum_congr rfl fun k _ => ?_
  have hk : k.val < 2048 := k.isLt
  have d1 : (5 * (n / 5) + s) / 5 = n / 5 := by omega
  have d2 : (5 * (n / 5) + s) % 5 = s := by omega
  rw [ablk1_apply V c _ hs' p k r ⟨2048 * s + k.val, by omega⟩ (by rw [d1]; exact hr) (by rw [d2]),
    hblk1_apply V c _ hs' k q ⟨2048 * s + k.val, by omega⟩ (by rw [d2])]

/-! ## Region 1: from the flushed blocks to the array -/

/-- WHAT A FLUSHING POINT WRITES BACK is its block of the one whole-array function. -/
theorem flushed1_eq (c : Dev nD) (t : Fin cfg1.N) (hf : (cfg1.win 2).flush t = true) :
    (dat1 V c).flushed 2 t = ((cfg1.win 2).blk t).view.read (Elt Ideal) (aggRelu (adj1 V c) (feat1 V c)) := by
  have hN : cfg1.N = 50 := N_1
  have h4 : t.val % 5 = 4 := (flush1_2 t).mp hf
  obtain ⟨-, -, -, -, e4, e5⟩ := idx_facts1 t
  show (cfg1.win 2).cut (grid1.coords t) ((dat1 V c).after 2 t) = _
  rw [after1_2]
  funext y
  obtain ⟨p, q, rfl⟩ : ∃ (p : Fin 1024) (q : Fin 512), y = ix2 p q := ⟨y 0, y 1, eq_ix2 y⟩
  rw [View.read_apply]
  have ht : t.val < 50 := hN ▸ t.isLt
  have hemb : ((cfg1.win 2).blk t).view.emb (ix2 p q) = (ix2 (⟨1024 * (t.val / 5) + p.val, by omega⟩ : Fin 10240) q : S10240x512.Idx) := by
    funext a
    apply Fin.ext
    match a with
    | ⟨0, _⟩ => show win1_2.index t (0 : Fin 2) * 1024 + 1 * p.val = 1024 * (t.val / 5) + p.val; rw [e4]; omega
    | ⟨1, _⟩ => show win1_2.index t (1 : Fin 2) * 512 + 1 * q.val = q.val; rw [e5]; omega
  show (outsAt1 V c t.val t.isLt).1 (ix2 p q) = aggRelu (adj1 V c) (feat1 V c) (((cfg1.win 2).blk t).view.emb (ix2 p q))
  rw [hemb]
  exact out1_apply V c t.val t.isLt h4 p q _ rfl

/-- An index of the output array is in point `t`'s block iff each coordinate is in the block's range on its axis. -/
theorem mem_blk1 (t : Fin cfg1.N) (i : S10240x512.Idx) :
    i ∈ ((cfg1.win 2).blk t).view.set ↔ ∀ a : Fin 2, win1_2.index t a * S1024x512.size a ≤ (i a).val ∧ (i a).val < win1_2.index t a * S1024x512.size a + S1024x512.size a := by
  show i ∈ ((View.whole main_v30).slice (win1_2.rect t)).set ↔ _
  rw [View.set_slice_whole, Rect.mem_set_unit]
  exact Iff.rfl

/-- REGION 1'S OUTPUT ARRAY after the run, as one function of the arrays the region finds: row `r` of the adjacency
    against column `q` of the features, clamped below at zero. Row `r` is written back by point `5 (r / 1024) + 4`. -/
theorem arr1_eq (c : Dev nD) : (dat1 V c).arrAt 2 cfg1.N = aggRelu (V c main_v20) (V c main_v29) :=
  (dat1 V c).arrAt_eq_of_cover 2 (aggRelu (adj1 V c) (feat1 V c)) (flushed1_eq V c) fun i => by
    have hN : cfg1.N = 50 := N_1
    have h0 : (i 0).val < 10240 := idx2_lt0 i
    have h1 : (i 1).val < 512 := idx2_lt1 i
    let t : Fin cfg1.N := ⟨5 * ((i 0).val / 1024) + 4, by omega⟩
    have htv : t.val = 5 * ((i 0).val / 1024) + 4 := rfl
    obtain ⟨-, -, -, -, e4, e5⟩ := idx_facts1 t
    refine ⟨t, (flush1_2 t).mpr (by omega), ?_⟩
    rw [mem_blk1]
    intro a
    match a with
    | ⟨0, _⟩ => show win1_2.index t (0 : Fin 2) * 1024 ≤ (i 0).val ∧ (i 0).val < win1_2.index t (0 : Fin 2) * 1024 + 1024; rw [e4]; omega
    | ⟨1, _⟩ => show win1_2.index t (1 : Fin 2) * 512 ≤ (i 1).val ∧ (i 1).val < win1_2.index t (1 : Fin 2) * 512 + 512; rw [e5]; omega

/-! ## Region 3: the blocks its windows read, and the tile its scratch holds after each point -/

/-- The printed index maps of region 3, decided over its 50 points: at point `t = 5 i + k` the left operand's
    block is (i, k), the right operand's (k, 0), the output's (i, 0). -/
theorem idx_facts3 : ∀ t : Fin cfg3.N,
    win3_0.index t (0 : Fin 2) = t.val / 5 ∧ win3_0.index t (1 : Fin 2) = t.val % 5
    ∧ win3_1.index t (0 : Fin 2) = t.val % 5 ∧ win3_1.index t (1 : Fin 2) = 0
    ∧ win3_2.index t (0 : Fin 2) = t.val / 5 ∧ win3_2.index t (1 : Fin 2) = 0 :=
  (by decide +kernel : ∀ t : Fin grid3.N, _)

/-- The left operand's block at point `n`: rows `1024 (n / 5) …`, columns `2048 (n % 5) …` of the adjacency. -/
abbrev ablk3 (c : Dev nD) (n : ℕ) (hn : n < cfg3.N) : Vec Ideal S1024x2048 .bf16 := iblk3 V c 0 ⟨n, hn⟩
/-- The right operand's block at point `n`: rows `2048 (n % 5) …` of the features. -/
abbrev hblk3 (c : Dev nD) (n : ℕ) (hn : n < cfg3.N) : Vec Ideal S2048x512 .bf16 := iblk3 V c 1 ⟨n, hn⟩
/-- The adjacency as region 3 finds it. -/
abbrev adj3 (c : Dev nD) : Vec Ideal S10240x10240 .bf16 := V c main_v20
/-- The features as region 3 finds them. -/
abbrev feat3 (c : Dev nD) : Vec Ideal S10240x512 .bf16 := V c main_v31

theorem ablk3_apply (c : Dev nD) (n : ℕ) (hn : n < cfg3.N) (p : Fin 1024) (k : Fin 2048) (r j : Fin 10240)
    (hr : r.val = 1024 * (n / 5) + p.val) (hj : j.val = 2048 * (n % 5) + k.val) :
    ablk3 V c n hn (ix2 p k) = adj3 V c (ix2 r j) := by
  obtain ⟨e0, e1, -⟩ := idx_facts3 ⟨n, hn⟩
  show iblk3 V c 0 ⟨n, hn⟩ (ix2 p k) = V c main_v20 (ix2 r j)
  unfold iblk3
  rw [View.read_apply]
  show V c main_v20 _ = V c main_v20 _
  congr 1
  funext a
  apply Fin.ext
  match a with
  | ⟨0, _⟩ => show win3_0.index ⟨n, hn⟩ (0 : Fin 2) * 1024 + 1 * p.val = r.val; rw [e0, hr]; show n / 5 * 1024 + 1 * p.val = _; omega
  | ⟨1, _⟩ => show win3_0.index ⟨n, hn⟩ (1 : Fin 2) * 2048 + 1 * k.val = j.val; rw [e1, hj]; show n % 5 * 2048 + 1 * k.val = _; omega

theorem hblk3_apply (c : Dev nD) (n : ℕ) (hn : n < cfg3.N) (k : Fin 2048) (q : Fin 512) (j : Fin 10240)
    (hj : j.val = 2048 * (n % 5) + k.val) :
    hblk3 V c n hn (ix2 k q) = feat3 V c (ix2 j q) := by
  obtain ⟨-, -, e2, e3, -⟩ := idx_facts3 ⟨n, hn⟩
  show iblk3 V c 1 ⟨n, hn⟩ (ix2 k q) = V c main_v31 (ix2 j q)
  unfold iblk3
  rw [View.read_apply]
  show V c main_v31 _ = V c main_v31 _
  congr 1
  funext a
  apply Fin.ext
  match a with
  | ⟨0, _⟩ => show win3_1.index ⟨n, hn⟩ (0 : Fin 2) * 2048 + 1 * k.val = j.val; rw [e2, hj]; show n % 5 * 2048 + 1 * k.val = _; omega
  | ⟨1, _⟩ => show win3_1.index ⟨n, hn⟩ (1 : Fin 2) * 512 + 1 * q.val = q.val; rw [e3]; omega

/-- The product of the two blocks point `n` reads, at (p, q); zero past the grid. -/
def term3 (c : Dev nD) (n : ℕ) (p : Fin 1024) (q : Fin 512) : EReal :=
  if h : n < cfg3.N then ∑ k : Fin 2048, ablk3 V c n h (ix2 p k) * hblk3 V c n h (ix2 k q) else 0

/-- THE SCRATCH AFTER POINT `n`, at (p, q): the products of the blocks read since the last reset, i.e. at the
    points `5 (n / 5) … n`, added up. By induction on the point. -/
theorem scratch3_apply (c : Dev nD) : ∀ (n : ℕ) (hn : n < cfg3.N) (p : Fin 1024) (q : Fin 512),
    (outsAt3 V c n hn).2 (ix2 p q) = ∑ s ∈ Finset.range (n % 5 + 1), term3 V c (5 * (n / 5) + s) p q
  | 0, hn, p, q => by
    rw [outsAt3_reset V c 0 hn rfl]
    refine (k3_pay2_apply (k3_pay1 (F := Ideal)) (ablk3 V c 0 hn) (hblk3 V c 0 hn) p q).trans ?_
    rw [k3_pay1_apply, zero_add]
    show _ = ∑ s ∈ Finset.range 1, term3 V c (5 * (0 / 5) + s) p q
    rw [Finset.sum_range_one]
    show _ = term3 V c 0 p q
    unfold term3
    rw [dif_pos hn]
  | n + 1, hn, p, q => by
    by_cases h0 : (n + 1) % 5 = 0
    · rw [outsAt3_reset V c (n + 1) hn h0]
      refine (k3_pay2_apply (k3_pay1 (F := Ideal)) (ablk3 V c (n + 1) hn) (hblk3 V c (n + 1) hn) p q).trans ?_
      rw [k3_pay1_apply, zero_add, h0, Finset.sum_range_one]
      have e : 5 * ((n + 1) / 5) + 0 = n + 1 := by omega
      rw [e]
      unfold term3
      rw [dif_pos hn]
    · rw [outsAt3_step V c n hn h0]
      refine (k3_pay2_apply ((outsAt3 V c n (Nat.lt_of_succ_lt hn)).2) (ablk3 V c (n + 1) hn) (hblk3 V c (n + 1) hn) p q).trans ?_
      rw [scratch3_apply c n (Nat.lt_of_succ_lt hn) p q]
      have e1 : (n + 1) % 5 = n % 5 + 1 := by omega
      have e2 : (n + 1) / 5 = n / 5 := by omega
      rw [e1, e2, Finset.sum_range_succ _ (n % 5 + 1)]
      congr 1
      have e3 : 5 * (n / 5) + (n % 5 + 1) = n + 1 := by omega
      rw [e3]
      unfold term3
      rw [dif_pos hn]

/-- What a flushing point leaves in the output's staging buffer, at (p, q): row `1024 (n / 5) + p` of the adjacency
    against column `q` of the features, all 10240 terms, clamped below at zero. -/
theorem out3_apply (c : Dev nD) (n : ℕ) (hn : n < cfg3.N) (h4 : n % 5 = 4) (p : Fin 1024) (q : Fin 512) (r : Fin 10240)
    (hr : r.val = 1024 * (n / 5) + p.val) :
    (outsAt3 V c n hn).1 (ix2 p q) = aggRelu (adj3 V c) (feat3 V c) (ix2 r q) := by
  have hN : cfg3.N = 50 := N_3
  rw [outsAt3_out V c n hn h4]
  refine (k3_pay3_apply ((outsAt3 V c n hn).2) p q).trans ?_
  rw [scratch3_apply V c n hn p q, h4]
  show max (∑ s ∈ Finset.range 5, term3 V c (5 * (n / 5) + s) p q) 0 = max (∑ j : Fin 10240, adj3 V c (ix2 r j) * feat3 V c (ix2 j q)) 0
  refine congrArg (max · 0) (tiles_sum (adj3 V c) (feat3 V c) r q _ fun s hs => ?_)
  have hs' : 5 * (n / 5) + s < cfg3.N := by omega
  unfold term3
  rw [dif_pos hs']
  refine Finset.sum_congr rfl fun k _ => ?_
  have hk : k.val < 2048 := k.isLt
  have d1 : (5 * (n / 5) + s) / 5 = n / 5 := by omega
  have d2 : (5 * (n / 5) + s) % 5 = s := by omega
  rw [ablk3_apply V c _ hs' p k r ⟨2048 * s + k.val, by omega⟩ (by rw [d1]; exact hr) (by rw [d2]),
    hblk3_apply V c _ hs' k q ⟨2048 * s + k.val, by omega⟩ (by rw [d2])]

/-! ## Region 3: from the flushed blocks to the array -/

/-- WHAT A FLUSHING POINT WRITES BACK is its block of the one whole-array function. -/
theorem flushed3_eq (c : Dev nD) (t : Fin cfg3.N) (hf : (cfg3.win 2).flush t = true) :
    (dat3 V c).flushed 2 t = ((cfg3.win 2).blk t).view.read (Elt Ideal) (aggRelu (adj3 V c) (feat3 V c)) := by
  have hN : cfg3.N = 50 := N_3
  have h4 : t.val % 5 = 4 := (flush3_2 t).mp hf
  obtain ⟨-, -, -, -, e4, e5⟩ := idx_facts3 t
  show (cfg3.win 2).cut (grid3.coords t) ((dat3 V c).after 2 t) = _
  rw [after3_2]
  funext y
  obtain ⟨p, q, rfl⟩ : ∃ (p : Fin 1024) (q : Fin 512), y = ix2 p q := ⟨y 0, y 1, eq_ix2 y⟩
  rw [View.read_apply]
  have ht : t.val < 50 := hN ▸ t.isLt
  have hemb : ((cfg3.win 2).blk t).view.emb (ix2 p q) = (ix2 (⟨1024 * (t.val / 5) + p.val, by omega⟩ : Fin 10240) q : S10240x512.Idx) := by
    funext a
    apply Fin.ext
    match a with
    | ⟨0, _⟩ => show win3_2.index t (0 : Fin 2) * 1024 + 1 * p.val = 1024 * (t.val / 5) + p.val; rw [e4]; omega
    | ⟨1, _⟩ => show win3_2.index t (1 : Fin 2) * 512 + 1 * q.val = q.val; rw [e5]; omega
  show (outsAt3 V c t.val t.isLt).1 (ix2 p q) = aggRelu (adj3 V c) (feat3 V c) (((cfg3.win 2).blk t).view.emb (ix2 p q))
  rw [hemb]
  exact out3_apply V c t.val t.isLt h4 p q _ rfl

/-- An index of the output array is in point `t`'s block iff each coordinate is in the block's range on its axis. -/
theorem mem_blk3 (t : Fin cfg3.N) (i : S10240x512.Idx) :
    i ∈ ((cfg3.win 2).blk t).view.set ↔ ∀ a : Fin 2, win3_2.index t a * S1024x512.size a ≤ (i a).val ∧ (i a).val < win3_2.index t a * S1024x512.size a + S1024x512.size a := by
  show i ∈ ((View.whole main_v32).slice (win3_2.rect t)).set ↔ _
  rw [View.set_slice_whole, Rect.mem_set_unit]
  exact Iff.rfl

/-- REGION 3'S OUTPUT ARRAY after the run, as one function of the arrays the region finds: row `r` of the adjacency
    against column `q` of the features, clamped below at zero. Row `r` is written back by point `5 (r / 1024) + 4`. -/
theorem arr3_eq (c : Dev nD) : (dat3 V c).arrAt 2 cfg3.N = aggRelu (V c main_v20) (V c main_v31) :=
  (dat3 V c).arrAt_eq_of_cover 2 (aggRelu (adj3 V c) (feat3 V c)) (flushed3_eq V c) fun i => by
    have hN : cfg3.N = 50 := N_3
    have h0 : (i 0).val < 10240 := idx2_lt0 i
    have h1 : (i 1).val < 512 := idx2_lt1 i
    let t : Fin cfg3.N := ⟨5 * ((i 0).val / 1024) + 4, by omega⟩
    have htv : t.val = 5 * ((i 0).val / 1024) + 4 := rfl
    obtain ⟨-, -, -, -, e4, e5⟩ := idx_facts3 t
    refine ⟨t, (flush3_2 t).mpr (by omega), ?_⟩
    rw [mem_blk3]
    intro a
    match a with
    | ⟨0, _⟩ => show win3_2.index t (0 : Fin 2) * 1024 ≤ (i 0).val ∧ (i 0).val < win3_2.index t (0 : Fin 2) * 1024 + 1024; rw [e4]; omega
    | ⟨1, _⟩ => show win3_2.index t (1 : Fin 2) * 512 ≤ (i 1).val ∧ (i 1).val < win3_2.index t (1 : Fin 2) * 512 + 512; rw [e5]; omega

end Cert.KernelIdeal.Val

end
-- ==== Proof.Val.Spec.lean ====
/-
  The index readings of the reference's row gather and row scatter and of the kernel's cell scatter, their
  consequences for the exact (extended-real) accumulating scatter read at one index, and the counting law that
  turns "edge-count matrix times features" into "sum over the incoming edges".

  Edges are numbered by \`Fin 160000\`. The reference gathers rows of a \`[10000, 512]\` array at the edges' source
  numbers and adds them into the rows named by the edges' destination numbers; the kernel builds the
  \`[10240, 10240]\` matrix whose cell \`(i, j)\` counts the edges from \`j\` to \`i\` and multiplies it with the features.
  Everything here is stated at an index \`(row, column)\` built with \`ix2\` (or \`ix1\` for a rank-1 array).
-/
import proofs.«402366_j18588618457604_1_alg».proof.ReferenceIdeal
import proofs.«402366_j18588618457604_1_alg».proof.KernelIdeal
import Idealize.ShloMosaic.Lib.ValueIdx
import Mathlib.Data.EReal.Operations

noncomputable section

open scoped BigOperators

namespace Cert.KernelIdeal.Val

open Idealize.ShloMosaic Idealize.ShloMosaic.ValueIdx

/-! ## Index words as bounded naturals -/

/-- An index word whose signed reading lies in \`[0, N)\`, as an element of \`Fin N\`. -/
def wordFin {w : Nat} (N : Nat) (v : BitVec w) (h : 0 ≤ v.toInt ∧ v.toInt < (N : Int)) : Fin N :=
  ⟨v.toInt.toNat, by omega⟩

/-- Its value is the word's signed reading. -/
theorem wordFin_val {w : Nat} (N : Nat) (v : BitVec w) (h : 0 ≤ v.toInt ∧ v.toInt < (N : Int)) :
    ((wordFin N v h).val : Int) = v.toInt := by
  show ((v.toInt.toNat : Nat) : Int) = v.toInt
  exact Int.toNat_of_nonneg h.1

/-! ## A sum over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## A scatter into a rank-2 operand, read by coordinates -/

/-- For a rank-2 operand: if the result coordinates of update index \`j\` (start plus window coordinate, on each axis)
    are the integers \`A\` and \`B\`, the update lands at \`(i, k)\` exactly when \`A = i\` and \`B = k\`; with a coordinate
    negative or past the extent it lands nowhere, and then no \`(i, k)\` has \`A = i\` and \`B = k\` either. -/
theorem resultIdx?_eq_some_ix2 {n0 n1 : Nat} {si u : Shape} {w : Nat} (d : ScatterDims ⟨2, ![n0, n1]⟩ si u)
    (j : u.Idx) (idx : IVec si w) (A B : Int)
    (hA : d.start j idx 0 + d.window j 0 = A) (hB : d.start j idx 1 + d.window j 1 = B)
    (i : Fin n0) (k : Fin n1) :
    d.resultIdx? j idx = some (ix2 i k) ↔ A = (i.val : Int) ∧ B = (k.val : Int) := by
  unfold ScatterDims.resultIdx?
  constructor
  · intro h
    split at h
    · rename_i hr
      have hf := Option.some.inj h
      have h0 : (d.start j idx 0 + d.window j 0).toNat = i.val := congrArg (fun f => (f 0).val) hf
      have h1 : (d.start j idx 1 + d.window j 1).toNat = k.val := congrArg (fun f => (f 1).val) hf
      have r0 := (hr 0).1
      have r1 := (hr 1).1
      rw [hA] at h0 r0
      rw [hB] at h1 r1
      constructor <;> omega
    · exact absurd h (by simp)
  · rintro ⟨hi, hk⟩
    have hr : ∀ a, 0 ≤ d.start j idx a + d.window j a ∧
        d.start j idx a + d.window j a < ((⟨2, ![n0, n1]⟩ : Shape).size a : Int) := by
      intro a
      match a with
      | ⟨0, _⟩ =>
        have := i.isLt
        change 0 ≤ d.start j idx 0 + d.window j 0 ∧ d.start j idx 0 + d.window j 0 < (n0 : Int)
        rw [hA, hi]; omega
      | ⟨1, _⟩ =>
        have := k.isLt
        change 0 ≤ d.start j idx 1 + d.window j 1 ∧ d.start j idx 1 + d.window j 1 < (n1 : Int)
        rw [hB, hk]; omega
    rw [dif_pos hr]
    congr 1
    funext a
    match a with
    | ⟨0, _⟩ =>
      refine Fin.ext ?_
      change (d.start j idx 0 + d.window j 0).toNat = i.val
      rw [hA, hi]; simp
    | ⟨1, _⟩ =>
      refine Fin.ext ?_
      change (d.start j idx 1 + d.window j 1).toNat = k.val
      rw [hB, hk]; simp

/-! ## The reference's row gather -/

section Reference
variable [Cert.ReferenceIdeal.Facts]

local notation "gD" => Cert.ReferenceIdeal.gather_S10000x512_S160000x1_S160000x512_1_0_n_n_0_1_1512
local notation "sD" => Cert.ReferenceIdeal.scatter_S10000x512_S160000x1_S160000x512_1_0_0_1

/-- Row coordinate of the operand index the gather reads for result \`(e, q)\`: the start index \`idx[e, 0]\`, read signed
    and clamped into \`[0, 10000 - 1]\` (axis 0 is collapsed: no batching coordinate, no offset coordinate). -/
theorem gather_rows_coord0 {w : Nat} (idx : IVec Cert.ReferenceIdeal.S160000x1 w) (e : Fin 160000) (q : Fin 512) :
    (GatherDims.operandIdx gD (ix2 e q) idx (0 : Fin 2)).val = min (idx (ix2 e 0)).toInt.toNat 9999 := by
  show GatherDims.start gD (ix2 e q) idx (0 : Fin 2) + GatherDims.batchCoord gD (ix2 e q) (0 : Fin 2)
    + GatherDims.offCoord gD (ix2 e q) (0 : Fin 2) = _
  have hmem : (0 : Fin 2) ∈ GatherDims.startIndexMap gD := by
    show (0 : Fin 2) ∈ ([0] : List (Fin 2)); decide
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos hmem]
  have hsi : GatherDims.siIdx gD (ix2 e q) ⟨List.idxOf (0 : Fin 2) (GatherDims.startIndexMap gD),
      List.idxOf_lt_length_iff.2 hmem⟩ = ix2 e 0 := by
    funext b; refine Fin.ext ?_
    match b with
    | ⟨0, _⟩ => rfl
    | ⟨1, _⟩ => rfl
  rw [hsi]
  rfl

/-- Column coordinate of that operand index: the result's column \`q\` (axis 1 is the one offset axis; it is not in
    the start index map, so its start is \`0\`). -/
theorem gather_rows_coord1 {w : Nat} (idx : IVec Cert.ReferenceIdeal.S160000x1 w) (e : Fin 160000) (q : Fin 512) :
    (GatherDims.operandIdx gD (ix2 e q) idx (1 : Fin 2)).val = q.val := by
  show GatherDims.start gD (ix2 e q) idx (1 : Fin 2) + GatherDims.batchCoord gD (ix2 e q) (1 : Fin 2)
    + GatherDims.offCoord gD (ix2 e q) (1 : Fin 2) = _
  have hnm : (1 : Fin 2) ∉ GatherDims.startIndexMap gD := by
    show (1 : Fin 2) ∉ ([0] : List (Fin 2)); decide
  have hk : (1 : Fin 2) ∈ GatherDims.sKept gD := by
    rw [GatherDims.mem_sKept]
    exact ⟨by show (1 : Fin 2) ∉ ([0] : List (Fin 2)); decide, List.not_mem_nil⟩
  have hst : GatherDims.start gD (ix2 e q) idx (1 : Fin 2) = 0 := by
    unfold GatherDims.start
    rw [dif_neg hnm]
  have hoff : GatherDims.offCoord gD (ix2 e q) (1 : Fin 2) = q.val := by
    unfold GatherDims.offCoord
    rw [dif_pos hk]
    rfl
  rw [GatherDims.batchCoord_eq_zero _ _ _ List.not_mem_nil, hst, hoff]
  omega

/-- THE ROW GATHER READ AT \`(e, q)\`: the operand's row at the start index \`idx[e, 0]\`, read signed and clamped into
    \`[0, 9999]\`, at column \`q\`. -/
theorem gather_rows_apply {α : Type} {w : Nat} (x : Cert.ReferenceIdeal.S10000x512.Idx → α)
    (idx : IVec Cert.ReferenceIdeal.S160000x1 w) (e : Fin 160000) (q : Fin 512) :
    Host.gather Cert.ReferenceIdeal.gather_S10000x512_S160000x1_S160000x512_1_0_n_n_0_1_1512 x idx (ix2 e q)
      = x (ix2 ⟨min (idx (ix2 e 0)).toInt.toNat 9999, by omega⟩ q) := by
  unfold Host.gather
  congr 1
  funext a
  match a with
  | ⟨0, _⟩ => exact Fin.ext (gather_rows_coord0 idx e q)
  | ⟨1, _⟩ => exact Fin.ext (gather_rows_coord1 idx e q)

/-- The row gather where the start index \`idx[e, 0]\` is the row number \`src e\`: row \`src e\` of the operand (a row
    number below \`10000\` is its own clamp). -/
theorem gather_rows_apply_of_eq {α : Type} {w : Nat} (x : Cert.ReferenceIdeal.S10000x512.Idx → α)
    (idx : IVec Cert.ReferenceIdeal.S160000x1 w) (src : Fin 160000 → Fin 10000)
    (hs : ∀ e, (idx (ix2 e 0)).toInt = ((src e).val : Int)) (e : Fin 160000) (q : Fin 512) :
    Host.gather Cert.ReferenceIdeal.gather_S10000x512_S160000x1_S160000x512_1_0_n_n_0_1_1512 x idx (ix2 e q)
      = x (ix2 (src e) q) := by
  rw [gather_rows_apply]
  congr 2
  refine Fin.ext ?_
  show min (idx (ix2 e 0)).toInt.toNat 9999 = (src e).val
  have := (src e).isLt
  rw [hs e]
  omega

/-! ## The reference's row scatter -/

/-- Row axis: the window starts at the scatter index \`idx[e, 0]\`, read signed (not clamped) … -/
theorem rows_start0 {w : Nat} (idx : IVec Cert.ReferenceIdeal.S160000x1 w) (e : Fin 160000) (q : Fin 512) :
    ScatterDims.start sD (ix2 e q) idx (0 : Fin 2) = (idx (ix2 e 0)).toInt := by
  have hmem : (0 : Fin 2) ∈ ScatterDims.scatterDimsToOperandDims sD := by
    show (0 : Fin 2) ∈ ([0] : List (Fin 2)); decide
  unfold ScatterDims.start
  rw [dif_pos hmem]
  have hsi : ScatterDims.siIdx sD (ix2 e q) ⟨List.idxOf (0 : Fin 2) (ScatterDims.scatterDimsToOperandDims sD),
      List.idxOf_lt_length_iff.2 hmem⟩ = ix2 e 0 := by
    funext b; refine Fin.ext ?_
    match b with
    | ⟨0, _⟩ => rfl
    | ⟨1, _⟩ => rfl
  rw [hsi]

/-- … column axis: it starts at \`0\` (the map does not name that axis) … -/
theorem rows_start1 {w : Nat} (idx : IVec Cert.ReferenceIdeal.S160000x1 w) (e : Fin 160000) (q : Fin 512) :
    ScatterDims.start sD (ix2 e q) idx (1 : Fin 2) = 0 := by
  have hnm : (1 : Fin 2) ∉ ScatterDims.scatterDimsToOperandDims sD := by
    show (1 : Fin 2) ∉ ([0] : List (Fin 2)); decide
  unfold ScatterDims.start
  rw [dif_neg hnm]

/-- … the row axis is inserted: window coordinate \`0\` … -/
theorem rows_window0 (e : Fin 160000) (q : Fin 512) : ScatterDims.window sD (ix2 e q) (0 : Fin 2) = 0 := by
  have hnm : (0 : Fin 2) ∉ ScatterDims.sKept sD := by
    show (0 : Fin 2) ∉ ([1] : List (Fin 2)); decide
  unfold ScatterDims.window
  rw [dif_neg hnm]

/-- … and the column axis carries the update's column. -/
theorem rows_window1 (e : Fin 160000) (q : Fin 512) : ScatterDims.window sD (ix2 e q) (1 : Fin 2) = q.val := by
  have hm : (1 : Fin 2) ∈ ScatterDims.sKept sD := by
    show (1 : Fin 2) ∈ ([1] : List (Fin 2)); decide
  unfold ScatterDims.window
  rw [dif_pos hm]
  rfl

/-- THE ROW SCATTER'S RESULT INDEX: update element \`(e, q)\` lands at \`(i, q')\` exactly when the scatter index
    \`idx[e, 0]\`, read signed, is \`i\`, and the column is kept. -/
theorem scatter_rows_resultIdx? {w : Nat} (idx : IVec Cert.ReferenceIdeal.S160000x1 w) (e : Fin 160000) (q : Fin 512)
    (i : Fin 10000) (q' : Fin 512) :
    (Cert.ReferenceIdeal.scatter_S10000x512_S160000x1_S160000x512_1_0_0_1).resultIdx? (ix2 e q) idx = some (ix2 i q')
      ↔ (idx (ix2 e 0)).toInt = (i.val : Int) ∧ q = q' := by
  rw [resultIdx?_eq_some_ix2 sD (ix2 e q) idx (idx (ix2 e 0)).toInt (q.val : Int)
    (by rw [rows_start0, rows_window0]; simp) (by rw [rows_start1, rows_window1]; simp) i q']
  constructor
  · rintro ⟨h1, h2⟩; exact ⟨h1, Fin.ext (by exact_mod_cast h2)⟩
  · rintro ⟨h1, rfl⟩; exact ⟨h1, rfl⟩

/-- THE ACCUMULATING ROW SCATTER READ AT \`(i, q)\`: the operand there plus the updates' column \`q\` summed over the
    update rows \`e\` whose scatter index is \`i\` (an index outside \`[0, 10000)\` is no row's: that update adds nothing). -/
theorem scatterAdd_rows_apply {w : Nat} (x : FVec Ideal Cert.ReferenceIdeal.S10000x512 .f32)
    (idx : IVec Cert.ReferenceIdeal.S160000x1 w) (upd : FVec Ideal Cert.ReferenceIdeal.S160000x512 .f32)
    (i : Fin 10000) (q : Fin 512) :
    Host.scatterAdd (F := Ideal) Cert.ReferenceIdeal.scatter_S10000x512_S160000x1_S160000x512_1_0_0_1 x idx upd (ix2 i q)
      = x (ix2 i q)
        + ∑ e ∈ Finset.univ.filter (fun e : Fin 160000 => (idx (ix2 e 0)).toInt = (i.val : Int)), upd (ix2 e q) := by
  show Ideal.hostScatterAdd sD x idx upd (ix2 i q) = _
  unfold Ideal.hostScatterAdd
  refine congrArg (x (ix2 i q) + ·) ?_
  rw [Finset.sum_filter, sum_idx2, Finset.sum_filter]
  refine Finset.sum_congr rfl fun a _ => ?_
  simp only [scatter_rows_resultIdx?]
  by_cases hP : (idx (ix2 a 0)).toInt = (i.val : Int)
  · simp only [hP, true_and, if_true]
    rw [Finset.sum_ite_eq']
    simp
  · simp [hP]

/-- The same where the scatter index \`idx[e, 0]\` is the row number \`dst e\`: the sum over the \`e\` with \`dst e = i\`. -/
theorem scatterAdd_rows_apply_of_eq {w : Nat} (x : FVec Ideal Cert.ReferenceIdeal.S10000x512 .f32)
    (idx : IVec Cert.ReferenceIdeal.S160000x1 w) (upd : FVec Ideal Cert.ReferenceIdeal.S160000x512 .f32)
    (dst : Fin 160000 → Fin 10000) (hd : ∀ e, (idx (ix2 e 0)).toInt = ((dst e).val : Int))
    (i : Fin 10000) (q : Fin 512) :
    Host.scatterAdd (F := Ideal) Cert.ReferenceIdeal.scatter_S10000x512_S160000x1_S160000x512_1_0_0_1 x idx upd (ix2 i q)
      = x (ix2 i q) + ∑ e ∈ Finset.univ.filter (fun e : Fin 160000 => dst e = i), upd (ix2 e q) := by
  rw [scatterAdd_rows_apply]
  refine congrArg (x (ix2 i q) + ·) ?_
  refine Finset.sum_congr ?_ (fun _ _ => rfl)
  ext e
  simp only [Finset.mem_filter, Finset.mem_univ, true_and, hd e]
  constructor
  · intro h; exact Fin.ext (by exact_mod_cast h)
  · rintro rfl; rfl

end Reference

/-! ## The kernel's cell scatter (the edge-count matrix) -/

section Kernel
variable [Cert.KernelIdeal.Facts]

local notation "cD" => Cert.KernelIdeal.scatter_S10240x10240_S160000x2_S160000_n_01_01_1

/-- Row axis: the window starts at the first scatter index \`idx[e, 0]\`, read signed … -/
theorem cells_start0 {w : Nat} (idx : IVec Cert.KernelIdeal.S160000x2 w) (e : Fin 160000) :
    ScatterDims.start cD (ix1 e) idx (0 : Fin 2) = (idx (ix2 e 0)).toInt := by
  have hmem : (0 : Fin 2) ∈ ScatterDims.scatterDimsToOperandDims cD := by
    show (0 : Fin 2) ∈ ([0, 1] : List (Fin 2)); decide
  unfold ScatterDims.start
  rw [dif_pos hmem]
  have hsi : ScatterDims.siIdx cD (ix1 e) ⟨List.idxOf (0 : Fin 2) (ScatterDims.scatterDimsToOperandDims cD),
      List.idxOf_lt_length_iff.2 hmem⟩ = ix2 e 0 := by
    funext b; refine Fin.ext ?_
    match b with
    | ⟨0, _⟩ => rfl
    | ⟨1, _⟩ => rfl
  rw [hsi]

/-- … column axis: at the second scatter index \`idx[e, 1]\` … -/
theorem cells_start1 {w : Nat} (idx : IVec Cert.KernelIdeal.S160000x2 w) (e : Fin 160000) :
    ScatterDims.start cD (ix1 e) idx (1 : Fin 2) = (idx (ix2 e 1)).toInt := by
  have hmem : (1 : Fin 2) ∈ ScatterDims.scatterDimsToOperandDims cD := by
    show (1 : Fin 2) ∈ ([0, 1] : List (Fin 2)); decide
  unfold ScatterDims.start
  rw [dif_pos hmem]
  have hsi : ScatterDims.siIdx cD (ix1 e) ⟨List.idxOf (1 : Fin 2) (ScatterDims.scatterDimsToOperandDims cD),
      List.idxOf_lt_length_iff.2 hmem⟩ = ix2 e 1 := by
    funext b; refine Fin.ext ?_
    match b with
    | ⟨0, _⟩ => rfl
    | ⟨1, _⟩ => rfl
  rw [hsi]

/-- … and both axes are inserted: the window is one cell, its coordinates \`0\`. -/
theorem cells_window (e : Fin 160000) (a : Fin 2) : ScatterDims.window cD (ix1 e) a = 0 := by
  have hnm : a ∉ ScatterDims.sKept cD := by
    show a ∉ ([] : List (Fin 2)); exact List.not_mem_nil
  unfold ScatterDims.window
  rw [dif_neg hnm]

/-- THE CELL SCATTER'S RESULT INDEX: update element \`e\` lands at cell \`(i, j)\` exactly when its two scatter indices
    \`idx[e, 0]\` and \`idx[e, 1]\`, read signed, are \`i\` and \`j\`. -/
theorem scatter_cells_resultIdx? {w : Nat} (idx : IVec Cert.KernelIdeal.S160000x2 w) (e : Fin 160000)
    (i j : Fin 10240) :
    (Cert.KernelIdeal.scatter_S10240x10240_S160000x2_S160000_n_01_01_1).resultIdx? (ix1 e) idx = some (ix2 i j)
      ↔ (idx (ix2 e 0)).toInt = (i.val : Int) ∧ (idx (ix2 e 1)).toInt = (j.val : Int) :=
  resultIdx?_eq_some_ix2 cD (ix1 e) idx (idx (ix2 e 0)).toInt (idx (ix2 e 1)).toInt
    (by rw [cells_start0, cells_window]; simp) (by rw [cells_start1, cells_window]; simp) i j

/-- THE ACCUMULATING CELL SCATTER READ AT \`(i, j)\`: the operand there plus the updates summed over the \`e\` whose
    scatter index pair is \`(i, j)\`. -/
theorem scatterAdd_cells_apply {w : Nat} (x : FVec Ideal Cert.KernelIdeal.S10240x10240 .f32)
    (idx : IVec Cert.KernelIdeal.S160000x2 w) (upd : FVec Ideal Cert.KernelIdeal.S160000 .f32) (i j : Fin 10240) :
    Host.scatterAdd (F := Ideal) Cert.KernelIdeal.scatter_S10240x10240_S160000x2_S160000_n_01_01_1 x idx upd (ix2 i j)
      = x (ix2 i j)
        + ∑ e ∈ Finset.univ.filter (fun e : Fin 160000 =>
            (idx (ix2 e 0)).toInt = (i.val : Int) ∧ (idx (ix2 e 1)).toInt = (j.val : Int)), upd (ix1 e) := by
  show Ideal.hostScatterAdd cD x idx upd (ix2 i j) = _
  unfold Ideal.hostScatterAdd
  refine congrArg (x (ix2 i j) + ·) ?_
  rw [Finset.sum_filter, sum_idx1, Finset.sum_filter]
  refine Finset.sum_congr rfl fun a _ => ?_
  by_cases hP : (idx (ix2 a 0)).toInt = (i.val : Int) ∧ (idx (ix2 a 1)).toInt = (j.val : Int)
  · rw [if_pos ((scatter_cells_resultIdx? idx a i j).mpr hP), if_pos hP]
  · rw [if_neg (fun h => hP ((scatter_cells_resultIdx? idx a i j).mp h)), if_neg hP]

/-- The same where the scatter index pair of \`e\` is \`(dst e, src e)\`: the sum over the \`e\` with \`dst e = i\` and
    \`src e = j\`. -/
theorem scatterAdd_cells_apply_of_eq {w : Nat} (x : FVec Ideal Cert.KernelIdeal.S10240x10240 .f32)
    (idx : IVec Cert.KernelIdeal.S160000x2 w) (upd : FVec Ideal Cert.KernelIdeal.S160000 .f32)
    (dst src : Fin 160000 → Fin 10240) (hd : ∀ e, (idx (ix2 e 0)).toInt = ((dst e).val : Int))
    (hs : ∀ e, (idx (ix2 e 1)).toInt = ((src e).val : Int)) (i j : Fin 10240) :
    Host.scatterAdd (F := Ideal) Cert.KernelIdeal.scatter_S10240x10240_S160000x2_S160000_n_01_01_1 x idx upd (ix2 i j)
      = x (ix2 i j) + ∑ e ∈ Finset.univ.filter (fun e : Fin 160000 => dst e = i ∧ src e = j), upd (ix1 e) := by
  rw [scatterAdd_cells_apply]
  refine congrArg (x (ix2 i j) + ·) ?_
  refine Finset.sum_congr ?_ (fun _ _ => rfl)
  ext e
  simp only [Finset.mem_filter, Finset.mem_univ, true_and, hd e, hs e]
  constructor
  · rintro ⟨h1, h2⟩; exact ⟨Fin.ext (by exact_mod_cast h1), Fin.ext (by exact_mod_cast h2)⟩
  · rintro ⟨rfl, rfl⟩; exact ⟨rfl, rfl⟩

end Kernel

/-! ## The counting law -/

section Law
variable {E N : Type} [Fintype E] [Fintype N] [DecidableEq N]

/-- A count times a value is the value added that many times. Over the extended reals multiplication does not
    distribute over addition in general, but a count is a natural number, and \`n * a\` is \`a\` added \`n\` times for every
    \`a\`, infinite or not. -/
theorem sum_one_mul (S : Finset E) (a : EReal) : (∑ _e ∈ S, (1 : EReal)) * a = ∑ _e ∈ S, a := by
  rw [Finset.sum_const, Finset.sum_const, EReal.nsmul_eq_mul, EReal.nsmul_eq_mul, mul_one]

/-- THE LAW, for any selection \`P\` of edges and any map \`s\` of edges to nodes: the nodes' values, each weighted by the
    number of selected edges that \`s\` sends to it, sum to the values at the selected edges' images. (Each weighted
    value is that value once per edge; exchanging the two sums, each selected edge meets exactly one node.) -/
theorem count_law (P : E → Prop) [DecidablePred P] (s : E → N) (H : N → EReal) :
    ∑ j : N, (∑ _e ∈ Finset.univ.filter (fun e : E => P e ∧ s e = j), (1 : EReal)) * H j
      = ∑ e ∈ Finset.univ.filter P, H (s e) := by
  simp only [sum_one_mul]
  simp only [Finset.sum_filter]
  rw [Finset.sum_comm]
  refine Finset.sum_congr rfl fun e _ => ?_
  by_cases hP : P e
  · simp only [hP, true_and, if_true]
    rw [Finset.sum_ite_eq]
    simp
  · simp [hP]

/-- THE LAW as the aggregation uses it: row \`i\` of the edge-count matrix of \`(dst, src)\` times \`H\` is the sum of \`H\` at
    the sources of the edges into \`i\`. -/
theorem adjacency_law (src dst : E → N) (H : N → EReal) (i : N) :
    ∑ j : N, (∑ _e ∈ Finset.univ.filter (fun e : E => dst e = i ∧ src e = j), (1 : EReal)) * H j
      = ∑ e ∈ Finset.univ.filter (fun e : E => dst e = i), H (src e) :=
  count_law (fun e => dst e = i) src H

end Law

end Cert.KernelIdeal.Val

end
-- ==== Proof.Val.RefRun.lean ====
/-
  The reference's result in closed form.

  The reference is two graph layers. One layer takes node features `x : [10000, 512]`, a weight `w : [512, 512]`,
  a bias `b : [512]` and the edge list `a : [2, 160000]` (row 0 the source node of each edge, row 1 its destination)
  and returns, at node `i` and feature `q`,

      max (∑ over the edges e with destination i of ((∑ k, x (src e, k) * w (q, k)) + b q)) 0.

  The affine part `lin` is the product with the transposed weight plus the bias; the aggregation `agg` is the sum
  over the edges that end at `i` of the affine part's row at the edge's source, then the maximum with zero.
  `ref_result_eq`: when every word of the edge list is a node number, `0 ≤ a (r, e) < 10000`, the reference's last
  stage is layer 2 of layer 1 at every index.
-/
import proofs.«402366_j18588618457604_1_alg».proof.Proof.Gen.ReferenceIdeal.Run
import proofs.«402366_j18588618457604_1_alg».proof.Proof.Gen.ReferenceIdeal.Read
import proofs.«402366_j18588618457604_1_alg».proof.Proof.Val.Spec

noncomputable section

namespace Cert.ReferenceIdeal.RefValue

open Cert.ReferenceIdeal Cert.ReferenceIdeal.Gen Idealize.ShloMosaic Idealize.ShloMosaic.ValueIdx
open scoped BigOperators

/-- The source node of edge `e`: word `(0, e)` of the edge list read signed and kept inside the rows. For a word
    that is a node number it is that number (`srcRow_val`). -/
def srcRow (a : IVec S2x160000 32) (e : Fin 160000) : Fin 10000 :=
  ⟨min (a (ix2 0 e)).toInt.toNat 9999, by omega⟩

/-- The affine part of a layer at `(i, q)`: `(∑ k, x (i, k) * w (q, k)) + b q`. -/
def lin (x : S10000x512.Idx → EReal) (w : S512x512.Idx → EReal) (b : S512.Idx → EReal) : S10000x512.Idx → EReal :=
  fun j => (∑ k : Fin 512, x (ix2 (j 0) k) * w (ix2 (j 1) k)) + b (ix1 (j 1))

/-- The aggregation at `(i, q)`: the sum over the edges whose destination word is `i` of `h` at the edge's source
    row, then the maximum with zero. -/
def agg (a : IVec S2x160000 32) (h : S10000x512.Idx → EReal) : S10000x512.Idx → EReal :=
  fun j => max (∑ e ∈ Finset.univ.filter (fun e : Fin 160000 => (a (ix2 1 e)).toInt = ((j 0).val : ℤ)),
    h (ix2 (srcRow a e) (j 1))) 0

/-- One layer: the aggregation of the affine part. -/
def refLayer (x : S10000x512.Idx → EReal) (w : S512x512.Idx → EReal) (b : S512.Idx → EReal) (a : IVec S2x160000 32) :
    S10000x512.Idx → EReal :=
  agg a (lin x w b)

theorem lin_apply (x : S10000x512.Idx → EReal) (w : S512x512.Idx → EReal) (b : S512.Idx → EReal) (i : Fin 10000) (q : Fin 512) :
    lin x w b (ix2 i q) = (∑ k : Fin 512, x (ix2 i k) * w (ix2 q k)) + b (ix1 q) := rfl

theorem agg_apply (a : IVec S2x160000 32) (h : S10000x512.Idx → EReal) (i : Fin 10000) (q : Fin 512) :
    agg a h (ix2 i q) = max (∑ e ∈ Finset.univ.filter (fun e : Fin 160000 => (a (ix2 1 e)).toInt = (i.val : ℤ)),
      h (ix2 (srcRow a e) q)) 0 := rfl

theorem refLayer_apply (x : S10000x512.Idx → EReal) (w : S512x512.Idx → EReal) (b : S512.Idx → EReal) (a : IVec S2x160000 32)
    (i : Fin 10000) (q : Fin 512) :
    refLayer x w b a (ix2 i q) = max (∑ e ∈ Finset.univ.filter (fun e : Fin 160000 => (a (ix2 1 e)).toInt = (i.val : ℤ)),
      ((∑ k : Fin 512, x (ix2 (srcRow a e) k) * w (ix2 q k)) + b (ix1 q))) 0 := rfl

/-- For a word that is a node number the source row is that number. -/
theorem srcRow_val (a : IVec S2x160000 32) (e : Fin 160000)
    (h : 0 ≤ (a (ix2 0 e)).toInt ∧ (a (ix2 0 e)).toInt < 10000) : ((srcRow a e).val : ℤ) = (a (ix2 0 e)).toInt := by
  show ((min (a (ix2 0 e)).toInt.toNat 9999 : ℕ) : ℤ) = _
  omega

/-! ## The pieces of a layer, read at an index -/

/-- The zero array, whichever stage spells it, is zero at every index. -/
theorem zeros_apply (j : S10000x512.Idx) :
    broadcastInDim S10000x512 ![] bcast_S_S10000x512 (constant (F := Ideal) S_ .f32 0x00000000#32) j = 0 :=
  (Read.val_main_v16_apply (F := Ideal) j).trans Ideal.ofBits_zero_f32

/-- The destination index column is row 1 of the edge list. -/
theorem dstIdx_apply (a1 : (⟨S2x160000, .i32⟩ : BufTy).Contents (Elt Ideal)) (e : Fin 160000) :
    Read.val_main_v17 (F := Ideal) a1 (ix2 e 0) = a1 (ix2 1 e) := by
  rw [Read.val_main_v17_apply, Read.val_main_v3_apply, Read.val_main_v2_apply]
  congr 1
  funext a
  match a with
  | ⟨0, _⟩ => rfl
  | ⟨1, _⟩ => exact Fin.ext (Nat.mod_eq_of_lt e.isLt)

/-- The source index column: the wrap of a negative word into the rows leaves a nonnegative word as it is, so the
    column is row 0 of the edge list. -/
theorem srcIdx_apply (a1 : (⟨S2x160000, .i32⟩ : BufTy).Contents (Elt Ideal)) (e : Fin 160000)
    (h0 : 0 ≤ (a1 (ix2 0 e)).toInt) :
    Read.val_main_v14 (F := Ideal) a1 (ix2 e 0) = a1 (ix2 0 e) := by
  have hi : Read.idx_main_v0 (Read.idx_main_v1 (Read.idx_main_v14 (ix2 e (0 : Fin 1)))) = ix2 0 e := by
    funext a
    match a with
    | ⟨0, _⟩ => rfl
    | ⟨1, _⟩ => exact Fin.ext (Nat.mod_eq_of_lt e.isLt)
  rw [Read.val_main_v14_apply, Read.val_main_v13_apply, Read.val_main_v10_apply, Read.val_main_v1_apply,
    Read.val_main_v0_apply, hi, Read.val_main_v9_apply, Read.val_main_c_apply]
  have hc : IntOp.cmpi .slt (a1 (ix2 0 e)) 0#32 = 0#1 := by
    have hz : (0#32 : BitVec 32).toInt = 0 := by decide
    have hs : (a1 (ix2 0 e)).slt 0#32 = false := by
      unfold BitVec.slt
      rw [decide_eq_false_iff_not, hz]
      omega
    show BitVec.ofBool ((a1 (ix2 0 e)).slt 0#32) = 0#1
    rw [hs]
    rfl
  rw [hc, select_zero]

/-- THE AGGREGATION STAGE: zeros, scatter-added at the destination column with the rows gathered at the source
    column, then the maximum with zeros, is `agg` of the gathered array. -/
theorem agg_stage (H Z Z' : FVec Ideal S10000x512 .f32) (hZ : ∀ j, Z j = 0) (hZ' : ∀ j, Z' j = 0)
    (D S : IVec S160000x1 32) (a1 : IVec S2x160000 32) (hD : ∀ e, D (ix2 e 0) = a1 (ix2 1 e))
    (hS : ∀ e, S (ix2 e 0) = a1 (ix2 0 e)) (i : Fin 10000) (q : Fin 512) :
    maximumf (Host.scatterAdd (F := Ideal) scatter_S10000x512_S160000x1_S160000x512_1_0_0_1 Z D
      (Host.gather gather_S10000x512_S160000x1_S160000x512_1_0_n_n_0_1_1512 H S)) Z' (ix2 i q) = agg a1 H (ix2 i q) := by
  rw [maximumf_apply, Cert.KernelIdeal.Val.scatterAdd_rows_apply, hZ, hZ', zero_add, agg_apply]
  refine congrArg (fun s : EReal => max s 0) ?_
  refine Finset.sum_congr (Finset.filter_congr fun e _ => by rw [hD e]) fun e _ => ?_
  rw [Cert.KernelIdeal.Val.gather_rows_apply]
  exact congrArg (fun r : Fin 10000 => H (ix2 r q)) (Fin.ext (by show min _ _ = min _ _; rw [hS e]))

/-- THE AFFINE STAGE: the product with the transposed weight plus the bias row is `lin`. -/
theorem lin_stage (X : (⟨S10000x512, .f32⟩ : BufTy).Contents (Elt Ideal)) (W : (⟨S512x512, .f32⟩ : BufTy).Contents (Elt Ideal))
    (B : (⟨S512, .f32⟩ : BufTy).Contents (Elt Ideal)) :
    Read.val_main_v8 (F := Ideal) X W B = lin X W B := by
  funext j
  obtain ⟨i, q, rfl⟩ : ∃ (i : Fin 10000) (q : Fin 512), j = ix2 i q := ⟨j 0, j 1, eq_ix2 j⟩
  have el : ∀ k : Fin 512, Read.lidx_main_v5 (ix2 i q) k = ix2 i k := fun k =>
    funext fun a => by match a with | ⟨0, _⟩ => rfl | ⟨1, _⟩ => rfl
  have er : ∀ k : Fin 512, Read.idx_main_v4 (Read.ridx_main_v5 (ix2 i q) k) = ix2 q k := fun k =>
    funext fun a => by match a with | ⟨0, _⟩ => rfl | ⟨1, _⟩ => rfl
  have eb : Read.idx_main_v6 (Read.idx_main_v7 (ix2 i q)) = ix1 q :=
    funext fun a => by match a with | ⟨0, _⟩ => rfl
  rw [Read.val_main_v8_apply, Read.val_main_v5_apply, Read.val_main_v7_apply, Read.val_main_v6_apply, eb, lin_apply]
  show (∑ k : Fin 512, _) + _ = _
  congr 1
  refine Finset.sum_congr rfl fun k _ => ?_
  rw [Read.val_main_v4_apply, el, er]

/-! ## The reference, stage by stage -/

section Stages
variable (x0 : (⟨S10000x512, .f32⟩ : BufTy).Contents (Elt Ideal)) (a1 : (⟨S2x160000, .i32⟩ : BufTy).Contents (Elt Ideal))
  (x2 : (⟨S512x512, .f32⟩ : BufTy).Contents (Elt Ideal)) (x3 : (⟨S512, .f32⟩ : BufTy).Contents (Elt Ideal))
  (x4 : (⟨S512x512, .f32⟩ : BufTy).Contents (Elt Ideal)) (x5 : (⟨S512, .f32⟩ : BufTy).Contents (Elt Ideal))

/-- Layer 1's output is the aggregation of its affine stage. -/
theorem v19_eq (h : ∀ (r : Fin 2) (e : Fin 160000), 0 ≤ (a1 (ix2 r e)).toInt ∧ (a1 (ix2 r e)).toInt < 10000) :
    Read.val_main_v19 (F := Ideal) x0 a1 x2 x3 = agg a1 (Read.val_main_v8 (F := Ideal) x0 x2 x3) := by
  funext j
  obtain ⟨i, q, rfl⟩ : ∃ (i : Fin 10000) (q : Fin 512), j = ix2 i q := ⟨j 0, j 1, eq_ix2 j⟩
  exact agg_stage (Read.val_main_v8 (F := Ideal) x0 x2 x3) _ _ zeros_apply zeros_apply (Read.val_main_v17 (F := Ideal) a1)
    (Read.val_main_v14 (F := Ideal) a1) a1 (dstIdx_apply a1) (fun e => srcIdx_apply a1 e (h 0 e).1) i q

/-- Layer 2's affine stage is the affine stage of layer 1's output. -/
theorem v24_eq : Read.val_main_v24 (F := Ideal) x0 a1 x2 x3 x4 x5
    = Read.val_main_v8 (F := Ideal) (Read.val_main_v19 (F := Ideal) x0 a1 x2 x3) x4 x5 := rfl

/-- Layer 2's output is the aggregation of its affine stage. -/
theorem v35_eq (h : ∀ (r : Fin 2) (e : Fin 160000), 0 ≤ (a1 (ix2 r e)).toInt ∧ (a1 (ix2 r e)).toInt < 10000) :
    Read.val_main_v35 (F := Ideal) x0 a1 x2 x3 x4 x5 = agg a1 (Read.val_main_v24 (F := Ideal) x0 a1 x2 x3 x4 x5) := by
  funext j
  obtain ⟨i, q, rfl⟩ : ∃ (i : Fin 10000) (q : Fin 512), j = ix2 i q := ⟨j 0, j 1, eq_ix2 j⟩
  exact agg_stage (Read.val_main_v24 (F := Ideal) x0 a1 x2 x3 x4 x5) _ _ zeros_apply zeros_apply (Read.val_main_v17 (F := Ideal) a1)
    (Read.val_main_v14 (F := Ideal) a1) a1 (dstIdx_apply a1) (fun e => srcIdx_apply a1 e (h 0 e).1) i q

/-- THE REFERENCE'S RESULT as one array: layer 2 of layer 1. -/
theorem ref_result_funext (h : ∀ (r : Fin 2) (e : Fin 160000), 0 ≤ (a1 (ix2 r e)).toInt ∧ (a1 (ix2 r e)).toInt < 10000) :
    Read.val_main_v35 (F := Ideal) x0 a1 x2 x3 x4 x5 = refLayer (refLayer x0 x2 x3 a1) x4 x5 a1 := by
  rw [v35_eq x0 a1 x2 x3 x4 x5 h, v24_eq, v19_eq x0 a1 x2 x3 h, lin_stage, lin_stage]
  rfl

end Stages

/-- THE REFERENCE'S RESULT: when every word of the edge list is a node number, the last stage of the reference is
    layer 2 of layer 1, index by index. -/
theorem ref_result_eq (x0 : (⟨S10000x512, .f32⟩ : BufTy).Contents (Elt Ideal)) (a1 : (⟨S2x160000, .i32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal))
    (h : ∀ (r : Fin 2) (e : Fin 160000), 0 ≤ (a1 (ix2 r e)).toInt ∧ (a1 (ix2 r e)).toInt < 10000)
    (i : Fin 10000) (q : Fin 512) :
    Read.val_main_v35 (F := Ideal) x0 a1 x2 x3 x4 x5 (ix2 i q) = refLayer (refLayer x0 x2 x3 a1) x4 x5 a1 (ix2 i q) :=
  congrFun (ref_result_funext x0 a1 x2 x3 x4 x5 h) (ix2 i q)

end Cert.ReferenceIdeal.RefValue

end
-- ==== Proof.Val.Bridge.lean ====
/-
  The kernel's closed form meets the reference's.

  The kernel builds the adjacency counts adj i j, the number of edges from node j to node i, over 10240
  padded nodes, pads the features with 240 zero rows, and computes each layer as
  max (∑ j, adj i j * ((∑ k, X (j, k) * w (q, k)) + b q)) 0. When every word of the edge list is a node number
  below 10000, a padded node is the source of no edge, so its row (which holds the bias, not zero) meets the
  coefficient zero; and a sum of adj i j copies of a value is the sum over the edges from j to i of that value.
  Hence the sum over all padded nodes is the sum over the edges into i of the affine part at the edge's source:
  the reference's layer. No finiteness is used: the coefficients are counts.
-/
import proofs.«402366_j18588618457604_1_alg».proof.Proof.Val.Spec
import proofs.«402366_j18588618457604_1_alg».proof.Proof.Val.RefRun

noncomputable section

namespace Cert.KernelIdeal.Val

open Idealize.ShloMosaic Idealize.ShloMosaic.ValueIdx Cert.ReferenceIdeal.RefValue
open scoped BigOperators

abbrev SP : Shape := ⟨2, ![10240, 512]⟩
abbrev SW : Shape := ⟨2, ![512, 512]⟩
abbrev SB : Shape := ⟨1, ![512]⟩
abbrev SX : Shape := ⟨2, ![10000, 512]⟩
abbrev SE : Shape := ⟨2, ![2, 160000]⟩

/-- A node below 10000 among the 10240 padded nodes. -/
def pad (i : Fin 10000) : Fin 10240 := ⟨i.val, by omega⟩

theorem pad_val (i : Fin 10000) : (pad i).val = i.val := rfl

/-- The number of edges from j to i, as an extended real. -/
def adj (a : IVec SE 32) (i j : Fin 10240) : EReal :=
  ∑ _e ∈ Finset.univ.filter (fun e : Fin 160000 => (a (ix2 1 e)).toInt = (i.val : ℤ) ∧ (a (ix2 0 e)).toInt = (j.val : ℤ)), (1 : EReal)

/-- The features with 240 zero rows appended, by node and feature. -/
def xpad (x : SX.Idx → EReal) (i : Fin 10240) (k : Fin 512) : EReal :=
  if h : i.val < 10000 then x (ix2 ⟨i.val, h⟩ k) else 0

/-- The affine part over the padded nodes: (∑ k, X i k * w (q, k)) + b q. -/
def klin (X : Fin 10240 → Fin 512 → EReal) (w : SW.Idx → EReal) (b : SB.Idx → EReal) (i : Fin 10240) (q : Fin 512) : EReal :=
  (∑ k : Fin 512, X i k * w (ix2 q k)) + b (ix1 q)

/-- The aggregation over the padded nodes: max (∑ n, adj i n * H n q) 0. -/
def kagg (a : IVec SE 32) (H : Fin 10240 → Fin 512 → EReal) (i : Fin 10240) (q : Fin 512) : EReal :=
  max (∑ n : Fin 10240, adj a i n * H n q) 0

/-- One layer of the kernel. -/
def klayer (a : IVec SE 32) (X : Fin 10240 → Fin 512 → EReal) (w : SW.Idx → EReal) (b : SB.Idx → EReal) :
    Fin 10240 → Fin 512 → EReal :=
  kagg a (klin X w b)

variable (a : IVec SE 32) (hr : ∀ (r : Fin 2) (e : Fin 160000), 0 ≤ (a (ix2 r e)).toInt ∧ (a (ix2 r e)).toInt < 10000)

include hr in
/-- The source word of an edge is the padded number of its source row. -/
theorem src_iff (e : Fin 160000) (j : Fin 10240) : (a (ix2 0 e)).toInt = (j.val : ℤ) ↔ pad (srcRow a e) = j := by
  have h := srcRow_val a e (hr 0 e)
  rw [Fin.ext_iff, pad_val]
  omega

include hr in
/-- THE SUM OVER THE PADDED NODES IS THE SUM OVER THE EDGES: at a node i below 10000, for any values H. -/
theorem kagg_sum (H : Fin 10240 → EReal) (i : Fin 10000) :
    ∑ n : Fin 10240, adj a (pad i) n * H n
      = ∑ e ∈ Finset.univ.filter (fun e : Fin 160000 => (a (ix2 1 e)).toInt = (i.val : ℤ)), H (pad (srcRow a e)) := by
  have := count_law (E := Fin 160000) (N := Fin 10240) (fun e => (a (ix2 1 e)).toInt = (i.val : ℤ))
    (fun e => pad (srcRow a e)) H
  rw [← this]
  refine Finset.sum_congr rfl fun n _ => ?_
  have hf : Finset.univ.filter (fun e : Fin 160000 => (a (ix2 1 e)).toInt = (((pad i).val : ℕ) : ℤ) ∧ (a (ix2 0 e)).toInt = (n.val : ℤ))
      = Finset.univ.filter (fun e : Fin 160000 => (a (ix2 1 e)).toInt = (i.val : ℤ) ∧ pad (srcRow a e) = n) :=
    Finset.filter_congr fun e _ => by rw [pad_val, src_iff a hr e n]
  unfold adj
  rw [hf]

/-- The padded features at a node below 10000 are the features. -/
theorem xpad_pad (x : SX.Idx → EReal) (s : Fin 10000) (k : Fin 512) : xpad x (pad s) k = x (ix2 s k) := by
  unfold xpad
  rw [dif_pos (show (pad s).val < 10000 from s.isLt)]
  rfl

/-- The affine part at a node below 10000 sees only that node's row. -/
theorem klin_pad (X : Fin 10240 → Fin 512 → EReal) (x : SX.Idx → EReal) (w : SW.Idx → EReal) (b : SB.Idx → EReal)
    (hX : ∀ (s : Fin 10000) (k : Fin 512), X (pad s) k = x (ix2 s k)) (s : Fin 10000) (q : Fin 512) :
    klin X w b (pad s) q = lin x w b (ix2 s q) := by
  rw [lin_apply]
  unfold klin
  simp only [hX]

include hr in
/-- One layer of the kernel at a node below 10000 is the reference's layer, when the inputs agree on those nodes. -/
theorem klayer_pad (X : Fin 10240 → Fin 512 → EReal) (x : SX.Idx → EReal) (w : SW.Idx → EReal) (b : SB.Idx → EReal)
    (hX : ∀ (s : Fin 10000) (k : Fin 512), X (pad s) k = x (ix2 s k)) (i : Fin 10000) (q : Fin 512) :
    klayer a X w b (pad i) q = refLayer x w b a (ix2 i q) := by
  unfold klayer kagg refLayer
  rw [kagg_sum a hr (fun n => klin X w b n q) i, agg_apply]
  refine congrArg (fun z => max z 0) (Finset.sum_congr rfl fun e _ => ?_)
  exact klin_pad X x w b hX (srcRow a e) q

include hr in
/-- THE BRIDGE: two layers of the kernel over the padded features, read at a node below 10000, are the reference's
    two layers. -/
theorem kernel_eq_ref (x : SX.Idx → EReal) (w1 w2 : SW.Idx → EReal) (b1 b2 : SB.Idx → EReal) (i : Fin 10000) (q : Fin 512) :
    klayer a (klayer a (xpad x) w1 b1) w2 b2 (pad i) q = refLayer (refLayer x w1 b1 a) w2 b2 a (ix2 i q) :=
  klayer_pad a hr _ _ w2 b2 (fun s k => klayer_pad a hr (xpad x) x w1 b1 (xpad_pad x) s k) i q

end Cert.KernelIdeal.Val

end
-- ==== Proof.Val.Chain.lean ====
/-
  The four regions chained: two layers on arrays are two layers on the curried values.

  Region 0 leaves in its output array `affine X W₁ B₁` of the padded features, the first weights and the first bias
  row; region 1 leaves `aggRelu A H` of the adjacency counts and region 0's output; region 2 leaves `affine` of region
  1's output, the second weights and the second bias row; region 3 leaves `aggRelu` of the adjacency counts and region
  2's output. A region writes its own output array and no other, so each array a later region reads is either the
  output of the region before it or still what region 0 found. Substituting, the last array is
  `aggRelu A (affine (aggRelu A (affine X W₁ B₁)) W₂ B₂)`.

  Index by index this is the curried form: when `A (i, j) = adj i j`, `X (r, k) = Xf r k`, `W (k, q) = w (q, k)` (the
  weights are stored transposed) and `B (0, q) = b q`, then
  `aggRelu A (affine X W B) (r, q) = max (∑ j, adj r j * ((∑ k, Xf j k * w (q, k)) + b q)) 0 = klayer Xf w b r q`,
  term by term under the two sums. Applied twice — the inner layer's values are the outer layer's input — it gives the
  two layers over the padded features.
-/
import proofs.«402366_j18588618457604_1_alg».proof.Proof.Val.Linear
import proofs.«402366_j18588618457604_1_alg».proof.Proof.Val.Agg
import proofs.«402366_j18588618457604_1_alg».proof.Proof.Val.Bridge

set_option maxRecDepth 16384

noncomputable section

namespace Cert.KernelIdeal.Val

open Idealize.ShloMosaic Idealize.ShloMosaic.TcCoe Idealize.ShloMosaic.ValueIdx
open Cert.KernelIdeal Cert.KernelIdeal.Gen
open scoped BigOperators

/-! ## On arrays -/

/-- ONE LAYER on arrays is one layer on the curried values: the same products and sums, the weights read transposed
    and the bias read off its one row. -/
theorem layer_eq (a : IVec S2x160000 32) (A : S10240x10240.Idx → EReal) (X : S10240x512.Idx → EReal)
    (W : S512x512.Idx → EReal) (B : S1x512.Idx → EReal)
    (Xf : Fin 10240 → Fin 512 → EReal) (w : S512x512.Idx → EReal) (b : S512.Idx → EReal)
    (hA : ∀ i j : Fin 10240, A (ix2 i j) = adj a i j)
    (hX : ∀ (r : Fin 10240) (k : Fin 512), X (ix2 r k) = Xf r k)
    (hW : ∀ k q : Fin 512, W (ix2 k q) = w (ix2 q k))
    (hB : ∀ q : Fin 512, B (ix2 0 q) = b (ix1 q))
    (r : Fin 10240) (q : Fin 512) :
    aggRelu A (affine X W B) (ix2 r q) = klayer a Xf w b r q := by
  rw [aggRelu_apply]
  unfold klayer kagg klin
  refine congrArg (fun z => max z 0) (Finset.sum_congr rfl fun j _ => ?_)
  rw [hA r j, affine_apply, hB q]
  refine congrArg (fun z => adj a r j * (z + b (ix1 q))) (Finset.sum_congr rfl fun k _ => ?_)
  rw [hX j k, hW k q]

/-- TWO LAYERS on arrays: the inner layer's values are the outer layer's input. -/
theorem chain_core (a : IVec S2x160000 32) (A : S10240x10240.Idx → EReal) (X : S10240x512.Idx → EReal)
    (W1 W2 : S512x512.Idx → EReal) (B1 B2 : S1x512.Idx → EReal)
    (x0 : S10000x512.Idx → EReal) (x2 x4 : S512x512.Idx → EReal) (x3 x5 : S512.Idx → EReal)
    (hA : ∀ i j : Fin 10240, A (ix2 i j) = adj a i j)
    (hX : ∀ (r : Fin 10240) (k : Fin 512), X (ix2 r k) = xpad x0 r k)
    (hW1 : ∀ k q : Fin 512, W1 (ix2 k q) = x2 (ix2 q k)) (hB1 : ∀ q : Fin 512, B1 (ix2 0 q) = x3 (ix1 q))
    (hW2 : ∀ k q : Fin 512, W2 (ix2 k q) = x4 (ix2 q k)) (hB2 : ∀ q : Fin 512, B2 (ix2 0 q) = x5 (ix1 q))
    (r : Fin 10240) (q : Fin 512) :
    aggRelu A (affine (aggRelu A (affine X W1 B1)) W2 B2) (ix2 r q) = klayer a (klayer a (xpad x0) x2 x3) x4 x5 r q :=
  layer_eq a A (aggRelu A (affine X W1 B1)) W2 B2 (klayer a (xpad x0) x2 x3) x4 x5 hA
    (fun r k => layer_eq a A X W1 B1 (xpad x0) x2 x3 hA hX hW1 hB1 r k) hW2 hB2 r q

/-! ## Through the regions -/

variable (c : Dev nD) (V3 V4 V5 V6 : (c : Dev nD) → (b : Ref sig .tc) → Buf (Elt Ideal) ((c : Thread nD τ).loc b))

/-- THE CHAIN. `V3` is what region 0 finds, `V4`, `V5`, `V6` what regions 1, 2, 3 find: each differs from the one before
    only in the array the region between them wrote (`e4` / `k4`, `e5` / `k5`, `e6` / `k6`). With the arrays region 0
    finds read off the arguments (`h22` … `h20`), whatever array `out` holds region 3's function of what it finds
    (`e7`) is, index by index, the two layers over the padded features. -/
theorem chain_of (out : S10240x512.Idx → EReal)
    (x0 : S10000x512.Idx → EReal) (a1 : IVec S2x160000 32) (x2 x4 : S512x512.Idx → EReal) (x3 x5 : S512.Idx → EReal)
    (h22 : ∀ (r : Fin 10240) (k : Fin 512), V3 c main_v22 (ix2 r k) = xpad x0 r k)
    (h24 : ∀ k q : Fin 512, V3 c main_v24 (ix2 k q) = x2 (ix2 q k))
    (h27 : ∀ q : Fin 512, V3 c main_v27 (ix2 0 q) = x3 (ix1 q))
    (h26 : ∀ k q : Fin 512, V3 c main_v26 (ix2 k q) = x4 (ix2 q k))
    (h28 : ∀ q : Fin 512, V3 c main_v28 (ix2 0 q) = x5 (ix1 q))
    (h20 : ∀ i j : Fin 10240, V3 c main_v20 (ix2 i j) = adj a1 i j)
    (e4 : V4 c main_v29 = (Hand.dat0 V3 c).arrAt 3 cfg0.N) (k4 : ∀ b, b ≠ main_v29 → V4 c b = V3 c b)
    (e5 : V5 c main_v30 = (Hand.dat1 V4 c).arrAt 2 cfg1.N) (k5 : ∀ b, b ≠ main_v30 → V5 c b = V4 c b)
    (e6 : V6 c main_v31 = (Hand.dat2 V5 c).arrAt 3 cfg2.N) (k6 : ∀ b, b ≠ main_v31 → V6 c b = V5 c b)
    (e7 : out = aggRelu (V6 c main_v20) (V6 c main_v31))
    (r : Fin 10240) (q : Fin 512) :
    out (ix2 r q) = klayer a1 (klayer a1 (xpad x0) x2 x3) x4 x5 r q := by
  -- the arrays a later region reads that no region before it wrote are still what region 0 found
  have v20_4 : V4 c main_v20 = V3 c main_v20 := k4 main_v20 (by decide)
  have v26_4 : V4 c main_v26 = V3 c main_v26 := k4 main_v26 (by decide)
  have v28_4 : V4 c main_v28 = V3 c main_v28 := k4 main_v28 (by decide)
  have v20_5 : V5 c main_v20 = V4 c main_v20 := k5 main_v20 (by decide)
  have v26_5 : V5 c main_v26 = V4 c main_v26 := k5 main_v26 (by decide)
  have v28_5 : V5 c main_v28 = V4 c main_v28 := k5 main_v28 (by decide)
  have v20_6 : V6 c main_v20 = V5 c main_v20 := k6 main_v20 (by decide)
  -- each region's output array as its function of what the region found
  have a4 : V4 c main_v29 = affine (V3 c main_v22) (V3 c main_v24) (V3 c main_v27) := e4.trans (arr0_eq V3 c)
  have a5 : V5 c main_v30 = aggRelu (V4 c main_v20) (V4 c main_v29) := e5.trans (arr1_eq V4 c)
  have a6 : V6 c main_v31 = affine (V5 c main_v30) (V5 c main_v26) (V5 c main_v28) := e6.trans (arr2_eq V5 c)
  rw [e7, a6, a5, a4, v20_6, v20_5, v26_5, v28_5, v20_4, v26_4, v28_4]
  exact chain_core a1 (V3 c main_v20) (V3 c main_v22) (V3 c main_v24) (V3 c main_v26) (V3 c main_v27) (V3 c main_v28)
    x0 x2 x4 x3 x5 h20 h22 h24 h27 h26 h28 r q

end Cert.KernelIdeal.Val

end
-- ==== Proof.Val.Pre.lean ====
/-
  THE INDEX-RANGE CONJUNCT OF THE PRECONDITION, READ BACK. The precondition is a conjunction of one-bit words; its last
  conjunct is the "all" of the [2 × 160000] mask (0 ≤ edge) ∧ (edge < 10000), both comparisons signed, reduced by "and"
  over both axes from the word 1. The whole conjunction being 1 makes that reduction 1, so every element of the mask is
  1, so every entry of the edge table lies in [0, 10000) as a signed integer (idx_range).

  From the range: an entry is not below zero signed, so the select that adds a constant c to a negative entry returns
  the entry unchanged, whatever c is (used at c = 10000 and c = 10240); and the entry read signed and then as a natural
  is below 10000, so a clamp to [0, 9999] leaves it alone. Each is stated once for a single word under the bare range
  hypotheses, once for a vector of such words of any shape, and once for the entries of the edge table under the
  precondition (row 0 the sources, row 1 the destinations).
-/
import proofs.«402366_j18588618457604_1_alg».proof.Proof.Gen.Pre_finite_inputs
import Idealize.ShloMosaic.Lib.ReduceAll
import Idealize.ShloMosaic.Lib.ValueIdx

noncomputable section

namespace Cert.KernelIdeal.Val

open Idealize.ShloMosaic Idealize.ShloMosaic.ValueIdx
open Cert.Pre_finite_inputs (S10000x512 S2x160000 S512x512 S512 S_)

/-! ## Words: the two signed comparisons of the mask, and what follows from the range -/

/-- The word zero is the integer zero, and the word 10000 the integer 10000, read signed. -/
theorem toInt_zero32 : (0#32 : BitVec 32).toInt = 0 := by decide
theorem toInt_10000 : (10000#32 : BitVec 32).toInt = 10000 := by decide

/-- A one-bit word made from a truth value is 1 exactly when the value is true, and 0 exactly when it is false. -/
theorem ofBool_eq_one (b : Bool) : BitVec.ofBool b = 1#1 ↔ b = true := by cases b <;> decide
theorem ofBool_eq_zero (b : Bool) : BitVec.ofBool b = 0#1 ↔ b = false := by cases b <;> decide

/-- Signed "w ≥ 0" holds exactly when w read signed is non-negative. -/
theorem sge_zero_iff (w : BitVec 32) : IntOp.cmpi .sge w 0#32 = 1#1 ↔ 0 ≤ w.toInt := by
  unfold IntOp.cmpi
  rw [ofBool_eq_one]
  simp only [BitVec.sle, toInt_zero32, decide_eq_true_eq]

/-- Signed "w < c" holds exactly when w read signed is below c read signed. -/
theorem slt_iff (w c : BitVec 32) : IntOp.cmpi .slt w c = 1#1 ↔ w.toInt < c.toInt := by
  unfold IntOp.cmpi
  rw [ofBool_eq_one]
  simp only [BitVec.slt, decide_eq_true_eq]

/-- A non-negative word is not below zero, signed: that comparison is the word 0. -/
theorem slt_zero_of_nonneg {w : BitVec 32} (h : 0 ≤ w.toInt) : IntOp.cmpi .slt w 0#32 = 0#1 := by
  unfold IntOp.cmpi
  rw [ofBool_eq_zero]
  simp only [BitVec.slt, toInt_zero32, decide_eq_false_iff_not, not_lt]
  exact h

/-- So "if w < 0 then w + c else w" is w, for any c. -/
theorem select_wrap_of_nonneg {w : BitVec 32} (c : BitVec 32) (h : 0 ≤ w.toInt) :
    Scalar.select (IntOp.cmpi .slt w 0#32) (IntOp.addi w c) w = w := by
  rw [slt_zero_of_nonneg h, select_zero]

/-- A word in [0, 10000) signed, read signed and then as a natural, is below 10000. -/
theorem toNat_lt_of_range {w : BitVec 32} (h0 : 0 ≤ w.toInt) (h1 : w.toInt < 10000) : w.toInt.toNat < 10000 := by
  omega

/-- … is that natural as an integer … -/
theorem toInt_eq_toNat_of_nonneg {w : BitVec 32} (h0 : 0 ≤ w.toInt) : w.toInt = (w.toInt.toNat : ℤ) := by
  omega

/-- … and is left alone by the clamp to [0, 9999]. -/
theorem clamp_of_range {w : BitVec 32} (h0 : 0 ≤ w.toInt) (h1 : w.toInt < 10000) :
    min w.toInt.toNat 9999 = w.toInt.toNat := by
  omega

/-! ## Vectors of such words, of any shape -/

/-- Against a vector of zeros, the signed "below" of a vector of non-negative words is 0 everywhere. -/
theorem cmpi_slt_zero_of_nonneg {s : Shape} (idx z : IVec s 32) (hz : ∀ i, z i = 0#32) (h : ∀ i, 0 ≤ (idx i).toInt) :
    cmpi .slt idx z = fun _ => 0#1 := by
  funext i
  show IntOp.cmpi .slt (idx i) (z i) = 0#1
  rw [hz i]
  exact slt_zero_of_nonneg (h i)

/-- So the select "idx < 0 ? idx + c : idx" over the whole vector is the vector, for any vector c. -/
theorem select_wrap_eq {s : Shape} (idx z c : IVec s 32) (hz : ∀ i, z i = 0#32) (h : ∀ i, 0 ≤ (idx i).toInt) :
    select (cmpi .slt idx z) (addi idx c) idx = idx := by
  funext i
  show Scalar.select (IntOp.cmpi .slt (idx i) (z i)) (IntOp.addi (idx i) (c i)) (idx i) = idx i
  rw [hz i]
  exact select_wrap_of_nonneg (c i) (h i)

/-! ## The precondition read back -/

variable {F : FTy → Type} [FloatOps F]

/-- THE RANGE. Under the precondition every entry of the [2 × 160000] edge table is in [0, 10000), signed. -/
theorem idx_range (a0 : FVec F S10000x512 .f32) (a1 : IVec S2x160000 32) (a2 : FVec F S512x512 .f32)
    (a3 : FVec F S512 .f32) (a4 : FVec F S512x512 .f32) (a5 : FVec F S512 .f32)
    (h : Cert.Pre_finite_inputs.fn (F := F) a0 a1 a2 a3 a4 a5 = fun _ => 1#1) :
    ∀ (r : Fin 2) (e : Fin 160000),
      0 ≤ (a1 (ValueIdx.ix2 r e)).toInt ∧ (a1 (ValueIdx.ix2 r e)).toInt < 10000 := by
  intro r e
  -- the scalar shape has one index, so the reduction's one result collects every element of the mask
  haveI : Subsingleton S_.Idx := ⟨fun a b => funext fun d => d.elim0⟩
  have h0 := congrFun h ValueIdx.ix0
  dsimp only [Cert.Pre_finite_inputs.fn, Cert.Pre_finite_inputs.fn_part1] at h0
  -- the conjunction is 1, so its last conjunct, the reduction, is 1
  have hred := (IntOp.andi_eq_one.1 h0).2
  -- so the mask is 1 at (r, e)
  have hm := Host.reduce_andi_all _ _ _ _ _ hred (ValueIdx.ix2 r e)
  -- the mask at (r, e) is (edge ≥ 0) and (edge < 10000), each against a broadcast scalar
  obtain ⟨hge, hlt⟩ := IntOp.andi_eq_one.1 hm
  have hge' : IntOp.cmpi .sge (a1 (ValueIdx.ix2 r e)) 0#32 = 1#1 := hge
  have hlt' : IntOp.cmpi .slt (a1 (ValueIdx.ix2 r e)) 10000#32 = 1#1 := hlt
  refine ⟨(sge_zero_iff _).1 hge', ?_⟩
  have := (slt_iff _ _).1 hlt'
  rwa [toInt_10000] at this

section Rows

variable (a0 : FVec F S10000x512 .f32) (a1 : IVec S2x160000 32) (a2 : FVec F S512x512 .f32)
  (a3 : FVec F S512 .f32) (a4 : FVec F S512x512 .f32) (a5 : FVec F S512 .f32)
  (h : Cert.Pre_finite_inputs.fn (F := F) a0 a1 a2 a3 a4 a5 = fun _ => 1#1)

include h

/-- Under the precondition no entry of the edge table is below zero, signed (row 0: sources; row 1: destinations). -/
theorem idx_slt_zero (r : Fin 2) (e : Fin 160000) : IntOp.cmpi .slt (a1 (ValueIdx.ix2 r e)) 0#32 = 0#1 :=
  slt_zero_of_nonneg (idx_range a0 a1 a2 a3 a4 a5 h r e).1

/-- So the select that adds c to a negative entry returns the entry, for any c (in particular 10000 and 10240). -/
theorem idx_select_wrap (c : BitVec 32) (r : Fin 2) (e : Fin 160000) :
    Scalar.select (IntOp.cmpi .slt (a1 (ValueIdx.ix2 r e)) 0#32) (IntOp.addi (a1 (ValueIdx.ix2 r e)) c)
      (a1 (ValueIdx.ix2 r e)) = a1 (ValueIdx.ix2 r e) :=
  select_wrap_of_nonneg c (idx_range a0 a1 a2 a3 a4 a5 h r e).1

theorem idx_select_wrap_10000 (r : Fin 2) (e : Fin 160000) :
    Scalar.select (IntOp.cmpi .slt (a1 (ValueIdx.ix2 r e)) 0#32) (IntOp.addi (a1 (ValueIdx.ix2 r e)) 10000#32)
      (a1 (ValueIdx.ix2 r e)) = a1 (ValueIdx.ix2 r e) :=
  idx_select_wrap a0 a1 a2 a3 a4 a5 h 10000#32 r e

theorem idx_select_wrap_10240 (r : Fin 2) (e : Fin 160000) :
    Scalar.select (IntOp.cmpi .slt (a1 (ValueIdx.ix2 r e)) 0#32) (IntOp.addi (a1 (ValueIdx.ix2 r e)) 10240#32)
      (a1 (ValueIdx.ix2 r e)) = a1 (ValueIdx.ix2 r e) :=
  idx_select_wrap a0 a1 a2 a3 a4 a5 h 10240#32 r e

/-- Each entry, read signed and then as a natural, is below 10000 … -/
theorem idx_toNat_lt (r : Fin 2) (e : Fin 160000) : (a1 (ValueIdx.ix2 r e)).toInt.toNat < 10000 :=
  toNat_lt_of_range (idx_range a0 a1 a2 a3 a4 a5 h r e).1 (idx_range a0 a1 a2 a3 a4 a5 h r e).2

/-- … is that natural as an integer … -/
theorem idx_toInt_eq (r : Fin 2) (e : Fin 160000) :
    (a1 (ValueIdx.ix2 r e)).toInt = ((a1 (ValueIdx.ix2 r e)).toInt.toNat : ℤ) :=
  toInt_eq_toNat_of_nonneg (idx_range a0 a1 a2 a3 a4 a5 h r e).1

/-- … and is left alone by the clamp to [0, 9999]. -/
theorem idx_clamp (r : Fin 2) (e : Fin 160000) :
    min (a1 (ValueIdx.ix2 r e)).toInt.toNat 9999 = (a1 (ValueIdx.ix2 r e)).toInt.toNat :=
  clamp_of_range (idx_range a0 a1 a2 a3 a4 a5 h r e).1 (idx_range a0 a1 a2 a3 a4 a5 h r e).2

end Rows

end Cert.KernelIdeal.Val

end
-- ==== Proof.Val.Algebraic.lean ====
/-
  The last step of the algebraic claim. At the ideal instance the reference's result array is one closed function
  \`result\` of the six argument arrays (two graph layers: each the aggregation over the incoming edges of the affine
  image of the source rows, then the maximum with zero). If the kernel's run ends with its result array at that
  same function of its own arguments, then from memories that agree on the arguments both programs run, end with
  equal results and leave the arguments unchanged.

  The index-range conjunct of the precondition is what makes the reference's closed form valid (every word of the
  edge table is a node number); it is a statement about the kernel's memory, carried over to the reference's by the
  agreement of the two memories on the edge table.
-/
import proofs.«402366_j18588618457604_1_alg».proof.Defs
import proofs.«402366_j18588618457604_1_alg».proof.Proof.Gen.KernelIdeal
import proofs.«402366_j18588618457604_1_alg».proof.Proof.Gen.ReferenceIdeal
import proofs.«402366_j18588618457604_1_alg».proof.Proof.Gen.ReferenceIdeal.Run
import proofs.«402366_j18588618457604_1_alg».proof.Proof.Gen.ReferenceIdeal.Read
import proofs.«402366_j18588618457604_1_alg».proof.Proof.Gen.Pre_finite_inputs
import proofs.«402366_j18588618457604_1_alg».proof.Proof.Val.RefRun
import proofs.«402366_j18588618457604_1_alg».proof.Proof.Val.Pre

noncomputable section

namespace Cert.Proof.Alg

open Idealize.ShloMosaic Idealize.SL.Sem Idealize.ShloMosaic.ValueIdx

/-- THE RESULT both programs compute, as a function of the six arguments (features \`x0\`, edge table \`a1\`, the two
    layers' weights and biases): layer 2 of layer 1. -/
def result (x0 : Cert.ReferenceIdeal.S10000x512.Idx → EReal) (a1 : IVec Cert.ReferenceIdeal.S2x160000 32)
    (x2 : Cert.ReferenceIdeal.S512x512.Idx → EReal) (x3 : Cert.ReferenceIdeal.S512.Idx → EReal)
    (x4 : Cert.ReferenceIdeal.S512x512.Idx → EReal) (x5 : Cert.ReferenceIdeal.S512.Idx → EReal) :
    Cert.ReferenceIdeal.S10000x512.Idx → EReal :=
  Cert.ReferenceIdeal.RefValue.refLayer (Cert.ReferenceIdeal.RefValue.refLayer x0 x2 x3 a1) x4 x5 a1

theorem result_def (x0 : Cert.ReferenceIdeal.S10000x512.Idx → EReal) (a1 : IVec Cert.ReferenceIdeal.S2x160000 32)
    (x2 : Cert.ReferenceIdeal.S512x512.Idx → EReal) (x3 : Cert.ReferenceIdeal.S512.Idx → EReal)
    (x4 : Cert.ReferenceIdeal.S512x512.Idx → EReal) (x5 : Cert.ReferenceIdeal.S512.Idx → EReal) :
    result x0 a1 x2 x3 x4 x5 = Cert.ReferenceIdeal.RefValue.refLayer (Cert.ReferenceIdeal.RefValue.refLayer x0 x2 x3 a1) x4 x5 a1 := rfl

/-- THE REFERENCE'S SIDE. From any memory whose edge table holds node numbers only, the reference runs, ends with its
    result array at \`result\` of its arguments, and leaves the arguments unchanged. -/
theorem ref_side (m' : (ℓ : Loc Cert.ReferenceIdeal.nD Cert.ReferenceIdeal.τ Cert.ReferenceIdeal.sig) → Buf (Elt Ideal) ℓ)
    (ρ' : Dev Cert.ReferenceIdeal.nD → PrngReg)
    (hr : ∀ (c : Dev Cert.ReferenceIdeal.nD) (r : Fin 2) (e : Fin 160000),
      0 ≤ ((m' ((c.tc : Thread Cert.ReferenceIdeal.nD Cert.ReferenceIdeal.τ).loc Cert.ReferenceIdeal.main_arg1) : IVec Cert.ReferenceIdeal.S2x160000 32) (ix2 r e)).toInt
      ∧ ((m' ((c.tc : Thread Cert.ReferenceIdeal.nD Cert.ReferenceIdeal.τ).loc Cert.ReferenceIdeal.main_arg1) : IVec Cert.ReferenceIdeal.S2x160000 32) (ix2 r e)).toInt < 10000) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v35) = result (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) := by
  refine (θ_run (Cert.ReferenceIdeal.defs (F := Ideal)) _ _).mono (fun r h c => ?_) (Cert.ReferenceIdeal.Value.run (F := Ideal) m' ρ')
  refine ⟨(h c).1.trans ?_, (h c).2⟩
  exact (Cert.ReferenceIdeal.Read.val_main_v35_eq (F := Ideal) _ _ _ _ _ _).trans
    (Cert.ReferenceIdeal.RefValue.ref_result_funext _ _ _ _ _ _ (hr c))

/-- THE CLAIM, from the kernel's side alone: if under the precondition the kernel runs, ends with its result array at
    \`result\` of its arguments and leaves them unchanged, then kernel and reference, from memories that agree on the
    arguments, both run and end with equal results and unchanged arguments. -/
theorem algebraic_of
    (hk : ∀ (m : (ℓ : Loc Cert.KernelIdeal.nD Cert.KernelIdeal.τ Cert.KernelIdeal.sig) → Buf (Elt Ideal) ℓ) (g : Dev Cert.KernelIdeal.nD → PrngReg),
      Cert.Pre_KernelIdeal m →
      θ_run (Cert.KernelIdeal.defs (F := Ideal)) (onTc (τ := Cert.KernelIdeal.τ) (Cert.KernelIdeal.main (F := Ideal))) ⟨m, fun _ => 0, g⟩
        (fun r => ∀ c : Dev Cert.KernelIdeal.nD,
          r.2.mem ((c.tc : Thread Cert.KernelIdeal.nD Cert.KernelIdeal.τ).loc Cert.KernelIdeal.main_v33) = result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))) :
    Cert.algebraic_KernelIdeal_ReferenceIdeal := by
  intro m g m' g' hpre hagree
  refine ⟨fun c => result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), hk m g hpre, ?_⟩
  have hr : ∀ (c : Dev Cert.ReferenceIdeal.nD) (r : Fin 2) (e : Fin 160000),
      0 ≤ ((m' ((c.tc : Thread Cert.ReferenceIdeal.nD Cert.ReferenceIdeal.τ).loc Cert.ReferenceIdeal.main_arg1) : IVec Cert.ReferenceIdeal.S2x160000 32) (ix2 r e)).toInt
      ∧ ((m' ((c.tc : Thread Cert.ReferenceIdeal.nD Cert.ReferenceIdeal.τ).loc Cert.ReferenceIdeal.main_arg1) : IVec Cert.ReferenceIdeal.S2x160000 32) (ix2 r e)).toInt < 10000 := by
    intro c r e
    rw [(hagree c).2.1]
    exact Cert.KernelIdeal.Val.idx_range (F := Ideal) _ _ _ _ _ _ (hpre c) r e
  refine (θ_run (Cert.ReferenceIdeal.defs (F := Ideal)) _ _).mono (fun r h c => ?_) (ref_side m' g' hr)
  obtain ⟨h35, h0, h1, h2, h3, h4, h5⟩ := h c
  refine ⟨h35.trans ?_, h0, h1, h2, h3, h4, h5⟩
  rw [(hagree c).1, (hagree c).2.1, (hagree c).2.2.1, (hagree c).2.2.2.1, (hagree c).2.2.2.2.1, (hagree c).2.2.2.2.2]

end Cert.Proof.Alg

end
-- ==== Proof.Val.HostVals.lean ====
/-
  What the kernel program's host operations leave in the arrays its four regions read, and what its last host
  operation makes of the fourth region's output.

  Before the first region the program builds, from the six argument arrays (node features `x : [10000, 512]`, the
  edge list `a : [2, 160000]` with row 0 the source node and row 1 the destination node of each edge, two weights
  `w : [512, 512]` and two biases `b : [512]`):
  * the adjacency matrix `[10240, 10240]`: a matrix of zeros to which a one is added at cell `(dst' e, src' e)` for
    every edge `e`, where `v' = v + 10240` for a negative word `v` and `v' = v` otherwise; read at `(i, j)` it
    is the number of edges from `j` to `i` (for words that are node numbers no word is negative);
  * the features with 240 zero rows appended, `[10240, 512]`: row `i` of `x` for `i < 10000`, zero below;
  * each weight transposed: at `(k, j)` the weight at `(j, k)`;
  * each bias as a one-row matrix `[1, 512]`: at `(0, j)` the bias at `j`.
  The changes of float format on the way are the identity on extended reals.
  After the last region the result is the first 10000 rows of the `[10240, 512]` output.

  Every statement is over an arbitrary valuation of the buffers: the operations' results depend on the six
  arguments (and, for the last operation, on the fourth region's output array) only.
-/
import proofs.«402366_j18588618457604_1_alg».proof.Proof.Gen.KernelIdeal.Launch
import proofs.«402366_j18588618457604_1_alg».proof.Proof.Val.Spec
import proofs.«402366_j18588618457604_1_alg».proof.Proof.LibRowOps
import Idealize.ShloMosaic.Lib.StableHlo.Run
import Idealize.ShloMosaic.Lib.KernelVsHost
import Idealize.ShloMosaic.Lib.IdealHost
import Idealize.ShloMosaic.Lib.ValueLayout

noncomputable section

namespace Cert.KernelIdeal.Val

open Idealize.ShloMosaic Idealize.ShloMosaic.ValueIdx
open Cert.KernelIdeal Cert.KernelIdeal.Gen
open scoped BigOperators

/-! ## The operations' terms -/

/-- Row 0 of the edge list as a vector: the edges' source words. -/
def srcWords (a : IVec S2x160000 32) : IVec S160000 32 :=
  shapeCast S160000 (extractStridedSlice S1x160000 ![0, 0] a slices_S2x160000_S1x160000_0_0) shapeCasts_S1x160000_S160000

/-- Row 1 of the edge list as a vector: the edges' destination words. -/
def dstWords (a : IVec S2x160000 32) : IVec S160000 32 :=
  shapeCast S160000 (extractStridedSlice S1x160000 ![1, 0] a slices_S2x160000_S1x160000_1_0) shapeCasts_S1x160000_S160000

/-- A vector of index words with every negative word moved up by 10240, the padded number of nodes. -/
def wrapWords (v : IVec S160000 32) : IVec S160000 32 :=
  select (cmpi .slt v (broadcastInDim S160000 ![] bcast_S_S160000 (constantI S_ 32 0#32)))
    (addi v (broadcastInDim S160000 ![] bcast_S_S160000 (constantI S_ 32 10240#32))) v

/-- The cell of each edge: column 0 its (moved) destination word, column 1 its (moved) source word. -/
def edgeCells (a : IVec S2x160000 32) : IVec S160000x2 32 :=
  concatenate S160000x2 1
    [⟨S160000x1, broadcastInDim S160000x1 ![0] bcast_S160000_S160000x1_0 (wrapWords (dstWords a))⟩,
     ⟨S160000x1, broadcastInDim S160000x1 ![0] bcast_S160000_S160000x1_0 (wrapWords (srcWords a))⟩]
    concatenates_S160000x1_S160000x1_S160000x2_d1

/-- The adjacency matrix: a one added into a zero matrix at each edge's cell. -/
def adjMat (a : IVec S2x160000 32) : FVec Ideal S10240x10240 .bf16 :=
  truncf .bf16
    (Host.scatterAdd scatter_S10240x10240_S160000x2_S160000_n_01_01_1
      (broadcastInDim S10240x10240 ![] bcast_S_S10240x10240 (constant (F := Ideal) S_ .f32 0x00000000#32))
      (edgeCells a)
      (broadcastInDim S160000 ![] bcast_S_S160000 (constant (F := Ideal) S_ .f32 0x3F800000#32)))
    bitsLt_bf16_f32

/-- The features with 240 rows of the converted integer zero appended. -/
def xPadded (x : FVec Ideal S10000x512 .f32) : FVec Ideal S10240x512 .bf16 :=
  truncf .bf16
    (pad S10240x512 ![0, 0] ![240, 0] ![0, 0] x (sitofp (F := Ideal) .f32 (constantI S_ 32 0#32))
      pads_S10000x512_S10240x512_02400_000 h_S_)
    bitsLt_bf16_f32

/-- A weight transposed. -/
def wTransposed (w : FVec Ideal S512x512 .f32) : FVec Ideal S512x512 .bf16 :=
  truncf .bf16 (transpose S512x512 [1, 0] w transposes_S512x512_S512x512_1_0) bitsLt_bf16_f32

/-- A bias as a one-row matrix. -/
def biasRow (b : FVec Ideal S512 .f32) : FVec Ideal S1x512 .f32 :=
  shapeCast S1x512 b shapeCasts_S512_S1x512

/-- The first 10000 rows of a `[10240, 512]` array. -/
def firstRows (y : FVec Ideal S10240x512 .f32) : FVec Ideal S10000x512 .f32 :=
  extractStridedSlice S10000x512 ![0, 0] y slices_S10240x512_S10000x512_0_0

/-! ## The buffers after the host operations -/

section After
variable (W : Valuation τ sig (Elt Ideal))

local notation "hostPre" W => StableHlo.after (hostOps0_2 (F := Ideal)) (StableHlo.after (hostOps0_1 (F := Ideal)) (StableHlo.after (hostOps0 (F := Ideal)) W))

/-- After the three host stretches the aggregations' first operand is the adjacency matrix of the edge list. -/
theorem after_main_v20 : (hostPre W) (Proc.devRef .tc main_v20) = adjMat (W (Proc.devRef .tc main_arg1)) := by
  after_results_simp; rfl

/-- After the three host stretches the first linear layer's input is the padded features. -/
theorem after_main_v22 : (hostPre W) (Proc.devRef .tc main_v22) = xPadded (W (Proc.devRef .tc main_arg0)) := by
  after_results_simp; rfl

/-- The first layer's weight, transposed. -/
theorem after_main_v24 : (hostPre W) (Proc.devRef .tc main_v24) = wTransposed (W (Proc.devRef .tc main_arg2)) := by
  after_results_simp; rfl

/-- The second layer's weight, transposed. -/
theorem after_main_v26 : (hostPre W) (Proc.devRef .tc main_v26) = wTransposed (W (Proc.devRef .tc main_arg4)) := by
  after_results_simp; rfl

/-- The first layer's bias as a row. -/
theorem after_main_v27 : (hostPre W) (Proc.devRef .tc main_v27) = biasRow (W (Proc.devRef .tc main_arg3)) := by
  after_results_simp; rfl

/-- The second layer's bias as a row. -/
theorem after_main_v28 : (hostPre W) (Proc.devRef .tc main_v28) = biasRow (W (Proc.devRef .tc main_arg5)) := by
  after_results_simp; rfl

/-- The last host operation keeps the first 10000 rows of the second aggregation's output. -/
theorem after_main_v33 :
    StableHlo.after (hostOps4 (F := Ideal)) W (Proc.devRef .tc main_v33) = firstRows (W (Proc.devRef .tc main_v32)) := by
  after_results_simp; rfl

end After

/-! ## The terms read at an index -/

/-- The padded features at `(i, k)`: the features' row `i` while `i < 10000`, zero on the 240 appended rows. -/
theorem xPadded_apply (x : FVec Ideal S10000x512 .f32) (i : Fin 10240) (k : Fin 512) :
    xPadded x (ix2 i k) = if h : i.val < 10000 then x (ix2 ⟨i.val, h⟩ k) else 0 := by
  show pad S10240x512 ![0, 0] ![240, 0] ![0, 0] x (sitofp (F := Ideal) .f32 (constantI S_ 32 0#32))
      pads_S10000x512_S10240x512_02400_000 h_S_ (ix2 i k) = _
  split
  · next h =>
    exact pad_apply_of_inside _ _ _ x _ pads_S10000x512_S10240x512_02400_000 h_S_ (ix2 i k) (ix2 ⟨i.val, h⟩ k)
      (fun a => by
        match a with
        | ⟨0, _⟩ => show i.val = 0 + i.val * (0 + 1); omega
        | ⟨1, _⟩ => show k.val = 0 + k.val * (0 + 1); omega)
  · next h =>
    refine (pad_apply_of_not_inside _ _ _ x _ pads_S10000x512_S10240x512_02400_000 h_S_ (ix2 i k) (0 : Fin 2) ?_).trans ?_
    · show ¬(0 ≤ i.val ∧ (i.val - 0) % (0 + 1) = 0 ∧ (i.val - 0) / (0 + 1) < 10000)
      omega
    · show ((((0#32 : BitVec 32).toInt : ℤ) : ℝ) : EReal) = 0
      simp

/-- A transposed weight at `(k, j)` is the weight at `(j, k)`. -/
theorem wTransposed_apply (w : FVec Ideal S512x512 .f32) (k j : Fin 512) : wTransposed w (ix2 k j) = w (ix2 j k) :=
  transpose_ix2_apply w transposes_S512x512_S512x512_1_0 k j

/-- A bias row at `(0, j)` is the bias at `j`. -/
theorem biasRow_apply (b : FVec Ideal S512 .f32) (u : Fin 1) (j : Fin 512) : biasRow b (ix2 u j) = b (ix1 j) :=
  shapeCast_a_1a_apply b shapeCasts_S512_S1x512 u j

/-- The first rows at `(i, q)` are the array at the same row and column. -/
theorem firstRows_apply (y : FVec Ideal S10240x512 .f32) (i : Fin 10000) (q : Fin 512) :
    firstRows y (ix2 i q) = y (ix2 (Fin.castLE (by decide) i) q) :=
  slice2_axis0_apply 0 y slices_S10240x512_S10000x512_0_0 i q (Fin.castLE (by decide) i) (by show i.val = 0 + i.val; omega)

/-- The padded features on a row of the features. -/
theorem xPadded_apply_of_lt (x : FVec Ideal S10000x512 .f32) (i : Fin 10240) (k : Fin 512) (h : i.val < 10000) :
    xPadded x (ix2 i k) = x (ix2 ⟨i.val, h⟩ k) := by
  rw [xPadded_apply, dif_pos h]

/-- The padded features on an appended row. -/
theorem xPadded_apply_of_ge (x : FVec Ideal S10000x512 .f32) (i : Fin 10240) (k : Fin 512) (h : 10000 ≤ i.val) :
    xPadded x (ix2 i k) = 0 := by
  rw [xPadded_apply, dif_neg (by omega)]

/-! ### The adjacency matrix -/

/-- The source word of edge `e` is the edge list's entry `(0, e)`. -/
theorem srcWords_apply (a : IVec S2x160000 32) (e : Fin 160000) : srcWords a (ix1 e) = a (ix2 0 e) := by
  unfold srcWords
  refine (shapeCast_1a_a_apply _ shapeCasts_S1x160000_S160000 e).trans ?_
  exact slice2_axis0_apply 0 a slices_S2x160000_S1x160000_0_0 (0 : Fin 1) e (0 : Fin 2) rfl

/-- The destination word of edge `e` is the edge list's entry `(1, e)`. -/
theorem dstWords_apply (a : IVec S2x160000 32) (e : Fin 160000) : dstWords a (ix1 e) = a (ix2 1 e) := by
  unfold dstWords
  refine (shapeCast_1a_a_apply _ shapeCasts_S1x160000_S160000 e).trans ?_
  exact slice2_axis0_apply 1 a slices_S2x160000_S1x160000_1_0 (0 : Fin 1) e (1 : Fin 2) rfl

/-- A word that is not negative is not moved. -/
theorem wrapWords_apply (v : IVec S160000 32) (e : Fin 160000) (h0 : 0 ≤ (v (ix1 e)).toInt) :
    wrapWords v (ix1 e) = v (ix1 e) := by
  unfold wrapWords
  show (if IntOp.cmpi .slt (v (ix1 e)) (0#32) = 1 then _ else v (ix1 e)) = v (ix1 e)
  refine if_neg fun hc => ?_
  have hlt := IntOp.cmpi_slt.mp hc
  have hz : (0#32 : BitVec 32).toInt = 0 := by decide
  omega

/-- Column 0 of an edge's cell is its (moved) destination word. -/
theorem edgeCells_dst (a : IVec S2x160000 32) (e : Fin 160000) :
    edgeCells a (ix2 e 0) = wrapWords (dstWords a) (ix1 e) := by
  unfold edgeCells
  refine (Cert.LibRowOps.cat2_apply _ _ concatenates_S160000x1_S160000x1_S160000x2_d1 e 0).trans ?_
  show broadcastInDim S160000x1 ![0] bcast_S160000_S160000x1_0 (wrapWords (dstWords a)) (ix2 e 0) = _
  exact broadcastInDim_apply _ _ _ _ _ (fun ax => by
    match ax with
    | ⟨0, _⟩ => show e.val = if (160000 : ℕ) = 1 then 0 else e.val; rw [if_neg (by decide)])

/-- Column 1 of an edge's cell is its (moved) source word. -/
theorem edgeCells_src (a : IVec S2x160000 32) (e : Fin 160000) :
    edgeCells a (ix2 e 1) = wrapWords (srcWords a) (ix1 e) := by
  unfold edgeCells
  refine (Cert.LibRowOps.cat2_apply _ _ concatenates_S160000x1_S160000x1_S160000x2_d1 e 1).trans ?_
  show broadcastInDim S160000x1 ![0] bcast_S160000_S160000x1_0 (wrapWords (srcWords a)) (ix2 e 0) = _
  exact broadcastInDim_apply _ _ _ _ _ (fun ax => by
    match ax with
    | ⟨0, _⟩ => show e.val = if (160000 : ℕ) = 1 then 0 else e.val; rw [if_neg (by decide)])

/-- THE ADJACENCY MATRIX AT `(i, j)`, for an edge list whose words are node numbers: the number of edges with
    destination word `i` and source word `j`, as a sum of ones. -/
theorem adjMat_apply (a : IVec S2x160000 32)
    (h : ∀ (r : Fin 2) (e : Fin 160000), 0 ≤ (a (ix2 r e)).toInt ∧ (a (ix2 r e)).toInt < 10000) (i j : Fin 10240) :
    adjMat a (ix2 i j)
      = ∑ _e ∈ Finset.univ.filter (fun e : Fin 160000 =>
          (a (ix2 1 e)).toInt = (i.val : ℤ) ∧ (a (ix2 0 e)).toInt = (j.val : ℤ)), (1 : EReal) := by
  have hd : ∀ e, edgeCells a (ix2 e 0) = a (ix2 1 e) := fun e => by
    rw [edgeCells_dst, wrapWords_apply _ _ (by rw [dstWords_apply]; exact (h 1 e).1), dstWords_apply]
  have hs : ∀ e, edgeCells a (ix2 e 1) = a (ix2 0 e) := fun e => by
    rw [edgeCells_src, wrapWords_apply _ _ (by rw [srcWords_apply]; exact (h 0 e).1), srcWords_apply]
  have hfilter : (Finset.univ.filter fun e : Fin 160000 =>
        (edgeCells a (ix2 e 0)).toInt = (i.val : ℤ) ∧ (edgeCells a (ix2 e 1)).toInt = (j.val : ℤ))
      = Finset.univ.filter fun e : Fin 160000 => (a (ix2 1 e)).toInt = (i.val : ℤ) ∧ (a (ix2 0 e)).toInt = (j.val : ℤ) :=
    Finset.filter_congr fun e _ => by rw [hd e, hs e]
  unfold adjMat
  show Host.scatterAdd (F := Ideal) scatter_S10240x10240_S160000x2_S160000_n_01_01_1
      (broadcastInDim S10240x10240 ![] bcast_S_S10240x10240 (constant (F := Ideal) S_ .f32 0x00000000#32))
      (edgeCells a)
      (broadcastInDim S160000 ![] bcast_S_S160000 (constant (F := Ideal) S_ .f32 0x3F800000#32)) (ix2 i j) = _
  rw [scatterAdd_cells_apply, hfilter]
  have hzero : broadcastInDim S10240x10240 ![] bcast_S_S10240x10240 (constant (F := Ideal) S_ .f32 0x00000000#32) (ix2 i j) = 0 :=
    Ideal.ofBits_zero_f32
  rw [hzero, zero_add]
  exact Finset.sum_congr rfl fun e _ => Ideal.ofBits_one_f32

/-! ### The edges' nodes as row numbers of the adjacency matrix -/

/-- The destination node of edge `e`, kept inside the matrix's rows. For a word that is a node number it is that
    number (`dstNode_val`). -/
def dstNode (a : IVec S2x160000 32) (e : Fin 160000) : Fin 10240 :=
  ⟨min (a (ix2 1 e)).toInt.toNat 10239, by omega⟩

/-- The source node of edge `e`, kept inside the matrix's columns. -/
def srcNode (a : IVec S2x160000 32) (e : Fin 160000) : Fin 10240 :=
  ⟨min (a (ix2 0 e)).toInt.toNat 10239, by omega⟩

theorem dstNode_val (a : IVec S2x160000 32) (e : Fin 160000)
    (h : 0 ≤ (a (ix2 1 e)).toInt ∧ (a (ix2 1 e)).toInt < 10000) : ((dstNode a e).val : ℤ) = (a (ix2 1 e)).toInt := by
  show ((min (a (ix2 1 e)).toInt.toNat 10239 : ℕ) : ℤ) = _
  omega

theorem srcNode_val (a : IVec S2x160000 32) (e : Fin 160000)
    (h : 0 ≤ (a (ix2 0 e)).toInt ∧ (a (ix2 0 e)).toInt < 10000) : ((srcNode a e).val : ℤ) = (a (ix2 0 e)).toInt := by
  show ((min (a (ix2 0 e)).toInt.toNat 10239 : ℕ) : ℤ) = _
  omega

/-- A node-number word's destination node is below 10000. -/
theorem dstNode_lt (a : IVec S2x160000 32) (e : Fin 160000)
    (h : 0 ≤ (a (ix2 1 e)).toInt ∧ (a (ix2 1 e)).toInt < 10000) : (dstNode a e).val < 10000 := by
  have := dstNode_val a e h; omega

/-- A node-number word's source node is below 10000. -/
theorem srcNode_lt (a : IVec S2x160000 32) (e : Fin 160000)
    (h : 0 ≤ (a (ix2 0 e)).toInt ∧ (a (ix2 0 e)).toInt < 10000) : (srcNode a e).val < 10000 := by
  have := srcNode_val a e h; omega

theorem dstNode_eq_iff (a : IVec S2x160000 32) (e : Fin 160000)
    (h : 0 ≤ (a (ix2 1 e)).toInt ∧ (a (ix2 1 e)).toInt < 10000) (i : Fin 10240) :
    dstNode a e = i ↔ (a (ix2 1 e)).toInt = (i.val : ℤ) := by
  rw [← dstNode_val a e h, Fin.ext_iff]; omega

theorem srcNode_eq_iff (a : IVec S2x160000 32) (e : Fin 160000)
    (h : 0 ≤ (a (ix2 0 e)).toInt ∧ (a (ix2 0 e)).toInt < 10000) (j : Fin 10240) :
    srcNode a e = j ↔ (a (ix2 0 e)).toInt = (j.val : ℤ) := by
  rw [← srcNode_val a e h, Fin.ext_iff]; omega

/-- THE ADJACENCY MATRIX AT `(i, j)` over the edges' nodes: the number of edges from node `j` to node `i`. -/
theorem adjMat_apply_nodes (a : IVec S2x160000 32)
    (h : ∀ (r : Fin 2) (e : Fin 160000), 0 ≤ (a (ix2 r e)).toInt ∧ (a (ix2 r e)).toInt < 10000) (i j : Fin 10240) :
    adjMat a (ix2 i j)
      = ∑ _e ∈ Finset.univ.filter (fun e : Fin 160000 => dstNode a e = i ∧ srcNode a e = j), (1 : EReal) := by
  rw [adjMat_apply a h i j]
  refine Finset.sum_congr (Finset.filter_congr fun e _ => ?_) fun _ _ => rfl
  rw [dstNode_eq_iff a e (h 1 e), srcNode_eq_iff a e (h 0 e)]

/-! ## The buffers after the host operations, read at an index

The same facts with the argument's contents named: `x0`, `a1`, `x2` … stand for what the valuation holds at the
arguments. -/

section AfterAt
variable (W : Valuation τ sig (Elt Ideal))

local notation "hostPre" W => StableHlo.after (hostOps0_2 (F := Ideal)) (StableHlo.after (hostOps0_1 (F := Ideal)) (StableHlo.after (hostOps0 (F := Ideal)) W))

/-- The adjacency matrix the regions find, at `(i, j)`: the number of edges with destination word `i` and source
    word `j`, when every word of the edge list is a node number. -/
theorem after_main_v20_apply (a1 : IVec S2x160000 32) (h1 : W (Proc.devRef .tc main_arg1) = a1)
    (h : ∀ (r : Fin 2) (e : Fin 160000), 0 ≤ (a1 (ix2 r e)).toInt ∧ (a1 (ix2 r e)).toInt < 10000) (i j : Fin 10240) :
    (hostPre W) (Proc.devRef .tc main_v20) (ix2 i j)
      = ∑ _e ∈ Finset.univ.filter (fun e : Fin 160000 =>
          (a1 (ix2 1 e)).toInt = (i.val : ℤ) ∧ (a1 (ix2 0 e)).toInt = (j.val : ℤ)), (1 : EReal) := by
  rw [after_main_v20, h1]; exact adjMat_apply a1 h i j

/-- The padded features the first region finds, at `(r, k)`. -/
theorem after_main_v22_apply (x0 : FVec Ideal S10000x512 .f32) (h0 : W (Proc.devRef .tc main_arg0) = x0)
    (r : Fin 10240) (k : Fin 512) :
    (hostPre W) (Proc.devRef .tc main_v22) (ix2 r k) = if h : r.val < 10000 then x0 (ix2 ⟨r.val, h⟩ k) else 0 := by
  rw [after_main_v22, h0]; exact xPadded_apply x0 r k

/-- The first weight as the first region finds it, at `(k, q)`: the weight at `(q, k)`. -/
theorem after_main_v24_apply (x2 : FVec Ideal S512x512 .f32) (h2 : W (Proc.devRef .tc main_arg2) = x2) (k q : Fin 512) :
    (hostPre W) (Proc.devRef .tc main_v24) (ix2 k q) = x2 (ix2 q k) := by
  rw [after_main_v24, h2]; exact wTransposed_apply x2 k q

/-- The second weight as the third region finds it, at `(k, q)`: the weight at `(q, k)`. -/
theorem after_main_v26_apply (x4 : FVec Ideal S512x512 .f32) (h4 : W (Proc.devRef .tc main_arg4) = x4) (k q : Fin 512) :
    (hostPre W) (Proc.devRef .tc main_v26) (ix2 k q) = x4 (ix2 q k) := by
  rw [after_main_v26, h4]; exact wTransposed_apply x4 k q

/-- The first bias row at `(0, q)`. -/
theorem after_main_v27_apply (x3 : FVec Ideal S512 .f32) (h3 : W (Proc.devRef .tc main_arg3) = x3) (q : Fin 512) :
    (hostPre W) (Proc.devRef .tc main_v27) (ix2 0 q) = x3 (ix1 q) := by
  rw [after_main_v27, h3]; exact biasRow_apply x3 0 q

/-- The second bias row at `(0, q)`. -/
theorem after_main_v28_apply (x5 : FVec Ideal S512 .f32) (h5 : W (Proc.devRef .tc main_arg5) = x5) (q : Fin 512) :
    (hostPre W) (Proc.devRef .tc main_v28) (ix2 0 q) = x5 (ix1 q) := by
  rw [after_main_v28, h5]; exact biasRow_apply x5 0 q

/-- The result at `(i, q)`: the last region's output array at the same row and column. -/
theorem after_main_v33_apply (y : FVec Ideal S10240x512 .f32) (hy : W (Proc.devRef .tc main_v32) = y)
    (i : Fin 10000) (q : Fin 512) :
    StableHlo.after (hostOps4 (F := Ideal)) W (Proc.devRef .tc main_v33) (ix2 i q) = y (ix2 (Fin.castLE (by decide) i) q) := by
  rw [after_main_v33, hy]; exact firstRows_apply y i q

end AfterAt

end Cert.KernelIdeal.Val

end
-- ==== Proof.Val.KernelSide.lean ====
import proofs.«402366_j18588618457604_1_alg».proof.Proof.KernelIdeal.Run
import proofs.«402366_j18588618457604_1_alg».proof.Proof.Val.Chain
import proofs.«402366_j18588618457604_1_alg».proof.Proof.Val.Algebraic
import proofs.«402366_j18588618457604_1_alg».proof.Proof.Val.HostVals
/-! # The kernel's side of the algebraic claim

Under the precondition the kernel's run ends with its result array at the reference's closed form of the six
arguments, and leaves the arguments unchanged.

The run's final memory is the fold of @main's eight segments over the launch memory. Read at the result array it is
the first 10000 rows of region 3's output; each region writes its own output array and no other, so region 3's
output is two layers (aggregate with the adjacency counts, after the affine map) of what the host stretches
before region 0 made of the arguments: the features padded with zero rows, the weights transposed, the biases as rows,
and the adjacency counts of the edge table. When every word of the edge table is a node number below 10000 those two
layers, read at a node below 10000, are the reference's two layers. -/

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open scoped BigOperators

variable (m : (ℓ : Loc nD τ sig) → Buf (Elt Ideal) ℓ) (g : Dev nD → PrngReg)

/-! ## A region writes its own output array and no other

At a region's exit a buffer that is no window's array is as the region found it; an input window's array is as the
region found it too; only the output window's array has changed. -/

theorem keep4 (c : Dev nD) (b : Ref sig .tc) (hb : b ≠ main_v29) : V4 m g c b = V3 m g c b := by
  by_cases h : ∀ w, Pipeline.arrRef spec0 w ≠ b
  · exact W4_of_ne m g c b h
  · obtain ⟨w, hw⟩ := not_forall.mp h
    obtain rfl := not_not.mp hw
    match w with
    | ⟨0, _⟩ => exact (W4_arr m g c 0).trans (((dat0 (V3 m g) c).arrAt_in 0 rfl _).trans (A_eq0 (V3 m g) c 0))
    | ⟨1, _⟩ => exact (W4_arr m g c 1).trans (((dat0 (V3 m g) c).arrAt_in 1 rfl _).trans (A_eq0 (V3 m g) c 1))
    | ⟨2, _⟩ => exact (W4_arr m g c 2).trans (((dat0 (V3 m g) c).arrAt_in 2 rfl _).trans (A_eq0 (V3 m g) c 2))
    | ⟨3, _⟩ => exact absurd rfl hb

theorem keep5 (c : Dev nD) (b : Ref sig .tc) (hb : b ≠ main_v30) : V5 m g c b = V4 m g c b := by
  by_cases h : ∀ w, Pipeline.arrRef spec1 w ≠ b
  · exact W5_of_ne m g c b h
  · obtain ⟨w, hw⟩ := not_forall.mp h
    obtain rfl := not_not.mp hw
    match w with
    | ⟨0, _⟩ => exact (W5_arr m g c 0).trans (((dat1 (V4 m g) c).arrAt_in 0 rfl _).trans (A_eq1 (V4 m g) c 0))
    | ⟨1, _⟩ => exact (W5_arr m g c 1).trans (((dat1 (V4 m g) c).arrAt_in 1 rfl _).trans (A_eq1 (V4 m g) c 1))
    | ⟨2, _⟩ => exact absurd rfl hb

theorem keep6 (c : Dev nD) (b : Ref sig .tc) (hb : b ≠ main_v31) : V6 m g c b = V5 m g c b := by
  by_cases h : ∀ w, Pipeline.arrRef spec2 w ≠ b
  · exact W6_of_ne m g c b h
  · obtain ⟨w, hw⟩ := not_forall.mp h
    obtain rfl := not_not.mp hw
    match w with
    | ⟨0, _⟩ => exact (W6_arr m g c 0).trans (((dat2 (V5 m g) c).arrAt_in 0 rfl _).trans (A_eq2 (V5 m g) c 0))
    | ⟨1, _⟩ => exact (W6_arr m g c 1).trans (((dat2 (V5 m g) c).arrAt_in 1 rfl _).trans (A_eq2 (V5 m g) c 1))
    | ⟨2, _⟩ => exact (W6_arr m g c 2).trans (((dat2 (V5 m g) c).arrAt_in 2 rfl _).trans (A_eq2 (V5 m g) c 2))
    | ⟨3, _⟩ => exact absurd rfl hb

/-! ## What region 0 finds, and what the last host operation keeps

Region 0 is entered after the three host stretches, run from the launch memory; what they leave in the arrays the
regions read is, index by index, a plain function of the arguments. The last host operation keeps the first 10000
rows of region 3's output. -/

section HostFacts
variable (c : Dev nD)

/-- The features padded with zero rows. -/
theorem entry_v22 (r : Fin 10240) (k : Fin 512) :
    V3 m g c main_v22 (ix2 r k) = xpad (m ((c.tc : Thread nD τ).loc main_arg0)) r k :=
  after_main_v22_apply (W0 m g c) (m ((c.tc : Thread nD τ).loc main_arg0)) rfl r k
/-- The first weights, transposed. -/
theorem entry_v24 (k q : Fin 512) : V3 m g c main_v24 (ix2 k q) = m ((c.tc : Thread nD τ).loc main_arg2) (ix2 q k) :=
  after_main_v24_apply (W0 m g c) (m ((c.tc : Thread nD τ).loc main_arg2)) rfl k q
/-- The first bias, as a row. -/
theorem entry_v27 (q : Fin 512) : V3 m g c main_v27 (ix2 0 q) = m ((c.tc : Thread nD τ).loc main_arg3) (ix1 q) :=
  after_main_v27_apply (W0 m g c) (m ((c.tc : Thread nD τ).loc main_arg3)) rfl q
/-- The second weights, transposed. -/
theorem entry_v26 (k q : Fin 512) : V3 m g c main_v26 (ix2 k q) = m ((c.tc : Thread nD τ).loc main_arg4) (ix2 q k) :=
  after_main_v26_apply (W0 m g c) (m ((c.tc : Thread nD τ).loc main_arg4)) rfl k q
/-- The second bias, as a row. -/
theorem entry_v28 (q : Fin 512) : V3 m g c main_v28 (ix2 0 q) = m ((c.tc : Thread nD τ).loc main_arg5) (ix1 q) :=
  after_main_v28_apply (W0 m g c) (m ((c.tc : Thread nD τ).loc main_arg5)) rfl q
/-- The adjacency counts: the number of edges from node j to node i, when every word of the edge table is a node
    number below 10000. -/
theorem entry_v20 (hr : ∀ (r : Fin 2) (e : Fin 160000), 0 ≤ ((m ((c.tc : Thread nD τ).loc main_arg1) : IVec S2x160000 32) (ix2 r e)).toInt ∧ ((m ((c.tc : Thread nD τ).loc main_arg1) : IVec S2x160000 32) (ix2 r e)).toInt < 10000)
    (i j : Fin 10240) : V3 m g c main_v20 (ix2 i j) = adj (m ((c.tc : Thread nD τ).loc main_arg1)) i j :=
  after_main_v20_apply (W0 m g c) (m ((c.tc : Thread nD τ).loc main_arg1)) rfl hr i j
/-- The result array at a node below 10000 is region 3's output array at that node. -/
theorem tail_v33 (i : Fin 10000) (q : Fin 512) :
    W8 m g c (Proc.devRef .tc main_v33) (ix2 i q) = W7 m g c (Proc.devRef .tc main_v32) (ix2 (pad i) q) :=
  after_main_v33_apply (W7 m g c) (W7 m g c (Proc.devRef .tc main_v32)) rfl i q

end HostFacts

/-! ## The result array -/

/-- The fold at the result array is the reference's closed form of the arguments, when every word of the edge table
    is a node number below 10000. -/
theorem W8_result (c : Dev nD)
    (hr : ∀ (r : Fin 2) (e : Fin 160000), 0 ≤ ((m ((c.tc : Thread nD τ).loc main_arg1) : IVec S2x160000 32) (ix2 r e)).toInt ∧ ((m ((c.tc : Thread nD τ).loc main_arg1) : IVec S2x160000 32) (ix2 r e)).toInt < 10000) :
    W8 m g c (Proc.devRef .tc main_v33) = Cert.Proof.Alg.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  funext j
  obtain ⟨i, q, rfl⟩ : ∃ (i : Fin 10000) (q : Fin 512), j = ix2 i q := ⟨j 0, j 1, eq_ix2 j⟩
  rw [Cert.Proof.Alg.result_def]
  -- the first 10000 rows of region 3's output
  refine (tail_v33 m g c i q).trans ?_
  refine (congrFun (W7_arr m g c 2) (ix2 (pad i) q)).trans ?_
  -- two layers over what region 0 found
  refine (chain_of c (V3 m g) (V4 m g) (V5 m g) (V6 m g) ((dat3 (V6 m g) c).arrAt 2 cfg3.N)
    (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)) (m ((c.tc : Thread nD τ).loc main_arg5))
    (entry_v22 m g c) (entry_v24 m g c) (entry_v27 m g c) (entry_v26 m g c) (entry_v28 m g c) (entry_v20 m g c hr)
    (W4_arr m g c 3) (keep4 m g c) (W5_arr m g c 2) (keep5 m g c) (W6_arr m g c 3) (keep6 m g c)
    (arr3_eq (V6 m g) c) (pad i) q).trans ?_
  -- which at a node below 10000 are the reference's
  exact kernel_eq_ref (m ((c.tc : Thread nD τ).loc main_arg1)) hr (m ((c.tc : Thread nD τ).loc main_arg0)) (m ((c.tc : Thread nD τ).loc main_arg2)) (m ((c.tc : Thread nD τ).loc main_arg4)) (m ((c.tc : Thread nD τ).loc main_arg3)) (m ((c.tc : Thread nD τ).loc main_arg5)) i q

/-- THE KERNEL'S SIDE: under the precondition the kernel runs, ends with its result array at the reference's closed
    form of its arguments, and leaves the arguments unchanged. -/
theorem kernel_side (m : (ℓ : Loc nD τ sig) → Buf (Elt Ideal) ℓ) (g : Dev nD → PrngReg) (hpre : Cert.Pre_KernelIdeal m) :
    θ_run (defs (F := Ideal)) (onTc (τ := τ) (main (F := Ideal))) ⟨m, fun _ => 0, g⟩ (fun r => ∀ c : Dev nD,
      r.2.mem ((c.tc : Thread nD τ).loc main_v33) = Cert.Proof.Alg.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c =>
    ⟨(h c _ (mem_uc main_v33 (by decide))).trans
        (W8_result m g c (idx_range (F := Ideal) _ _ _ _ _ _ (hpre c))),
      (h c _ (mem_uc main_arg0 (by decide))).trans (W8_main_arg0 m g c),
      (h c _ (mem_uc main_arg1 (by decide))).trans (W8_main_arg1 m g c),
      (h c _ (mem_uc main_arg2 (by decide))).trans (W8_main_arg2 m g c),
      (h c _ (mem_uc main_arg3 (by decide))).trans (W8_main_arg3 m g c),
      (h c _ (mem_uc main_arg4 (by decide))).trans (W8_main_arg4 m g c),
      (h c _ (mem_uc main_arg5 (by decide))).trans (W8_main_arg5 m g c)⟩) (run m g)

end Cert.KernelIdeal.Val

end
-- ==== Proof.lean ====
/-
  Two layers of message passing on a graph, kernel against reference, over the extended reals.

  One layer takes node features x : [10000, 512], a weight w, a bias b and an edge list (row 0 the source, row 1 the
  destination of each of 160000 edges) and returns at node i the positive part of the sum, over the edges into i, of
  the affine image x·wᵀ + b of the edge's source row. The reference gathers the source rows and scatter-adds them by
  destination. The kernel counts the edges from j to i into a 10240 x 10240 adjacency matrix once, pads the
  features to 10240 rows, and computes each layer as two tiled products: the affine image of every padded row, then
  the adjacency matrix times that image, accumulated over five column blocks in a carried accumulator, with the
  positive part taken at the last block.

  The two agree when every word of the edge list is a node number in [0, 10000) (outside that range the reference
  itself indexes out of range): a padded row is then the source of no edge, so its affine image (the bias) meets the
  coefficient zero, and a product of the count of edges from j to i with a value is the sum of that value over those
  edges. Only commutativity and associativity of the sum and distributivity over nonnegative counts are used, so
  no finiteness of the float inputs is.

  Frames: each of the kernel program's four regions runs to its end from the buffer contents the items before it
  leave, its output array ending at the fold of its blocks; the reference's frame is its run with the result dropped.
  The idealized kernel is the printed kernel read over the extended reals (no rewrite), so the word-level frame is
  the same argument at the other instance.
-/
import proofs.«402366_j18588618457604_1_alg».proof.Defs
import proofs.«402366_j18588618457604_1_alg».proof.Proof.Gen.Kernel
import proofs.«402366_j18588618457604_1_alg».proof.Proof.Gen.KernelIdeal
import proofs.«402366_j18588618457604_1_alg».proof.Proof.Gen.ReferenceIdeal
import proofs.«402366_j18588618457604_1_alg».proof.Proof.Gen.ReferenceIdeal.Run
import proofs.«402366_j18588618457604_1_alg».proof.Proof.Gen.ReferenceIdeal.Read
import proofs.«402366_j18588618457604_1_alg».proof.Proof.Gen.Pre_finite_inputs
import proofs.«402366_j18588618457604_1_alg».proof.Proof.Kernel.Run
import proofs.«402366_j18588618457604_1_alg».proof.Proof.KernelIdeal.Run
import proofs.«402366_j18588618457604_1_alg».proof.Proof.Val.KernelSide
import proofs.«402366_j18588618457604_1_alg».proof.Proof.Val.Algebraic
import Idealize.ShloMosaic.Adequacy
import Idealize.ShloMosaic.Init

noncomputable section

namespace Cert.Proof

open Idealize.ShloMosaic Idealize.SL.Sem

/-- The word-level kernel runs to its end and leaves its arguments as launched. -/
theorem frame_k : Cert.frame_Kernel := fun m ρ _ => Cert.Kernel.Hand.frame m ρ

/-- The idealized kernel runs to its end and leaves its arguments as launched. -/
theorem frame_ki : Cert.frame_KernelIdeal := fun m ρ _ => Cert.KernelIdeal.Hand.frame m ρ

/-- The reference runs to its end and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the reference's two layers of the arguments. -/
theorem algebraic : Cert.algebraic_KernelIdeal_ReferenceIdeal :=
  Cert.Proof.Alg.algebraic_of Cert.KernelIdeal.Val.kernel_side

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
